-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S131072x4 : Shape := ⟨2, ![131072, 4]⟩
abbrev S131072x4x2 : Shape := ⟨3, ![131072, 4, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S131072x4 : S_.BroadcastsInDim S131072x4 (![] : Fin 0 → Fin S131072x4.rank)
  reducesTo_S131072x4_S_d0_1 : S131072x4.ReducesTo [0, 1] S_

variable [Facts]

def fn {F : FTy → Type} [FloatOps F] (main_arg0 : FVec F S50000x64 .f32) (main_arg1 : FVec F S131072x4 .f32) (main_arg2 : IVec S131072x4x2 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S131072x4 .f32 := Host.absf main_arg1
  let main_cst_0 : FVec F S_ .f32 := constant S_ .f32 0x7F800000#32
  let main_v5 : FVec F S131072x4 .f32 := broadcastInDim S131072x4 ![] bcast_S_S131072x4 main_cst_0
  let main_v6 : IVec S131072x4 1 := cmpf .olt main_v4 main_v5
  let main_c_1 : IVec S_ 1 := constantI S_ 1 1#1
  let main_v7 : IVec S_ 1 := (fun x v => Host.reduce IntOp.andi x v reducesTo_S131072x4_S_d0_1 h_S_) main_v6 main_c_1
  let main_v8 : IVec S_ 1 := andi main_v3 main_v7
  main_v8
-- ==== Kernel.lean ====
abbrev S50000x64 : Shape := ⟨2, ![50000, 64]⟩
abbrev S131072x4 : Shape := ⟨2, ![131072, 4]⟩
abbrev S131072x4x2 : Shape := ⟨3, ![131072, 4, 2]⟩
abbrev S4x131072 : Shape := ⟨2, ![4, 131072]⟩
abbrev S4x2x131072 : Shape := ⟨3, ![4, 2, 131072]⟩
abbrev S8x131072 : Shape := ⟨2, ![8, 131072]⟩
abbrev S4x16384 : Shape := ⟨2, ![4, 16384]⟩
abbrev S4x2x16384 : Shape := ⟨3, ![4, 2, 16384]⟩
abbrev S8x16384 : Shape := ⟨2, ![8, 16384]⟩
abbrev S1x16384 : Shape := ⟨2, ![1, 16384]⟩
abbrev S4x1x16384 : Shape := ⟨3, ![4, 1, 16384]⟩
abbrev S16384 : Shape := ⟨1, ![16384]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩

abbrev nBuf : Space → Nat
  | .hbm => 27
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S131072x4, .f32⟩
  | .hbm, ⟨2, _⟩ => ⟨S131072x4x2, .i32⟩
  | .hbm, ⟨3, _⟩ => ⟨S4x131072, .f32⟩
  | .hbm, ⟨4, _⟩ => ⟨S4x2x131072, .i32⟩
  | .hbm, ⟨5, _⟩ => ⟨S8x131072, .i32⟩
  | .hbm, ⟨6, _⟩ => ⟨S8x131072, .i32⟩
  | .hbm, ⟨7, _⟩ => ⟨S8x131072, .f32⟩
  | .hbm, ⟨8, _⟩ => ⟨S1048576, .i32⟩
  | .hbm, ⟨9, _⟩ => ⟨S1048576, .i32⟩
  | .hbm, ⟨10, _⟩ => ⟨S1048576, .f32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576x64, .f32⟩
  | .hbm, ⟨20, _⟩ => ⟨S1048576x1, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S50000x64, .f32⟩
  | .hbm, ⟨25, _⟩ => ⟨S1048576x1, .i32⟩
  | .hbm, ⟨26, _⟩ => ⟨S50000x64, .f32⟩
  | .local _ .vmem, ⟨0, _⟩ => ⟨S4x16384, .f32⟩
  | .local _ .vmem, ⟨1, _⟩ => ⟨S4x16384, .f32⟩
  | .local _ .vmem, ⟨2, _⟩ => ⟨S4x2x16384, .i32⟩
  | .local _ .vmem, ⟨3, _⟩ => ⟨S4x2x16384, .i32⟩
  | .local _ .vmem, ⟨4, _⟩ => ⟨S8x16384, .i32⟩
  | .local _ .vmem, ⟨5, _⟩ => ⟨S8x16384, .i32⟩
  | .local _ .vmem, ⟨6, _⟩ => ⟨S8x16384, .i32⟩
  | .local _ .vmem, ⟨7, _⟩ => ⟨S8x16384, .i32⟩
  | .local _ .vmem, ⟨8, _⟩ => ⟨S8x16384, .f32⟩
  | .local _ .vmem, ⟨9, _⟩ => ⟨S8x16384, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S131072x4_S4x131072_1_0 : S131072x4.Transposes [1, 0] S4x131072
  transposes_S131072x4x2_S4x2x131072_1_2_0 : S131072x4x2.Transposes [1, 2, 0] S4x2x131072
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  inb_S4x2x16384_S4x2x16384_0_0_0 : ∀ a, (![0, 0, 0] : Fin 3 → Nat) a + S4x2x16384.size a ≤ S4x2x16384.size a
  h_S4x2x16384 : 0 < S4x2x16384.numel
  shapeCasts_S4x2x16384_S4x2x16384 : S4x2x16384.ShapeCasts S4x2x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  concatenates_S1x16384_S1x16384_S1x16384_S1x16384_S4x16384_d0 : Shape.Concatenates [S1x16384, S1x16384, S1x16384, S1x16384] S4x16384 0
  slices_S4x2x16384_o0_0_0_S4x1x16384 : S4x2x16384.Slices ![0, 0, 0] S4x1x16384
  shapeCasts_S4x1x16384_S4x16384 : S4x1x16384.ShapeCasts S4x16384
  slices_S4x2x16384_o0_1_0_S4x1x16384 : S4x2x16384.Slices ![0, 1, 0] S4x1x16384
  concatenates_S4x16384_S4x16384_S8x16384_d0 : Shape.Concatenates [S4x16384, S4x16384] S8x16384 0
  broadcasts_S1x16384_S8x16384 : S1x16384.Broadcasts S8x16384
  reduces_S8x16384_S16384 : S8x16384.Reduces [0] S16384
  shapeCasts_S16384_S1x16384 : S16384.ShapeCasts S1x16384
  inb_S8x16384_S8x16384_0_0 : ∀ a, (![0, 0] : Fin 2 → Nat) a + S8x16384.size a ≤ S8x16384.size a
  h_S8x16384 : 0 < S8x16384.numel
  shapeCasts_S8x131072_S1048576 : S8x131072.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S50000x64 : S_.BroadcastsInDim S50000x64 (![] : Fin 0 → Fin S50000x64.rank)
  gather_S50000x64_S1048576x1_S1048576x64_1_0_n_n_0_1_164_wf : GatherDims.WF S50000x64 S1048576x1 S1048576x64 [1] [0] [] [0] [] 1 ![1, 64]
  scatter_S50000x64_S1048576x1_S1048576x64_1_0_0_1_wf : ScatterDims.WF S50000x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16384.size a ≤ S4x131072.size a
  hwx0_0 : ∀ i : grid0.Coords, EltTy.bits .f32 = 32 ∨ (Rect.block (s := S4x131072) S4x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x16384.size a ≤ S4x2x131072.size a
  hwx0_1 : ∀ i : grid0.Coords, EltTy.bits .i32 = 32 ∨ (Rect.block (s := S4x2x131072) S4x2x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16384.size a ≤ S8x131072.size a
  hwx0_2 : ∀ i : grid0.Coords, EltTy.bits .i32 = 32 ∨ (Rect.block (s := S8x131072) S8x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S8x131072.size a
  hwx0_3 : ∀ i : grid0.Coords, EltTy.bits .i32 = 32 ∨ (Rect.block (s := S8x131072) S8x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16384.size a ≤ S8x131072.size a
  hwx0_4 : ∀ i : grid0.Coords, EltTy.bits .f32 = 32 ∨ (Rect.block (s := S8x131072) S8x16384.size (cc0_transform_4 i) (hinb0_4 i)).WholeWords (EltTy.packing .f32)

variable [Facts₀]

def gather_S50000x64_S1048576x1_S1048576x64_1_0_n_n_0_1_164 : GatherDims S50000x64 S1048576x1 S1048576x64 where
  offsetDims := [1]
  collapsedSliceDims := [0]
  operandBatchingDims := []
  startIndicesBatchingDims := []
  startIndexMap := [0]
  indexVectorDim := 1
  sliceSizes := ![1, 64]
  wf := gather_S50000x64_S1048576x1_S1048576x64_1_0_n_n_0_1_164_wf
def scatter_S50000x64_S1048576x1_S1048576x64_1_0_0_1 : ScatterDims S50000x64 S1048576x1 S1048576x64 where
  updateWindowDims := [1]
  insertedWindowDims := [0]
  scatterDimsToOperandDims := [0]
  indexVectorDim := 1
  wf := scatter_S50000x64_S1048576x1_S1048576x64_1_0_0_1_wf

abbrev win0_0 : Pipeline.Window sig grid0 :=
  Pipeline.Window.ofSpec (Memref.whole main_v0) S4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x16384.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S131072x4 : Shape := ⟨2, ![131072, 4]⟩
abbrev S131072x4x2 : Shape := ⟨3, ![131072, 4, 2]⟩
abbrev S2 : Shape := ⟨1, ![2]⟩
abbrev S4x2 : Shape := ⟨2, ![4, 2]⟩
abbrev S131072x2 : Shape := ⟨2, ![131072, 2]⟩
abbrev S_ : Shape := ⟨0, ![]⟩
abbrev S1x2 : Shape := ⟨2, ![1, 2]⟩
abbrev S131072x1 : Shape := ⟨2, ![131072, 1]⟩
abbrev S131072 : Shape := ⟨1, ![131072]⟩
abbrev S1x4x2 : Shape := ⟨3, ![1, 4, 2]⟩
abbrev S131072x1x2 : Shape := ⟨3, ![131072, 1, 2]⟩
abbrev S131072x8x2 : Shape := ⟨3, ![131072, 8, 2]⟩
abbrev S131072x8 : Shape := ⟨2, ![131072, 8]⟩
abbrev S131072x8x1 : Shape := ⟨3, ![131072, 8, 1]⟩
abbrev S1048576 : Shape := ⟨1, ![1048576]⟩
abbrev S1048576x1 : Shape := ⟨2, ![1048576, 1]⟩
abbrev S1048576x64 : Shape := ⟨2, ![1048576, 64]⟩

abbrev nBuf : Space → Nat
  | .hbm => 113
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S131072x4, .f32⟩
  | .hbm, ⟨2, _⟩ => ⟨S131072x4x2, .i32⟩
  | .hbm, ⟨3, _⟩ => ⟨S2, .f32⟩
  | .hbm, ⟨4, _⟩ => ⟨S2, .f32⟩
  | .hbm, ⟨5, _⟩ => ⟨S4x2, .i1⟩
  | .hbm, ⟨6, _⟩ => ⟨S131072x2, .f32⟩
  | .hbm, ⟨7, _⟩ => ⟨S131072x2, .f32⟩
  | .hbm, ⟨8, _⟩ => ⟨S131072x2, .f32⟩
  | .hbm, ⟨9, _⟩ => ⟨S_, .f32⟩
  | .hbm, ⟨10, _⟩ => ⟨S131072x2, .f32⟩
  | .hbm, ⟨11, _⟩ => ⟨S131072x2, .f32⟩
  | .hbm, ⟨12, _⟩ => ⟨S_, .f32⟩
  | .hbm, ⟨13, _⟩ => ⟨S131072x2, .f32⟩
  | .hbm, ⟨14, _⟩ => ⟨S131072x2, .f32⟩
  | .hbm, ⟨15, _⟩ => ⟨S1x2, .f32⟩
  | .hbm, ⟨16, _⟩ => ⟨S131072x2, .f32⟩
  | .hbm, ⟨17, _⟩ => ⟨S131072x2, .f32⟩
  | .hbm, ⟨18, _⟩ => ⟨S131072x1, .f32⟩
  | .hbm, ⟨19, _⟩ => ⟨S_, .f32⟩
  | .hbm, ⟨20, _⟩ => ⟨S131072x1, .f32⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072x1, .f32⟩
  | .hbm, ⟨26, _⟩ => ⟨S131072x1, .f32⟩
  | .hbm, ⟨27, _⟩ => ⟨S131072x1, .i1⟩
  | .hbm, ⟨28, _⟩ => ⟨S131072x1, .f32⟩
  | .hbm, ⟨29, _⟩ => ⟨S131072x1, .f32⟩
  | .hbm, ⟨30, _⟩ => ⟨S131072x1, .f32⟩
  | .hbm, ⟨31, _⟩ => ⟨S131072x1, .f32⟩
  | .hbm, ⟨32, _⟩ => ⟨S131072x1, .f32⟩
  | .hbm, ⟨33, _⟩ => ⟨S131072x1, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S131072x1, .f32⟩
  | .hbm, ⟨38, _⟩ => ⟨S131072x1, .f32⟩
  | .hbm, ⟨39, _⟩ => ⟨S1x2, .f32⟩
  | .hbm, ⟨40, _⟩ => ⟨S131072x2, .f32⟩
  | .hbm, ⟨41, _⟩ => ⟨S131072x2, .f32⟩
  | .hbm, ⟨42, _⟩ => ⟨S131072x2, .f32⟩
  | .hbm, ⟨43, _⟩ => ⟨S_, .f32⟩
  | .hbm, ⟨44, _⟩ => ⟨S131072x2, .f32⟩
  | .hbm, ⟨45, _⟩ => ⟨S131072x2, .f32⟩
  | .hbm, ⟨46, _⟩ => ⟨S131072x1, .f32⟩
  | .hbm, ⟨47, _⟩ => ⟨S131072, .f32⟩
  | .hbm, ⟨48, _⟩ => ⟨S1x4x2, .i1⟩
  | .hbm, ⟨49, _⟩ => ⟨S131072x1x2, .f32⟩
  | .hbm, ⟨50, _⟩ => ⟨S131072x1x2, .f32⟩
  | .hbm, ⟨51, _⟩ => ⟨S131072x1x2, .f32⟩
  | .hbm, ⟨52, _⟩ => ⟨S131072x4x2, .i1⟩
  | .hbm, ⟨53, _⟩ => ⟨S131072x4x2, .f32⟩
  | .hbm, ⟨54, _⟩ => ⟨S131072x4x2, .f32⟩
  | .hbm, ⟨55, _⟩ => ⟨S131072x4x2, .f32⟩
  | .hbm, ⟨56, _⟩ => ⟨S131072x4x2, .i32⟩
  | .hbm, ⟨57, _⟩ => ⟨S131072x8x2, .i32⟩
  | .hbm, ⟨58, _⟩ => ⟨S131072x8x2, .f32⟩
  | .hbm, ⟨59, _⟩ => ⟨S131072x1x2, .f32⟩
  | .hbm, ⟨60, _⟩ => ⟨S131072x8x2, .f32⟩
  | .hbm, ⟨61, _⟩ => ⟨S131072x8x2, .f32⟩
  | .hbm, ⟨62, _⟩ => ⟨S131072x1x2, .f32⟩
  | .hbm, ⟨63, _⟩ => ⟨S_, .f32⟩
  | .hbm, ⟨64, _⟩ => ⟨S131072x1x2, .f32⟩
  | .hbm, ⟨65, _⟩ => ⟨S131072x1x2, .f32⟩
  | .hbm, ⟨66, _⟩ => ⟨S_, .f32⟩
  | .hbm, ⟨67, _⟩ => ⟨S131072x1x2, .f32⟩
  | .hbm, ⟨68, _⟩ => ⟨S131072x1x2, .f32⟩
  | .hbm, ⟨69, _⟩ => ⟨S131072x1x2, .f32⟩
  | .hbm, ⟨70, _⟩ => ⟨S131072x8x2, .f32⟩
  | .hbm, ⟨71, _⟩ => ⟨S131072x8x2, .f32⟩
  | .hbm, ⟨72, _⟩ => ⟨S131072x8x2, .f32⟩
  | .hbm, ⟨73, _⟩ => ⟨S_, .f32⟩
  | .hbm, ⟨74, _⟩ => ⟨S131072x8, .f32⟩
  | .hbm, ⟨75, _⟩ => ⟨S_, .f32⟩
  | .hbm, ⟨76, _⟩ => ⟨S131072x8, .f32⟩
  | .hbm, ⟨77, _⟩ => ⟨S131072x8, .f32⟩
  | .hbm, ⟨78, _⟩ => ⟨S131072x8, .f32⟩
  | .hbm, ⟨79, _⟩ => ⟨S_, .f32⟩
  | .hbm, ⟨80, _⟩ => ⟨S131072x8, .f32⟩
  | .hbm, ⟨81, _⟩ => ⟨S131072x8, .f32⟩
  | .hbm, ⟨82, _⟩ => ⟨S_, .f32⟩
  | .hbm, ⟨83, _⟩ => ⟨S131072, .f32⟩
  | .hbm, ⟨84, _⟩ => ⟨S131072x1, .f32⟩
  | .hbm, ⟨85, _⟩ => ⟨S131072x8, .f32⟩
  | .hbm, ⟨86, _⟩ => ⟨S131072x8, .f32⟩
  | .hbm, ⟨87, _⟩ => ⟨S131072x1, .f32⟩
  | .hbm, ⟨88, _⟩ => ⟨S131072x8, .f32⟩
  | .hbm, ⟨89, _⟩ => ⟨S131072x8, .f32⟩
  | .hbm, ⟨90, _⟩ => ⟨S131072x8x1, .i32⟩
  | .hbm, ⟨91, _⟩ => ⟨S131072x8, .i32⟩
  | .hbm, ⟨92, _⟩ => ⟨S1048576, .i32⟩
  | .hbm, ⟨93, _⟩ => ⟨S131072x8x1, .i32⟩
  | .hbm, ⟨94, _⟩ => ⟨S131072x8, .i32⟩
  | .hbm, ⟨95, _⟩ => ⟨S1048576, .i32⟩
  | .hbm, ⟨96, _⟩ => ⟨S1048576, .f32⟩
  | .hbm, ⟨97, _⟩ => ⟨S_, .i32⟩
  | .hbm, ⟨98, _⟩ => ⟨S1048576, .i32⟩
  | .hbm, ⟨99, _⟩ => ⟨S1048576, .i1⟩
  | .hbm, ⟨100, _⟩ => ⟨S_, .i32⟩
  | .hbm, ⟨101, _⟩ => ⟨S1048576, .i32⟩
  | .hbm, ⟨102, _⟩ => ⟨S1048576, .i32⟩
  | .hbm, ⟨103, _⟩ => ⟨S1048576, .i32⟩
  | .hbm, ⟨104, _⟩ => ⟨S1048576x1, .i32⟩
  | .hbm, ⟨105, _⟩ => ⟨S1048576x64, .f32⟩
  | .hbm, ⟨106, _⟩ => ⟨S1048576x1, .f32⟩
  | .hbm, ⟨107, _⟩ => ⟨S1048576x64, .f32⟩
  | .hbm, ⟨108, _⟩ => ⟨S1048576x64, .f32⟩
  | .hbm, ⟨109, _⟩ => ⟨S_, .f32⟩
  | .hbm, ⟨110, _⟩ => ⟨S50000x64, .f32⟩
  | .hbm, ⟨111, _⟩ => ⟨S1048576x1, .i32⟩
  | .hbm, ⟨112, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]

class Facts₀ : Prop where
  slices_S131072x4_S131072x2_0_0 : S131072x4.Slices ![0, 0] S131072x2
  bcast_S_S131072x2 : S_.BroadcastsInDim S131072x2 (![] : Fin 0 → Fin S131072x2.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  slices_S131072x4_S131072x1_0_2 : S131072x4.Slices ![0, 2] S131072x1
  bcast_S_S131072x1 : S_.BroadcastsInDim S131072x1 (![] : Fin 0 → Fin S131072x1.rank)
  bcast_S131072x1_S131072x2_0_1 : S131072x1.BroadcastsInDim S131072x2 (![0, 1] : Fin 2 → Fin S131072x2.rank)
  slices_S131072x4_S131072x1_0_3 : S131072x4.Slices ![0, 3] S131072x1
  shapeCasts_S131072x1_S131072 : S131072x1.ShapeCasts S131072
  bcast_S4x2_S1x4x2_1_2 : S4x2.BroadcastsInDim S1x4x2 (![1, 2] : Fin 2 → Fin S1x4x2.rank)
  bcast_S131072x2_S131072x1x2_0_2 : S131072x2.BroadcastsInDim S131072x1x2 (![0, 2] : Fin 2 → Fin S131072x1x2.rank)
  bcast_S1x4x2_S131072x4x2_0_1_2 : S1x4x2.BroadcastsInDim S131072x4x2 (![0, 1, 2] : Fin 3 → Fin S131072x4x2.rank)
  bcast_S131072x1x2_S131072x4x2_0_1_2 : S131072x1x2.BroadcastsInDim S131072x4x2 (![0, 1, 2] : Fin 3 → Fin S131072x4x2.rank)
  concatenates_S131072x4x2_S131072x4x2_S131072x8x2_d1 : Shape.Concatenates [S131072x4x2, S131072x4x2] S131072x8x2 1
  bcast_S131072x1x2_S131072x8x2_0_1_2 : S131072x1x2.BroadcastsInDim S131072x8x2 (![0, 1, 2] : Fin 3 → Fin S131072x8x2.rank)
  bcast_S_S131072x1x2 : S_.BroadcastsInDim S131072x1x2 (![] : Fin 0 → Fin S131072x1x2.rank)
  reducesTo_S131072x8x2_S131072x8_d2 : S131072x8x2.ReducesTo [2] S131072x8
  h_S_ : 0 < S_.numel
  bcast_S_S131072x8 : S_.BroadcastsInDim S131072x8 (![] : Fin 0 → Fin S131072x8.rank)
  reducesTo_S131072x8_S131072_d1 : S131072x8.ReducesTo [1] S131072
  bcast_S131072_S131072x1_0 : S131072.BroadcastsInDim S131072x1 (![0] : Fin 1 → Fin S131072x1.rank)
  bcast_S131072x1_S131072x8_0_1 : S131072x1.BroadcastsInDim S131072x8 (![0, 1] : Fin 2 → Fin S131072x8.rank)
  slices_S131072x8x2_S131072x8x1_0_0_0 : S131072x8x2.Slices ![0, 0, 0] S131072x8x1
  shapeCasts_S131072x8x1_S131072x8 : S131072x8x1.ShapeCasts S131072x8
  shapeCasts_S131072x8_S1048576 : S131072x8.ShapeCasts S1048576
  slices_S131072x8x2_S131072x8x1_0_0_1 : S131072x8x2.Slices ![0, 0, 1] S131072x8x1
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S50000x64 : S_.BroadcastsInDim S50000x64 (![] : Fin 0 → Fin S50000x64.rank)
  gather_S50000x64_S1048576x1_S1048576x64_1_0_n_n_0_1_164_wf : GatherDims.WF S50000x64 S1048576x1 S1048576x64 [1] [0] [] [0] [] 1 ![1, 64]
  scatter_S50000x64_S1048576x1_S1048576x64_1_0_0_1_wf : ScatterDims.WF S50000x64 S1048576x1 S1048576x64 [1] [0] [0] 1

variable [Facts₀]

def gather_S50000x64_S1048576x1_S1048576x64_1_0_n_n_0_1_164 : GatherDims S50000x64 S1048576x1 S1048576x64 where
  offsetDims := [1]
  collapsedSliceDims := [0]
  operandBatchingDims := []
  startIndicesBatchingDims := []
  startIndexMap := [0]
  indexVectorDim := 1
  sliceSizes := ![1, 64]
  wf := gather_S50000x64_S1048576x1_S1048576x64_1_0_n_n_0_1_164_wf
def scatter_S50000x64_S1048576x1_S1048576x64_1_0_0_1 : ScatterDims S50000x64 S1048576x1 S1048576x64 where
  updateWindowDims := [1]
  insertedWindowDims := [0]
  scatterDimsToOperandDims := [0]
  indexVectorDim := 1
  wf := scatter_S50000x64_S1048576x1_S1048576x64_1_0_0_1_wf

class Facts : Prop extends Facts₀ where

variable [Facts]
-- ==== Proof.Spec.lean ====
/-
  A sparse layer whose non-zeros are placed by a small hypernetwork. Every one of the 131072 samples carries four
  reals (two centre coordinates before the logistic squashing, a raw width, a value) and four integer pairs drawn
  at random. A sample proposes eight matrix entries: the four lattice corners around its centre (floor or ceiling
  on each axis) and the four drawn pairs. Each proposal is weighed by the density of an axis-parallel gaussian
  centred at the sample's centre, the eight densities are normalised to sum to one (up to a small regulariser),
  and the value is spread over the proposals in that proportion. The layer's output is the product of the sparse
  matrix with those entries and the feature matrix: every proposal gathers one feature row, scales it, and adds
  it into one output row.

  This module states that mathematics once, over extended reals: the per-sample scalars, the three arrays of
  proposals (row index, column index, weight), the two orders in which the 8 * 131072 proposals can be listed
  (proposal-major and sample-major) with the permutation between them, and the gather-scale-scatter that turns a
  list of proposals into the output.
-/
import Idealize.ShloMosaic.PureOps.Ideal
import Idealize.ShloMosaic.PureOps.Contract
import Idealize.ShloMosaic.PureOps.ShapeOps
import Idealize.ShloMosaic.Lib.ValueIdx

noncomputable section

open scoped BigOperators

namespace Cert.Hyper

open Idealize.ShloMosaic Idealize.ShloMosaic.ValueIdx

/-! ## Shapes -/

abbrev SX : Shape := ⟨2, ![50000, 64]⟩
abbrev SP : Shape := ⟨2, ![131072, 4]⟩
abbrev SS : Shape := ⟨3, ![131072, 4, 2]⟩
abbrev SE : Shape := ⟨1, ![1048576]⟩
abbrev SE1 : Shape := ⟨2, ![1048576, 1]⟩
abbrev SE64 : Shape := ⟨2, ![1048576, 64]⟩
abbrev S0 : Shape := ⟨0, ![]⟩

/-! ## The constants, as the extended reals their binary patterns denote -/

def k49999 : EReal := Ideal.ofBits .f32 0x47434F00#32
def k50000 : EReal := Ideal.ofBits .f32 0x47435000#32
def kFifth : EReal := Ideal.ofBits .f32 0x3E4CCCCD#32
def kEps : EReal := Ideal.ofBits .f32 0x358637BD#32
def kTwo : EReal := Ideal.ofBits .f32 0x40000000#32
def kZero : EReal := Ideal.ofBits .f32 0x00000000#32
def kNegHalf : EReal := Ideal.ofBits .f32 0xBF000000#32

/-! ## One sample -/

/-- A centre coordinate: the logistic function of the raw parameter, stretched over [0, 49999]. -/
def centre (p : EReal) : EReal := Ideal.logistic p * k49999

/-- log (1 + e^x) in its stable form max x 0 + log1p (e^(-|x|)); the guard in front tests whether x - 0 differs
    from itself, which no extended real does. -/
def softplus (x : EReal) : EReal :=
  Scalar.select (Ideal.cmp .one (x - kZero) (x - kZero)) (x + kZero)
    (max x kZero + Ideal.log1p (Ideal.exp (kZero - max (x - kZero) (-(x - kZero)))))

/-- The gaussian's variance along either axis (both axes have 50000 lattice points). -/
def spread (p : EReal) : EReal := ((softplus (p + kTwo) + kEps) * k50000) * kFifth

/-- One over the standard deviation. -/
def invDev (p : EReal) : EReal := Ideal.rsqrt (kEps + spread p)

def lo (p : EReal) : EReal := Ideal.liftRound Int.floor (centre p)
def hi (p : EReal) : EReal := Ideal.liftRound Int.ceil (centre p)

/-- The drawn pair a proposal c >= 4 refers to. -/
def drawn (c : Fin 8) : Fin 4 := ⟨c.val % 4, Nat.mod_lt _ (by decide)⟩

/-- Row coordinate of proposal c, as a real: floor, floor, ceiling, ceiling, then the four drawn rows. -/
def rowF (p0 : EReal) (s : Fin 4 → Fin 2 → BitVec 32) (c : Fin 8) : EReal :=
  if c.val < 4 then (if c.val < 2 then lo p0 else hi p0) else (((s (drawn c) 0).toInt : ℝ) : EReal)

/-- Column coordinate of proposal c, as a real: floor, ceiling, floor, ceiling, then the four drawn columns. -/
def colF (p1 : EReal) (s : Fin 4 → Fin 2 → BitVec 32) (c : Fin 8) : EReal :=
  if c.val < 4 then (if c.val % 2 = 0 then lo p1 else hi p1) else (((s (drawn c) 1).toInt : ℝ) : EReal)

/-- Row coordinate of proposal c, as a machine integer. -/
def rowI (p0 : EReal) (s : Fin 4 → Fin 2 → BitVec 32) (c : Fin 8) : BitVec 32 :=
  if c.val < 4 then Ideal.fptosi 32 (if c.val < 2 then lo p0 else hi p0) else s (drawn c) 0

/-- Column coordinate of proposal c, as a machine integer. -/
def colI (p1 : EReal) (s : Fin 4 → Fin 2 → BitVec 32) (c : Fin 8) : BitVec 32 :=
  if c.val < 4 then Ideal.fptosi 32 (if c.val % 2 = 0 then lo p1 else hi p1) else s (drawn c) 1

/-- Unnormalised gaussian density of proposal c: exp (-(dr^2 + dc^2) / 2) of the standardised offsets. -/
def dens (p0 p1 p2 : EReal) (s : Fin 4 → Fin 2 → BitVec 32) (c : Fin 8) : EReal :=
  Ideal.exp (kNegHalf *
    (((rowF p0 s c - centre p0) * invDev p2) * ((rowF p0 s c - centre p0) * invDev p2)
      + ((colF p1 s c - centre p1) * invDev p2) * ((colF p1 s c - centre p1) * invDev p2)))

/-- The normaliser: the eight regularised densities summed. -/
def mass (p0 p1 p2 : EReal) (s : Fin 4 → Fin 2 → BitVec 32) : EReal :=
  ∑ c : Fin 8, (dens p0 p1 p2 s c + kEps)

/-- The matrix entry proposal c contributes. -/
def weight (p0 p1 p2 p3 : EReal) (s : Fin 4 → Fin 2 → BitVec 32) (c : Fin 8) : EReal :=
  p3 * Ideal.div (dens p0 p1 p2 s c) (mass p0 p1 p2 s)

/-! ## All samples -/

/-- Sample k's four drawn pairs. -/
def pairs (I : SS.Idx → BitVec 32) (k : Fin 131072) : Fin 4 → Fin 2 → BitVec 32 := fun a b => I (ix3 k a b)

def rowsAt (P : SP.Idx → EReal) (I : SS.Idx → BitVec 32) (c : Fin 8) (k : Fin 131072) : BitVec 32 :=
  rowI (P (ix2 k 0)) (pairs I k) c

def colsAt (P : SP.Idx → EReal) (I : SS.Idx → BitVec 32) (c : Fin 8) (k : Fin 131072) : BitVec 32 :=
  colI (P (ix2 k 1)) (pairs I k) c

def weightsAt (P : SP.Idx → EReal) (I : SS.Idx → BitVec 32) (c : Fin 8) (k : Fin 131072) : EReal :=
  weight (P (ix2 k 0)) (P (ix2 k 1)) (P (ix2 k 2)) (P (ix2 k 3)) (pairs I k) c

/-! ## Listing the proposals -/

/-- Proposal-major order: entry e is proposal e / 131072 of sample e % 131072. -/
def byProposal {α : Type} (f : Fin 8 → Fin 131072 → α) : SE.Idx → α := fun e =>
  f ⟨(e 0).val / 131072, Nat.div_lt_of_lt_mul (e 0).isLt⟩ ⟨(e 0).val % 131072, Nat.mod_lt _ (by decide)⟩

/-- Sample-major order: entry e is proposal e % 8 of sample e / 8. -/
def bySample {α : Type} (f : Fin 8 → Fin 131072 → α) : SE.Idx → α := fun e =>
  f ⟨(e 0).val % 8, Nat.mod_lt _ (by decide)⟩ ⟨(e 0).val / 8, Nat.div_lt_of_lt_mul (e 0).isLt⟩

/-- Where the e-th entry of the sample-major list sits in the proposal-major one. -/
def toProposalMajor : Equiv.Perm (Fin 1048576) where
  toFun e := ⟨(e.val % 8) * 131072 + e.val / 8, by have := e.isLt; omega⟩
  invFun e := ⟨(e.val % 131072) * 8 + e.val / 131072, by have := e.isLt; omega⟩
  left_inv e := by apply Fin.ext; have := e.isLt; simp only []; omega
  right_inv e := by apply Fin.ext; have := e.isLt; simp only []; omega

theorem bySample_eq {α : Type} (f : Fin 8 → Fin 131072 → α) :
    bySample f = fun e => byProposal f (ix1 (toProposalMajor (e 0))) := by
  funext e
  have h : (e 0).val < 1048576 := (e 0).isLt
  unfold bySample byProposal toProposalMajor
  simp only [Equiv.coe_fn_mk]
  congr 1 <;> apply Fin.ext <;> simp only [] <;> omega

/-! ## From a list of proposals to the output -/

theorem bcast_S0_SX : S0.BroadcastsInDim SX (![] : Fin 0 → Fin SX.rank) := by decide
theorem bcast_S0_SE : S0.BroadcastsInDim SE (![] : Fin 0 → Fin SE.rank) := by decide
theorem bcast_SE_SE1 : SE.BroadcastsInDim SE1 (![0] : Fin 1 → Fin SE1.rank) := by decide
theorem bcast_SE1_SE64 : SE1.BroadcastsInDim SE64 (![0, 1] : Fin 2 → Fin SE64.rank) := by decide

/-- Row gather: entry e of the result is the feature row named by entry e of the indices. -/
def rowGather : GatherDims SX SE1 SE64 where
  offsetDims := [1]
  collapsedSliceDims := [0]
  operandBatchingDims := []
  startIndicesBatchingDims := []
  startIndexMap := [0]
  indexVectorDim := 1
  sliceSizes := ![1, 64]

/-- Row scatter: entry e of the updates lands on the output row named by entry e of the indices. -/
def rowScatter : ScatterDims SX SE1 SE64 where
  updateWindowDims := [1]
  insertedWindowDims := [0]
  scatterDimsToOperandDims := [0]
  indexVectorDim := 1

/-- The sparse product from a list of proposals: a negative column index counts from the end, the named feature
    row is gathered and scaled by the weight, and the result is added into the named output row of a zero matrix
    (a row index outside the matrix drops its proposal). -/
def tail (x : FVec Ideal SX .f32) (rows cols : IVec SE 32) (w : FVec Ideal SE .f32) : FVec Ideal SX .f32 :=
  Host.scatterAdd rowScatter
    (broadcastInDim SX ![] bcast_S0_SX (constant (F := Ideal) S0 .f32 0x00000000#32))
    (broadcastInDim SE1 ![0] bcast_SE_SE1 rows)
    (mulf
      (Host.gather rowGather x
        (broadcastInDim SE1 ![0] bcast_SE_SE1
          (select (cmpi .slt cols (broadcastInDim SE ![] bcast_S0_SE (constantI S0 32 0#32)))
            (addi cols (broadcastInDim SE ![] bcast_S0_SE (constantI S0 32 50000#32))) cols)))
      (broadcastInDim SE64 ![0, 1] bcast_SE1_SE64 (broadcastInDim SE1 ![0] bcast_SE_SE1 w)))

end Cert.Hyper

end
-- ==== Proof.TailPerm.lean ====
/-
  The sparse product does not depend on the order in which the proposals are listed: it is, row by row, a sum
  over the proposals that name that row, and a sum over a finite set is invariant under a permutation of it.
-/
import proofs.«401185_j46634754900206_1_alg».proof.Proof.Spec

noncomputable section

open scoped BigOperators

namespace Cert.Hyper

open Idealize.ShloMosaic Idealize.ShloMosaic.ValueIdx

/-! ## The permutation, acting on the update indices -/

/-- A permutation of the proposals moves the proposal coordinate of an update index and keeps its feature
    coordinate. -/
def liftPerm (σ : Equiv.Perm (Fin 1048576)) : SE64.Idx ≃ SE64.Idx where
  toFun j := ix2 (σ (j 0)) (j 1)
  invFun j := ix2 (σ.symm (j 0)) (j 1)
  left_inv j := by
    funext a
    match a with
    | ⟨0, _⟩ => exact σ.symm_apply_apply (j 0)
    | ⟨1, _⟩ => rfl
  right_inv j := by
    funext a
    match a with
    | ⟨0, _⟩ => exact σ.apply_symm_apply (j 0)
    | ⟨1, _⟩ => rfl

theorem liftPerm_zero (σ : Equiv.Perm (Fin 1048576)) (j : SE64.Idx) : liftPerm σ j 0 = σ (j 0) := rfl
theorem liftPerm_one (σ : Equiv.Perm (Fin 1048576)) (j : SE64.Idx) : liftPerm σ j 1 = j 1 := rfl

/-! ## The broadcasts read at an index -/

/-- A list of proposals seen as a one-column matrix: entry (e, 0) is entry e. -/
theorem bc1_apply {α : Type} (v : SE.Idx → α) (k : SE1.Idx) :
    broadcastInDim SE1 ![0] bcast_SE_SE1 v k = v (ix1 (k 0)) := by
  unfold broadcastInDim
  congr 1
  funext a
  match a with
  | ⟨0, _⟩ => rfl

/-- A list of proposals repeated along the 64 features: entry (e, f) is entry e. -/
theorem bc64_apply {α : Type} (v : SE.Idx → α) (j : SE64.Idx) :
    broadcastInDim SE64 ![0, 1] bcast_SE1_SE64 (broadcastInDim SE1 ![0] bcast_SE_SE1 v) j = v (ix1 (j 0)) := by
  unfold broadcastInDim
  congr 1
  funext a
  match a with
  | ⟨0, _⟩ => rfl

/-! ## Where an update lands -/

/-- The scatter reads the row of update (e, f) at entry e of the index list. -/
theorem scatter_siIdx_zero (j : SE64.Idx) (c : Fin rowScatter.scatterDimsToOperandDims.length) :
    (rowScatter.siIdx j c) 0 = j 0 := rfl

theorem scatter_start_perm (σ : Equiv.Perm (Fin 1048576)) (rows : IVec SE 32) (j : SE64.Idx) (a : Fin SX.rank) :
    rowScatter.start j (broadcastInDim SE1 ![0] bcast_SE_SE1 (fun e : SE.Idx => rows (ix1 (σ (e 0))))) a
      = rowScatter.start (liftPerm σ j) (broadcastInDim SE1 ![0] bcast_SE_SE1 rows) a := by
  unfold ScatterDims.start
  by_cases ha : a ∈ rowScatter.scatterDimsToOperandDims
  · rw [dif_pos ha, dif_pos ha, bc1_apply, bc1_apply, scatter_siIdx_zero, scatter_siIdx_zero, liftPerm_zero]
  · rw [dif_neg ha, dif_neg ha]

theorem scatter_window_perm (σ : Equiv.Perm (Fin 1048576)) (j : SE64.Idx) (a : Fin SX.rank) :
    rowScatter.window j a = rowScatter.window (liftPerm σ j) a := by
  match a with
  | ⟨0, _⟩ => rfl
  | ⟨1, _⟩ => rfl

/-- Update (e, f) of the permuted list lands where update (σ e, f) of the original list does. -/
theorem resultIdx_perm (σ : Equiv.Perm (Fin 1048576)) (rows : IVec SE 32) (j : SE64.Idx) :
    rowScatter.resultIdx? j (broadcastInDim SE1 ![0] bcast_SE_SE1 (fun e : SE.Idx => rows (ix1 (σ (e 0)))))
      = rowScatter.resultIdx? (liftPerm σ j) (broadcastInDim SE1 ![0] bcast_SE_SE1 rows) := by
  unfold ScatterDims.resultIdx?
  simp only [scatter_start_perm σ rows j, ← scatter_window_perm σ j]

/-! ## What an update carries -/

theorem gather_siIdx_zero (j : SE64.Idx) (c : Fin rowGather.startIndexMap.length) :
    (rowGather.siIdx j c) 0 = j 0 := rfl

theorem gather_start_perm (σ : Equiv.Perm (Fin 1048576)) (cols : IVec SE 32) (j : SE64.Idx) (a : Fin SX.rank) :
    rowGather.start j (broadcastInDim SE1 ![0] bcast_SE_SE1 (fun e : SE.Idx => cols (ix1 (σ (e 0))))) a
      = rowGather.start (liftPerm σ j) (broadcastInDim SE1 ![0] bcast_SE_SE1 cols) a := by
  unfold GatherDims.start
  by_cases ha : a ∈ rowGather.startIndexMap
  · rw [dif_pos ha, dif_pos ha, bc1_apply, bc1_apply, gather_siIdx_zero, gather_siIdx_zero, liftPerm_zero]
  · rw [dif_neg ha, dif_neg ha]

theorem gather_batch_perm (σ : Equiv.Perm (Fin 1048576)) (j : SE64.Idx) (a : Fin SX.rank) :
    rowGather.batchCoord j a = rowGather.batchCoord (liftPerm σ j) a := by
  match a with
  | ⟨0, _⟩ => rfl
  | ⟨1, _⟩ => rfl

theorem gather_off_perm (σ : Equiv.Perm (Fin 1048576)) (j : SE64.Idx) (a : Fin SX.rank) :
    rowGather.offCoord j a = rowGather.offCoord (liftPerm σ j) a := by
  match a with
  | ⟨0, _⟩ => rfl
  | ⟨1, _⟩ => rfl

/-- Update (e, f) of the permuted list gathers the feature that update (σ e, f) of the original list does. -/
theorem gather_perm (σ : Equiv.Perm (Fin 1048576)) (x : FVec Ideal SX .f32) (cols : IVec SE 32) (j : SE64.Idx) :
    Host.gather rowGather x (broadcastInDim SE1 ![0] bcast_SE_SE1 (fun e : SE.Idx => cols (ix1 (σ (e 0))))) j
      = Host.gather rowGather x (broadcastInDim SE1 ![0] bcast_SE_SE1 cols) (liftPerm σ j) := by
  unfold Host.gather
  congr 1
  funext a
  apply Fin.ext
  show rowGather.start j _ a + rowGather.batchCoord j a + rowGather.offCoord j a
    = rowGather.start (liftPerm σ j) _ a + rowGather.batchCoord (liftPerm σ j) a + rowGather.offCoord (liftPerm σ j) a
  rw [gather_start_perm σ cols j a, ← gather_batch_perm σ j a, ← gather_off_perm σ j a]

/-! ## The sum over the updates -/

/-- The gather-scale-scatter of a permuted list of proposals (row index, wrapped column index and weight permuted
    together) is that of the original list: row by row, the same terms are summed. -/
theorem scatter_perm (σ : Equiv.Perm (Fin 1048576)) (x z : FVec Ideal SX .f32) (rows cols : IVec SE 32)
    (w : FVec Ideal SE .f32) :
    Host.scatterAdd rowScatter z
        (broadcastInDim SE1 ![0] bcast_SE_SE1 (fun e : SE.Idx => rows (ix1 (σ (e 0)))))
        (mulf (Host.gather rowGather x (broadcastInDim SE1 ![0] bcast_SE_SE1 (fun e : SE.Idx => cols (ix1 (σ (e 0))))))
          (broadcastInDim SE64 ![0, 1] bcast_SE1_SE64
            (broadcastInDim SE1 ![0] bcast_SE_SE1 (fun e : SE.Idx => w (ix1 (σ (e 0)))))))
      = Host.scatterAdd rowScatter z (broadcastInDim SE1 ![0] bcast_SE_SE1 rows)
        (mulf (Host.gather rowGather x (broadcastInDim SE1 ![0] bcast_SE_SE1 cols))
          (broadcastInDim SE64 ![0, 1] bcast_SE1_SE64 (broadcastInDim SE1 ![0] bcast_SE_SE1 w))) := by
  unfold Host.scatterAdd
  rw [Ideal.hostScatterAdd_def, Ideal.hostScatterAdd_def]
  unfold Ideal.hostScatterAdd
  funext i
  refine congrArg (fun t => z i + t) ?_
  refine Finset.sum_equiv (liftPerm σ) ?_ ?_
  · intro j
    simp only [Finset.mem_filter, Finset.mem_univ, true_and]
    rw [resultIdx_perm]
  · intro j _
    rw [mulf_apply, mulf_apply, gather_perm, bc64_apply, bc64_apply, liftPerm_zero]

/-- Wrapping a negative column index commutes with listing the proposals in another order. -/
theorem wrap_perm (σ : Equiv.Perm (Fin 1048576)) (cols : IVec SE 32) :
    select (cmpi .slt (fun e : SE.Idx => cols (ix1 (σ (e 0)))) (broadcastInDim SE ![] bcast_S0_SE (constantI S0 32 0#32)))
        (addi (fun e : SE.Idx => cols (ix1 (σ (e 0)))) (broadcastInDim SE ![] bcast_S0_SE (constantI S0 32 50000#32)))
        (fun e : SE.Idx => cols (ix1 (σ (e 0))))
      = fun e => (select (cmpi .slt cols (broadcastInDim SE ![] bcast_S0_SE (constantI S0 32 0#32)))
        (addi cols (broadcastInDim SE ![] bcast_S0_SE (constantI S0 32 50000#32))) cols) (ix1 (σ (e 0))) := by
  funext e
  rfl

/-- Listing the proposals in another order (rows, columns and weights permuted together) gives the same output. -/
theorem tail_perm (σ : Equiv.Perm (Fin 1048576)) (x : FVec Ideal SX .f32) (rows cols : IVec SE 32)
    (w : FVec Ideal SE .f32) :
    tail x (fun e => rows (ix1 (σ (e 0)))) (fun e => cols (ix1 (σ (e 0)))) (fun e => w (ix1 (σ (e 0))))
      = tail x rows cols w := by
  unfold tail
  rw [wrap_perm σ cols]
  exact scatter_perm σ x _ rows _ w

end Cert.Hyper

end
-- ==== Proof.Finite.lean ====
/-
  The precondition says every entry of the two real-valued inputs is smaller in absolute value than infinity.
  On the extended reals that means it is neither infinity, so it is a real number.
-/
import proofs.«401185_j46634754900206_1_alg».proof.Proof.Gen.Pre_finite_inputs
import Idealize.ShloMosaic.PureOps.Ideal
import Idealize.ShloMosaic.Lib.ReduceAll
import Idealize.ShloMosaic.Lib.ValueIdx

noncomputable section

namespace Cert.Hyper

open Idealize.ShloMosaic Cert.Pre_finite_inputs

instance : Subsingleton S_.Idx := ⟨fun a b => funext fun d => d.elim0⟩

/-- Under the precondition every parameter is a real number. -/
theorem params_real (x : FVec Ideal S50000x64 .f32) (P : FVec Ideal S131072x4 .f32) (I : IVec S131072x4x2 32)
    (h : Cert.Pre_finite_inputs.fn (F := Ideal) x P I = fun _ => 1#1) (i : S131072x4.Idx) :
    ∃ r : ℝ, P i = (r : EReal) := by
  -- the precondition at its one index: a conjunction of two all-entries tests; the second is about the parameters
  have h0 := congrFun h ValueIdx.ix0
  dsimp only [Cert.Pre_finite_inputs.fn] at h0
  have h1 := (IntOp.andi_eq_one.mp h0).2
  have h2 := Host.reduce_andi_all _ _ _ _ _ h1 i
  -- at entry i the test is |P i| < +infinity
  have h3 : Ideal.cmp .olt (max (P i) (-(P i))) (Ideal.ofBits .f32 0x7F800000#32) = 1#1 := h2
  have htop : Ideal.ofBits .f32 0x7F800000#32 = (⊤ : EReal) := by simp [Ideal.ofBits, Ideal.ieee]
  rw [htop] at h3
  have h4 : max (P i) (-(P i)) < (⊤ : EReal) := by
    by_contra hn
    simp [Ideal.cmp, hn] at h3
  -- so P i is neither infinity
  have hne_top : P i ≠ ⊤ := fun e => by rw [e] at h4; simp at h4
  have hne_bot : P i ≠ ⊥ := fun e => by rw [e] at h4; simp at h4
  exact ⟨(P i).toReal, (EReal.coe_toReal hne_top hne_bot).symm⟩

end Cert.Hyper

end
-- ==== Proof.KernelBody.lean ====
/-
  One grid point of the kernel, read at an index. A block holds 16384 samples: four rows of parameters and a
  4 x 2 array of drawn integers per sample. The body writes 8 x 16384 blocks; entry (c, l) of the two integer
  blocks is the row index and the column index of proposal c of the block's l-th sample. On the way: the layout
  operations the body uses (a row cut out of a matrix, a plane cut out of a rank-3 array, four rows stacked, two
  halves stacked) read at an index, and every per-sample scalar the body computes (centres, width, floors and
  ceilings, the drawn pairs) read at a sample.
-/
import proofs.«401185_j46634754900206_1_alg».proof.Proof.Gen.KernelIdeal.Frame
import proofs.«401185_j46634754900206_1_alg».proof.Proof.Spec
import Idealize.ShloMosaic.Lib.ValueLayout

noncomputable section

namespace Cert.Hyper.Kernel

open Idealize.ShloMosaic Idealize.ShloMosaic.ValueIdx Cert.KernelIdeal Cert.KernelIdeal.Gen Cert.Hyper

/-- The block's l-th sample's drawn pairs. -/
def blockPairs (x1 : Vec Ideal S4x2x16384 .i32) (l : Fin 16384) : Fin 4 → Fin 2 → BitVec 32 := fun a b => x1 (ix3 a b l)

/-- The zero offsets of a rank-2 rectangle, as the constant function. -/
theorem hz2 : (![0, 0] : Fin 2 → Nat) = fun _ => 0 :=
  funext fun a => match a with | ⟨0, _⟩ => rfl | ⟨1, _⟩ => rfl
/-- The zero offsets of a rank-3 rectangle, as the constant function. -/
theorem hz3 : (![0, 0, 0] : Fin 3 → Nat) = fun _ => 0 :=
  funext fun a => match a with | ⟨0, _⟩ => rfl | ⟨1, _⟩ => rfl | ⟨2, _⟩ => rfl

/-! ## Layout operations at an index -/

section Layout
variable {α : Type}

/-- Row r of a 4-row matrix, cut out as a one-row matrix, reads the matrix at (r, l). -/
theorem row_apply (o : Nat) (X : S4x16384.Idx → α) (h : S4x16384.Slices ![o, 0] S1x16384) (u : Fin 1) (l : Fin 16384)
    (r : Fin 4) (hr : r.val = o) :
    extractStridedSlice S1x16384 ![o, 0] X h (ix2 u l) = X (ix2 r l) :=
  slice2_axis0_apply o X h u l r (by have := u.isLt; omega)

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Plane q of the middle axis of a 4 x 2 x n array, cut out and flattened to 4 x n, reads the array at (a, q, l). -/
theorem plane_apply (o : Nat) (X : S4x2x16384.Idx → α) (h : S4x2x16384.Slices ![0, o, 0] S4x1x16384)
    (h' : S4x1x16384.ShapeCasts S4x16384) (a : Fin 4) (l : Fin 16384) (q : Fin 2) (hq : q.val = o) :
    shapeCast S4x16384 (extractStridedSlice S4x1x16384 ![0, o, 0] X h) h' (ix2 a l) = X (ix3 a q l) := by
  rw [shapeCast_a1b_ab_apply]
  exact slice3_axis1_apply o X h a 0 l q (by rw [hq]; rfl)

/-- Four one-row pieces stacked: row r of the stack is piece r. -/
theorem stack4_apply (p0 p1 p2 p3 : S1x16384.Idx → α)
    (h : Shape.Concatenates [S1x16384, S1x16384, S1x16384, S1x16384] S4x16384 0) (r : Fin 4) (l : Fin 16384) :
    concatenate S4x16384 0 [⟨S1x16384, p0⟩, ⟨S1x16384, p1⟩, ⟨S1x16384, p2⟩, ⟨S1x16384, p3⟩] h (ix2 r l)
      = (if r.val = 0 then p0 else if r.val = 1 then p1 else if r.val = 2 then p2 else p3) (ix2 0 l) := by
  have hi : ∀ b : Fin S1x16384.rank, b.cast (rfl : S1x16384.rank = S4x16384.rank) ≠ (0 : Fin S4x16384.rank) →
      ((ix2 (0 : Fin 1) l : S1x16384.Idx) b).val = ((ix2 r l : S4x16384.Idx) (b.cast rfl)).val := fun b hb =>
    match b, hb with
    | ⟨0, _⟩, hb => absurd rfl hb
    | ⟨1, _⟩, _ => rfl
  match r with
  | ⟨0, _⟩ => exact concatenate_apply_piece (t := S4x16384) 0 [⟨S1x16384, p0⟩, ⟨S1x16384, p1⟩, ⟨S1x16384, p2⟩, ⟨S1x16384, p3⟩] h _ 0 (by show (0 : Nat) < 4; decide) S1x16384 p0 rfl rfl 0 rfl (ix2 0 l) hi rfl
  | ⟨1, _⟩ => exact concatenate_apply_piece (t := S4x16384) 0 [⟨S1x16384, p0⟩, ⟨S1x16384, p1⟩, ⟨S1x16384, p2⟩, ⟨S1x16384, p3⟩] h _ 1 (by show (1 : Nat) < 4; decide) S1x16384 p1 rfl rfl 1 rfl (ix2 0 l) hi rfl
  | ⟨2, _⟩ => exact concatenate_apply_piece (t := S4x16384) 0 [⟨S1x16384, p0⟩, ⟨S1x16384, p1⟩, ⟨S1x16384, p2⟩, ⟨S1x16384, p3⟩] h _ 2 (by show (2 : Nat) < 4; decide) S1x16384 p2 rfl rfl 2 rfl (ix2 0 l) hi rfl
  | ⟨3, _⟩ => exact concatenate_apply_piece (t := S4x16384) 0 [⟨S1x16384, p0⟩, ⟨S1x16384, p1⟩, ⟨S1x16384, p2⟩, ⟨S1x16384, p3⟩] h _ 3 (by show (3 : Nat) < 4; decide) S1x16384 p3 rfl rfl 3 rfl (ix2 0 l) hi rfl

/-- Two 4-row halves stacked: rows 0 to 3 are the first half's, rows 4 to 7 the second half's rows 0 to 3. -/
theorem halves_apply (A B : S4x16384.Idx → α) (h : Shape.Concatenates [S4x16384, S4x16384] S8x16384 0)
    (c : Fin 8) (l : Fin 16384) :
    concatenate S8x16384 0 [⟨S4x16384, A⟩, ⟨S4x16384, B⟩] h (ix2 c l)
      = if h4 : c.val < 4 then A (ix2 ⟨c.val, h4⟩ l) else B (ix2 (drawn c) l) := by
  by_cases h4 : c.val < 4
  · rw [dif_pos h4]
    exact concatenate_pair_apply_left 0 A B h (ix2 c l) rfl (ix2 ⟨c.val, h4⟩ l)
      (fun b => match b with | ⟨0, _⟩ => rfl | ⟨1, _⟩ => rfl)
  · rw [dif_neg h4]
    refine concatenate_pair_apply_right 0 A B h (ix2 c l) rfl rfl (ix2 (drawn c) l)
      (fun b hb => match b, hb with
        | ⟨0, _⟩, hb => absurd rfl hb
        | ⟨1, _⟩, _ => rfl) ?_
    show c.val % 4 + 4 = c.val
    have := c.isLt
    omega

end Layout

/-! ## The per-sample scalars the body computes, read at a sample -/

theorem pay1_eq (x0 : Vec Ideal S4x16384 .f32) : k0_pay1 (F := Ideal) x0 = x0 := by
  unfold k0_pay1
  exact shapeCast_self _ _

theorem pay2_eq (x1 : Vec Ideal S4x2x16384 .i32) : k0_pay2 (F := Ideal) x1 = x1 := by
  unfold k0_pay2
  exact shapeCast_self _ _

/-- The value row. -/
theorem pay3_apply (x0 : Vec Ideal S4x16384 .f32) (u : Fin 1) (l : Fin 16384) :
    k0_pay3 (F := Ideal) x0 (ix2 u l) = x0 (ix2 3 l) := by
  unfold k0_pay3
  rw [pay1_eq]
  exact row_apply 3 x0 slices_S4x16384_o3_0_S1x16384 u l 3 rfl

/-- The row centre. -/
theorem pay4_apply (x0 : Vec Ideal S4x16384 .f32) (u : Fin 1) (l : Fin 16384) :
    k0_pay4 (F := Ideal) x0 (ix2 u l) = centre (x0 (ix2 0 l)) := by
  unfold k0_pay4
  rw [pay1_eq]
  show Ideal.logistic (extractStridedSlice S1x16384 ![0, 0] x0 slices_S4x16384_o0_0_S1x16384 (ix2 u l)) * Ideal.ofBits .f32 0x47434F00#32 = _
  rw [row_apply 0 x0 slices_S4x16384_o0_0_S1x16384 u l 0 rfl]
  rfl

/-- The column centre. -/
theorem pay5_apply (x0 : Vec Ideal S4x16384 .f32) (u : Fin 1) (l : Fin 16384) :
    k0_pay5 (F := Ideal) x0 (ix2 u l) = centre (x0 (ix2 1 l)) := by
  unfold k0_pay5
  rw [pay1_eq]
  show Ideal.logistic (extractStridedSlice S1x16384 ![1, 0] x0 slices_S4x16384_o1_0_S1x16384 (ix2 u l)) * Ideal.ofBits .f32 0x47434F00#32 = _
  rw [row_apply 1 x0 slices_S4x16384_o1_0_S1x16384 u l 1 rfl]
  rfl

theorem pay9_apply (x0 : Vec Ideal S4x16384 .f32) (u : Fin 1) (l : Fin 16384) :
    k0_pay9 (F := Ideal) x0 (ix2 u l) = lo (x0 (ix2 0 l)) := by
  unfold k0_pay9
  show Ideal.liftRound Int.floor (k0_pay4 (F := Ideal) x0 (ix2 u l)) = _
  rw [pay4_apply]
  rfl

theorem pay10_apply (x0 : Vec Ideal S4x16384 .f32) (u : Fin 1) (l : Fin 16384) :
    k0_pay10 (F := Ideal) x0 (ix2 u l) = hi (x0 (ix2 0 l)) := by
  unfold k0_pay10
  show Ideal.liftRound Int.ceil (k0_pay4 (F := Ideal) x0 (ix2 u l)) = _
  rw [pay4_apply]
  rfl

theorem pay11_apply (x0 : Vec Ideal S4x16384 .f32) (u : Fin 1) (l : Fin 16384) :
    k0_pay11 (F := Ideal) x0 (ix2 u l) = lo (x0 (ix2 1 l)) := by
  unfold k0_pay11
  show Ideal.liftRound Int.floor (k0_pay5 (F := Ideal) x0 (ix2 u l)) = _
  rw [pay5_apply]
  rfl

theorem pay12_apply (x0 : Vec Ideal S4x16384 .f32) (u : Fin 1) (l : Fin 16384) :
    k0_pay12 (F := Ideal) x0 (ix2 u l) = hi (x0 (ix2 1 l)) := by
  unfold k0_pay12
  show Ideal.liftRound Int.ceil (k0_pay5 (F := Ideal) x0 (ix2 u l)) = _
  rw [pay5_apply]
  rfl

/-! ## The lattice corners and the drawn pairs -/

/-- Row coordinates of the four corners: floor, floor, ceiling, ceiling. -/
theorem pay13_apply (f g : FVec Ideal S1x16384 .f32) (r : Fin 4) (l : Fin 16384) :
    k0_pay13 (F := Ideal) f g (ix2 r l) = if r.val < 2 then f (ix2 0 l) else g (ix2 0 l) := by
  unfold k0_pay13
  refine (stack4_apply f f g g _ r l).trans ?_
  match r with
  | ⟨0, _⟩ => rfl
  | ⟨1, _⟩ => rfl
  | ⟨2, _⟩ => rfl
  | ⟨3, _⟩ => rfl

/-- Column coordinates of the four corners: floor, ceiling, floor, ceiling. -/
theorem pay14_apply (f g : FVec Ideal S1x16384 .f32) (r : Fin 4) (l : Fin 16384) :
    k0_pay14 (F := Ideal) f g (ix2 r l) = if r.val % 2 = 0 then f (ix2 0 l) else g (ix2 0 l) := by
  unfold k0_pay14
  refine (stack4_apply f g f g _ r l).trans ?_
  match r with
  | ⟨0, _⟩ => rfl
  | ⟨1, _⟩ => rfl
  | ⟨2, _⟩ => simp
  | ⟨3, _⟩ => simp

/-- The drawn rows. -/
theorem pay15_apply (v3 : IVec S4x2x16384 32) (a : Fin 4) (l : Fin 16384) :
    k0_pay15 v3 (ix2 a l) = v3 (ix3 a 0 l) := by
  unfold k0_pay15
  exact plane_apply 0 v3 _ _ a l 0 rfl

/-- The drawn columns. -/
theorem pay16_apply (v3 : IVec S4x2x16384 32) (a : Fin 4) (l : Fin 16384) :
    k0_pay16 v3 (ix2 a l) = v3 (ix3 a 1 l) := by
  unfold k0_pay16
  exact plane_apply 1 v3 _ _ a l 1 rfl

/-! ## The two index blocks -/

theorem pay17_apply (v3 : IVec S4x2x16384 32) (f g : FVec Ideal S1x16384 .f32) (c : Fin 8) (l : Fin 16384) :
    k0_pay17 (F := Ideal) v3 f g (ix2 c l)
      = if c.val < 4 then Ideal.fptosi 32 (if c.val < 2 then f (ix2 0 l) else g (ix2 0 l)) else v3 (ix3 (drawn c) 0 l) := by
  unfold k0_pay17
  refine (halves_apply _ _ _ c l).trans ?_
  by_cases h4 : c.val < 4
  · rw [dif_pos h4, if_pos h4]
    show Ideal.fptosi 32 (k0_pay13 (F := Ideal) f g (ix2 ⟨c.val, h4⟩ l)) = _
    rw [pay13_apply]
  · rw [dif_neg h4, if_neg h4]
    exact pay15_apply v3 (drawn c) l

theorem pay18_apply (v3 : IVec S4x2x16384 32) (f g : FVec Ideal S1x16384 .f32) (c : Fin 8) (l : Fin 16384) :
    k0_pay18 (F := Ideal) v3 f g (ix2 c l)
      = if c.val < 4 then Ideal.fptosi 32 (if c.val % 2 = 0 then f (ix2 0 l) else g (ix2 0 l)) else v3 (ix3 (drawn c) 1 l) := by
  unfold k0_pay18
  refine (halves_apply _ _ _ c l).trans ?_
  by_cases h4 : c.val < 4
  · rw [dif_pos h4, if_pos h4]
    show Ideal.fptosi 32 (k0_pay14 (F := Ideal) f g (ix2 ⟨c.val, h4⟩ l)) = _
    rw [pay14_apply]
  · rw [dif_neg h4, if_neg h4]
    exact pay16_apply v3 (drawn c) l

theorem rows_block (x0 : Vec Ideal S4x16384 .f32) (x1 : Vec Ideal S4x2x16384 .i32) (c : Fin 8) (l : Fin 16384) :
    out0_2 (F := Ideal) x0 x1 (ix2 c l) = rowI (x0 (ix2 0 l)) (blockPairs x1 l) c := by
  unfold out0_2
  rw [View.canon_unit_zero hz2]
  simp only [View.ld_unit_zero (S := S4x16384) hz2, View.ld_unit_zero (S := S4x2x16384) hz3]
  rw [pay17_apply, pay2_eq, pay9_apply, pay10_apply]
  rfl

theorem cols_block (x0 : Vec Ideal S4x16384 .f32) (x1 : Vec Ideal S4x2x16384 .i32) (c : Fin 8) (l : Fin 16384) :
    out0_3 (F := Ideal) x0 x1 (ix2 c l) = colI (x0 (ix2 1 l)) (blockPairs x1 l) c := by
  unfold out0_3
  rw [View.canon_unit_zero hz2]
  simp only [View.ld_unit_zero (S := S4x16384) hz2, View.ld_unit_zero (S := S4x2x16384) hz3]
  rw [pay18_apply, pay2_eq, pay11_apply, pay12_apply]
  rfl

/-! ## The width -/

/-- The regularised softplus of the shifted raw width. -/
theorem pay6_apply (x0 : Vec Ideal S4x16384 .f32) (u : Fin 1) (l : Fin 16384) :
    k0_pay6 (F := Ideal) x0 (ix2 u l) = softplus (x0 (ix2 2 l) + kTwo) + kEps := by
  unfold k0_pay6
  rw [pay1_eq]
  show softplus (extractStridedSlice S1x16384 ![2, 0] x0 slices_S4x16384_o2_0_S1x16384 (ix2 u l) + kTwo) + kEps = _
  rw [row_apply 2 x0 slices_S4x16384_o2_0_S1x16384 u l 2 rfl]

theorem pay7_apply (x0 : Vec Ideal S4x16384 .f32) (u : Fin 1) (l : Fin 16384) :
    k0_pay7 (F := Ideal) x0 (ix2 u l) = spread (x0 (ix2 2 l)) := by
  unfold k0_pay7
  show (k0_pay6 (F := Ideal) x0 (ix2 u l) * k50000) * kFifth = _
  rw [pay6_apply]
  rfl

theorem pay8_apply (x0 : Vec Ideal S4x16384 .f32) (u : Fin 1) (l : Fin 16384) :
    k0_pay8 (F := Ideal) x0 (ix2 u l) = spread (x0 (ix2 2 l)) := by
  unfold k0_pay8
  show (k0_pay6 (F := Ideal) x0 (ix2 u l) * k50000) * kFifth = _
  rw [pay6_apply]
  rfl

end Cert.Hyper.Kernel

end
-- ==== Proof.KernelWeights.lean ====
/-
  One grid point of the kernel, read at an index: the weights. Entry (c, l) of the third output block is the value
  of the block's l-th sample times the share of proposal c's gaussian density in the eight regularised densities.
-/
import proofs.«401185_j46634754900206_1_alg».proof.Proof.Gen.KernelIdeal.Frame
import proofs.«401185_j46634754900206_1_alg».proof.Proof.Spec
import proofs.«401185_j46634754900206_1_alg».proof.Proof.KernelBody
import Idealize.ShloMosaic.PureOps.Ideal.Laws

noncomputable section

open scoped BigOperators

namespace Cert.Hyper.Kernel

open Idealize.ShloMosaic Idealize.ShloMosaic.ValueIdx Cert.KernelIdeal Cert.KernelIdeal.Gen Cert.Hyper

/-! ## Pointwise operations and the lane sum at an index -/

theorem exp_apply {s : Shape} (a : FVec Ideal s .f32) (i : s.Idx) : exp a i = Ideal.exp (a i) := rfl
theorem rsqrt_apply {s : Shape} (a : FVec Ideal s .f32) (i : s.Idx) : rsqrt a i = Ideal.rsqrt (a i) := rfl

/-- The index of sample l with coordinate k inserted on the summed axis is (k, l). -/
theorem lift_eq (h : S8x16384.Reduces [0] S16384) (k : Fin 8) (l : Fin 16384) : h.lift (ix1 l) k = ix2 k l := by
  funext a
  match a with
  | ⟨0, _⟩ => rfl
  | ⟨1, _⟩ => rfl

/-- The sum over the eight proposals of a block, read at sample l. -/
theorem laneSum_apply (src : FVec Ideal S8x16384 .f32) (h : S8x16384.Reduces [0] S16384) (hφ : FKind.Formats .f32)
    (hacc : (0x00000000#32 : BitVec FTy.f32.bits) = FKind.add.neutral .f32 hφ) (l : Fin 16384) :
    multiReduction .add [0] S16384 src 0x00000000#32 h hφ hacc (ix1 l) = ∑ k : Fin 8, src (ix2 k l) := by
  refine (Ideal.multiReduction_add_single src _ h hφ hacc (ix1 l)).trans ?_
  exact Finset.sum_congr rfl fun k _ => congrArg src (lift_eq h k l)

/-! ## The two coordinate blocks -/

theorem rowBlock_apply (v3 : IVec S4x2x16384 32) (f g : FVec Ideal S1x16384 .f32) (k : Fin 8) (l : Fin 16384) :
    concatenate S8x16384 0 [⟨S4x16384, k0_pay13 (F := Ideal) f g⟩, ⟨S4x16384, sitofp .f32 (k0_pay15 v3)⟩]
        concatenates_S4x16384_S4x16384_S8x16384_d0 (ix2 k l)
      = if k.val < 4 then (if k.val < 2 then f (ix2 0 l) else g (ix2 0 l))
        else (((v3 (ix3 (drawn k) 0 l)).toInt : ℝ) : EReal) := by
  refine (halves_apply _ _ _ k l).trans ?_
  by_cases h4 : k.val < 4
  · rw [dif_pos h4, if_pos h4]
    exact pay13_apply f g ⟨k.val, h4⟩ l
  · rw [dif_neg h4, if_neg h4]
    show (((k0_pay15 v3 (ix2 (drawn k) l)).toInt : ℝ) : EReal) = _
    rw [pay15_apply]

theorem colBlock_apply (v3 : IVec S4x2x16384 32) (f g : FVec Ideal S1x16384 .f32) (k : Fin 8) (l : Fin 16384) :
    concatenate S8x16384 0 [⟨S4x16384, k0_pay14 (F := Ideal) f g⟩, ⟨S4x16384, sitofp .f32 (k0_pay16 v3)⟩]
        concatenates_S4x16384_S4x16384_S8x16384_d0 (ix2 k l)
      = if k.val < 4 then (if k.val % 2 = 0 then f (ix2 0 l) else g (ix2 0 l))
        else (((v3 (ix3 (drawn k) 1 l)).toInt : ℝ) : EReal) := by
  refine (halves_apply _ _ _ k l).trans ?_
  by_cases h4 : k.val < 4
  · rw [dif_pos h4, if_pos h4]
    exact pay14_apply f g ⟨k.val, h4⟩ l
  · rw [dif_neg h4, if_neg h4]
    show (((k0_pay16 v3 (ix2 (drawn k) l)).toInt : ℝ) : EReal) = _
    rw [pay16_apply]

/-! ## From the densities to the weights -/

/-- The body's last steps over any block D of densities: the value row times the share of D in the eight
    regularised entries of its column. -/
theorem share_apply (D : FVec Ideal S8x16384 .f32) (v7 : FVec Ideal S1x16384 .f32) (h : S8x16384.Reduces [0] S16384)
    (hφ : FKind.Formats .f32) (hacc : (0x00000000#32 : BitVec FTy.f32.bits) = FKind.add.neutral .f32 hφ)
    (c : Fin 8) (l : Fin 16384) :
    mulf (broadcastTo S8x16384 v7 broadcasts_S1x16384_S8x16384)
        (divf D (broadcastTo S8x16384
          (shapeCast S1x16384
            (multiReduction .add [0] S16384 (addf D (broadcast S8x16384 (Scalar.ofBits .f32 0x358637BD#32)))
              0x00000000#32 h hφ hacc) shapeCasts_S16384_S1x16384)
          broadcasts_S1x16384_S8x16384)) (ix2 c l)
      = v7 (ix2 0 l) * Ideal.div (D (ix2 c l)) (∑ k : Fin 8, (D (ix2 k l) + kEps)) := by
  rw [mulf_apply, divf_apply, broadcastTo_1b_ab_apply, broadcastTo_1b_ab_apply, shapeCast_a_1a_apply, laneSum_apply]
  rfl

/-- The density of a proposal from its sample's scalars: the proposal's two coordinates, the two centres and the
    two variances. -/
def densOf (r q m0 m1 s0 s1 : EReal) : EReal :=
  Ideal.exp (kNegHalf *
    (((r - m0) * Ideal.rsqrt (kEps + s0)) * ((r - m0) * Ideal.rsqrt (kEps + s0))
      + ((q - m1) * Ideal.rsqrt (kEps + s1)) * ((q - m1) * Ideal.rsqrt (kEps + s1))))

/-- The body's weights read at (c, l), over any rows of per-sample scalars. -/
theorem pay19_apply (v3 : IVec S4x2x16384 32) (v7 v10 v13 v35 v39 v40 v41 v42 v43 : FVec Ideal S1x16384 .f32)
    (c : Fin 8) (l : Fin 16384) :
    k0_pay19 (F := Ideal) v3 v7 v10 v13 v35 v39 v40 v41 v42 v43 (ix2 c l)
      = v7 (ix2 0 l) * Ideal.div
          (densOf
            (if c.val < 4 then (if c.val < 2 then v40 (ix2 0 l) else v41 (ix2 0 l))
              else (((v3 (ix3 (drawn c) 0 l)).toInt : ℝ) : EReal))
            (if c.val < 4 then (if c.val % 2 = 0 then v42 (ix2 0 l) else v43 (ix2 0 l))
              else (((v3 (ix3 (drawn c) 1 l)).toInt : ℝ) : EReal))
            (v10 (ix2 0 l)) (v13 (ix2 0 l)) (v35 (ix2 0 l)) (v39 (ix2 0 l)))
          (∑ k : Fin 8,
            (densOf
              (if k.val < 4 then (if k.val < 2 then v40 (ix2 0 l) else v41 (ix2 0 l))
                else (((v3 (ix3 (drawn k) 0 l)).toInt : ℝ) : EReal))
              (if k.val < 4 then (if k.val % 2 = 0 then v42 (ix2 0 l) else v43 (ix2 0 l))
                else (((v3 (ix3 (drawn k) 1 l)).toInt : ℝ) : EReal))
              (v10 (ix2 0 l)) (v13 (ix2 0 l)) (v35 (ix2 0 l)) (v39 (ix2 0 l)) + kEps)) := by
  unfold k0_pay19
  refine (share_apply _ v7 _ _ _ c l).trans ?_
  simp only [mulf_apply, addf_apply, subf_apply, broadcast_apply, exp_apply, rsqrt_apply, broadcastTo_1b_ab_apply,
    rowBlock_apply, colBlock_apply]
  rfl

/-- Entry (c, l) of the weights block is the weight of proposal c of the block's l-th sample. -/
theorem weights_block (x0 : Vec Ideal S4x16384 .f32) (x1 : Vec Ideal S4x2x16384 .i32) (c : Fin 8) (l : Fin 16384) :
    out0_4 (F := Ideal) x0 x1 (ix2 c l)
      = weight (x0 (ix2 0 l)) (x0 (ix2 1 l)) (x0 (ix2 2 l)) (x0 (ix2 3 l)) (blockPairs x1 l) c := by
  unfold out0_4
  rw [View.canon_unit_zero hz2]
  simp only [View.ld_unit_zero (S := S4x16384) hz2, View.ld_unit_zero (S := S4x2x16384) hz3]
  rw [pay19_apply, pay2_eq, pay3_apply, pay4_apply, pay5_apply, pay7_apply, pay8_apply, pay9_apply, pay10_apply,
    pay11_apply, pay12_apply]
  rfl

end Cert.Hyper.Kernel

end
-- ==== Proof.KernelValue.lean ====
/-
  What the kernel's program computes: its three output arrays hold, proposal-major, the row indices, the column
  indices and the weights of every sample's eight proposals, and the operations after the kernel turn those
  lists into the sparse product.

  The road. Before the kernel the parameters and the drawn integers are transposed so that the sample axis is the
  last one. The kernel walks eight grid points; point t reads columns t * 16384 to t * 16384 + 16383 of the two
  transposed arrays and writes the same columns of three 8 x 131072 arrays. By the block lemmas entry (p, l) of
  what point t writes is the row index, the column index or the weight of proposal p of sample t * 16384 + l, so
  each written block is a block of one function of the arguments, the eight blocks cover the array, and the array
  ends holding that function. After the kernel each array is flattened row by row, which lists entry (p, k) at
  position p * 131072 + k: the proposal-major list. The remaining operations are the sparse product itself.
-/
import proofs.«401185_j46634754900206_1_alg».proof.Proof.Gen.KernelIdeal.Frame
import proofs.«401185_j46634754900206_1_alg».proof.Proof.Spec
import proofs.«401185_j46634754900206_1_alg».proof.Proof.KernelBody
import proofs.«401185_j46634754900206_1_alg».proof.Proof.KernelWeights
import Idealize.ShloMosaic.Lib.Pipeline.Value
import Idealize.ShloMosaic.Lib.ValueLayout

noncomputable section

namespace Cert.Hyper.Kernel

open Idealize.ShloMosaic Idealize.ShloMosaic.TcCoe Idealize.ShloMosaic.ValueIdx Idealize.SL.Sem Cert.KernelIdeal Cert.KernelIdeal.Gen Cert.Hyper
open Idealize.ShloMosaic.Pipeline (Dat)

section Arrays

variable (m : (ℓ : Loc nD τ sig) → Buf (Elt Ideal) ℓ)

/-! ## The two transposed arrays the kernel reads -/

/-- The parameter array the kernel reads is the launched one transposed: row j holds every sample's j-th real. -/
theorem v0_eq (c : Dev nD) :
    (V m c main_v0 : S4x131072.Idx → EReal)
      = transpose S4x131072 [1, 0] (m ((c.tc : Thread nD τ).loc main_arg1)) transposes_S131072x4_S4x131072_1_0 := by
  show StableHlo.after hostOps0 (fun b => m (c, b)) (Proc.devRef .tc main_v0) = _
  after_results

/-- The integer array the kernel reads is the launched one with its sample axis moved last. -/
theorem v1_eq (c : Dev nD) :
    (V m c main_v1 : S4x2x131072.Idx → BitVec 32)
      = transpose S4x2x131072 [1, 2, 0] (m ((c.tc : Thread nD τ).loc main_arg2)) transposes_S131072x4x2_S4x2x131072_1_2_0 := by
  show StableHlo.after hostOps0 (fun b => m (c, b)) (Proc.devRef .tc main_v1) = _
  after_results

/-- Entry (j, k) of the transposed parameters is sample k's j-th real. -/
theorem v0_apply (c : Dev nD) (j : Fin 4) (k : Fin 131072) :
    (V m c main_v0 : S4x131072.Idx → EReal) (ix2 j k) = (m ((c.tc : Thread nD τ).loc main_arg1) : SP.Idx → EReal) (ix2 k j) :=
  (congrFun (v0_eq m c) (ix2 j k)).trans (transpose_ix2_apply _ _ j k)

/-- A rank-3 array with its leading axis moved last reads, at (a, b, k), the operand at (k, a, b). -/
theorem transpose_ix3_120_apply {α : Type} {n a b : ℕ} (x : (⟨3, ![n, a, b]⟩ : Shape).Idx → α)
    (h : (⟨3, ![n, a, b]⟩ : Shape).Transposes [1, 2, 0] ⟨3, ![a, b, n]⟩) (i : Fin a) (j : Fin b) (k : Fin n) :
    transpose ⟨3, ![a, b, n]⟩ [1, 2, 0] x h (ix3 i j k) = x (ix3 k i j) :=
  transpose_apply _ x h _ _ fun c => match c with | ⟨0, _⟩ => rfl | ⟨1, _⟩ => rfl | ⟨2, _⟩ => rfl

/-- Entry (a, b, k) of the transposed integers is sample k's pair a, component b. -/
theorem v1_apply (c : Dev nD) (a : Fin 4) (b : Fin 2) (k : Fin 131072) :
    (V m c main_v1 : S4x2x131072.Idx → BitVec 32) (ix3 a b k) = (m ((c.tc : Thread nD τ).loc main_arg2) : SS.Idx → BitVec 32) (ix3 k a b) :=
  (congrFun (v1_eq m c) (ix3 a b k)).trans (transpose_ix3_120_apply _ _ a b k)

/-! ## One grid point: what it reads and what it leaves -/

/-- The block index of every window at grid point t: 0 on the short axes and t on the long one. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Block t of the parameters: entry (j, l) is sample t * 16384 + l's j-th real. -/
theorem params_block (c : Dev nD) (t : Fin cfg0.N) (j : Fin 4) (l : Fin 16384) (k : Fin 131072)
    (hk : k.val = t.val * 16384 + l.val) :
    (iblk m c 0 t : Vec Ideal S4x16384 .f32) (ix2 j l) = (V m c main_v0 : S4x131072.Idx → EReal) (ix2 j k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 4 + 1 * j.val = j.val; rw [e0]; omega
  | ⟨1, _⟩ => show win0_0.index t (1 : Fin 2) * 16384 + 1 * l.val = k.val; rw [e1, hk]; omega

/-- Block t of the drawn integers: entry (a, b, l) is sample t * 16384 + l's pair a, component b. -/
theorem draws_block (c : Dev nD) (t : Fin cfg0.N) (a : Fin 4) (b : Fin 2) (l : Fin 16384) (k : Fin 131072)
    (hk : k.val = t.val * 16384 + l.val) :
    (iblk m c 1 t : Vec Ideal S4x2x16384 .i32) (ix3 a b l) = (V m c main_v1 : S4x2x131072.Idx → BitVec 32) (ix3 a b k) := by
  obtain ⟨-, -, e0, e1, e2, -⟩ := idx_facts t
  unfold iblk
  rw [View.read_apply]
  show V m c main_v1 _ = V m c main_v1 _
  congr 1
  funext d
  apply Fin.ext
  match d with
  | ⟨0, _⟩ => show win0_1.index t (0 : Fin 3) * 4 + 1 * a.val = a.val; rw [e0]; omega
  | ⟨1, _⟩ => show win0_1.index t (1 : Fin 3) * 2 + 1 * b.val = b.val; rw [e1]; omega
  | ⟨2, _⟩ => show win0_1.index t (2 : Fin 3) * 16384 + 1 * l.val = k.val; rw [e2, hk]; omega

/-- Entry (j, l) of block t of the parameters is sample t * 16384 + l's j-th real. -/
theorem block_param (c : Dev nD) (t : Fin cfg0.N) (j : Fin 4) (l : Fin 16384) (k : Fin 131072)
    (hk : k.val = t.val * 16384 + l.val) :
    (iblk m c 0 t : Vec Ideal S4x16384 .f32) (ix2 j l) = ((m ((c.tc : Thread nD τ).loc main_arg1)) : SP.Idx → EReal) (ix2 k j) :=
  (params_block m c t j l k hk).trans (v0_apply m c j k)

/-- The drawn pairs of the l-th sample of block t are those of sample t * 16384 + l. -/
theorem block_pairs (c : Dev nD) (t : Fin cfg0.N) (l : Fin 16384) (k : Fin 131072)
    (hk : k.val = t.val * 16384 + l.val) :
    blockPairs (iblk m c 1 t) l = pairs (m ((c.tc : Thread nD τ).loc main_arg2)) k := by
  funext a b
  exact (draws_block m c t a b l k hk).trans (v1_apply m c a b k)

/-- Grid point t leaves, at (p, l) of its rows block, the row index of proposal p of sample t * 16384 + l. -/
theorem rows_point (c : Dev nD) (t : Fin cfg0.N) (p : Fin 8) (l : Fin 16384) (k : Fin 131072)
    (hk : k.val = t.val * 16384 + l.val) :
    out0_2 (F := Ideal) (iblk m c 0 t) (iblk m c 1 t) (ix2 p l)
      = rowsAt (m ((c.tc : Thread nD τ).loc main_arg1)) (m ((c.tc : Thread nD τ).loc main_arg2)) p k := by
  refine (rows_block (iblk m c 0 t) (iblk m c 1 t) p l).trans ?_
  unfold rowsAt
  rw [block_param m c t 0 l k hk, block_pairs m c t l k hk]

/-- Grid point t leaves, at (p, l) of its columns block, the column index of proposal p of sample t * 16384 + l. -/
theorem cols_point (c : Dev nD) (t : Fin cfg0.N) (p : Fin 8) (l : Fin 16384) (k : Fin 131072)
    (hk : k.val = t.val * 16384 + l.val) :
    out0_3 (F := Ideal) (iblk m c 0 t) (iblk m c 1 t) (ix2 p l)
      = colsAt (m ((c.tc : Thread nD τ).loc main_arg1)) (m ((c.tc : Thread nD τ).loc main_arg2)) p k := by
  refine (cols_block (iblk m c 0 t) (iblk m c 1 t) p l).trans ?_
  unfold colsAt
  rw [block_param m c t 1 l k hk, block_pairs m c t l k hk]

/-- Grid point t leaves, at (p, l) of its weights block, the weight of proposal p of sample t * 16384 + l. -/
theorem weights_point (c : Dev nD) (t : Fin cfg0.N) (p : Fin 8) (l : Fin 16384) (k : Fin 131072)
    (hk : k.val = t.val * 16384 + l.val) :
    out0_4 (F := Ideal) (iblk m c 0 t) (iblk m c 1 t) (ix2 p l)
      = weightsAt (m ((c.tc : Thread nD τ).loc main_arg1)) (m ((c.tc : Thread nD τ).loc main_arg2)) p k := by
  refine (weights_block (iblk m c 0 t) (iblk m c 1 t) p l).trans ?_
  unfold weightsAt
  rw [block_param m c t 0 l k hk, block_param m c t 1 l k hk, block_param m c t 2 l k hk,
    block_param m c t 3 l k hk, block_pairs m c t l k hk]

/-! ## The three arrays after the kernel -/

/-- The whole rows array as one function of the arguments: entry (p, k) belongs to proposal p of sample k. -/
def rowsArr (P : SP.Idx → EReal) (I : SS.Idx → BitVec 32) : S8x131072.Idx → BitVec 32 :=
  fun i => rowsAt P I ⟨(i 0).val, idx2_lt0 i⟩ ⟨(i 1).val, idx2_lt1 i⟩

/-- Block t of that array read at (p, l) is the array at (p, t * 16384 + l). -/
theorem rows_read (t : Fin cfg0.N) (G : S8x131072.Idx → BitVec 32)
    (y : ((cfg0.win 2).xblock (cfg0.grid.coords t)).Idx) (p : Fin 8) (k : Fin 131072)
    (hp : p.val = (y 0).val) (hk : k.val = t.val * 16384 + (y 1).val) :
    ((cfg0.win 2).blk t).view.read (Elt Ideal) G y = G (ix2 p k) := by
  obtain ⟨-, -, -, -, -, a20, a21, a30, a31, a40, a41⟩ := idx_facts t
  rw [View.read_apply]
  show G (((cfg0.win 2).blk t).view.emb y) = G (ix2 p k)
  congr 1
  funext a
  apply Fin.ext
  match a with
  | ⟨0, _⟩ => show win0_2.index t (0 : Fin 2) * 8 + 1 * (y 0).val = p.val; rw [a20, hp]; omega
  | ⟨1, _⟩ => show win0_2.index t (1 : Fin 2) * 16384 + 1 * (y 1).val = k.val; rw [a21, hk]; omega

/-- What grid point t writes back is block t of the whole array. -/
theorem rows_flushed (c : Dev nD) (t : Fin cfg0.N) :
    (dats m 0 c).flushed 2 t
      = ((cfg0.win 2).blk t).view.read (Elt Ideal) (rowsArr (m ((c.tc : Thread nD τ).loc main_arg1)) (m ((c.tc : Thread nD τ).loc main_arg2))) := by
  show (cfg0.win 2).cut (grid0.coords t) ((dats m 0 c).after 2 t) = _
  rw [after0_2]
  funext y
  have hN : cfg0.N = 8 := N_0
  have ht : t.val < 8 := by have := t.isLt; omega
  have hy0 : (y 0).val < 8 := (y 0).isLt
  have hy1 : (y 1).val < 16384 := (y 1).isLt
  have hx : (cfg0.win 2).xinj (grid0.coords t) y = ix2 (⟨(y 0).val, hy0⟩ : Fin 8) (⟨(y 1).val, hy1⟩ : Fin 16384) := by
    funext a
    match a with
    | ⟨0, _⟩ => rfl
    | ⟨1, _⟩ => rfl
  refine Eq.trans ?_ (rows_read t _ y ⟨(y 0).val, hy0⟩ ⟨t.val * 16384 + (y 1).val, by omega⟩ rfl rfl).symm
  show out0_2 (F := Ideal) (iblk m c 0 t) (iblk m c 1 t) ((cfg0.win 2).xinj (grid0.coords t) y) = _
  rw [hx]
  exact rows_point m c t ⟨(y 0).val, hy0⟩ ⟨(y 1).val, hy1⟩ ⟨t.val * 16384 + (y 1).val, by omega⟩ rfl

/-- Every entry of the array lies in the block of the grid point its column falls under. -/
theorem rows_cover (i : S8x131072.Idx) :
    ∃ t : Fin cfg0.N, (cfg0.win 2).flush t = true ∧ i ∈ ((cfg0.win 2).blk t).view.set := by
  have hN : cfg0.N = 8 := N_0
  have hi0 : (i 0).val < 8 := (i 0).isLt
  have hi1 : (i 1).val < 131072 := (i 1).isLt
  have hq : (i 1).val / 16384 < cfg0.N := by rw [hN]; omega
  obtain ⟨-, -, -, -, -, a20, a21, a30, a31, a40, a41⟩ := idx_facts ⟨(i 1).val / 16384, hq⟩
  refine ⟨⟨(i 1).val / 16384, hq⟩, flush0_2 _, ?_⟩
  show i ∈ ((View.whole main_v2_0).slice (win0_2.rect ⟨(i 1).val / 16384, hq⟩)).set
  rw [View.set_slice_whole, Rect.mem_set_unit]
  intro a
  match a with
  | ⟨0, _⟩ =>
    show win0_2.index ⟨(i 1).val / 16384, hq⟩ (0 : Fin 2) * 8 ≤ (i 0).val
      ∧ (i 0).val < win0_2.index ⟨(i 1).val / 16384, hq⟩ (0 : Fin 2) * 8 + 8
    rw [a20]; omega
  | ⟨1, _⟩ =>
    show win0_2.index ⟨(i 1).val / 16384, hq⟩ (1 : Fin 2) * 16384 ≤ (i 1).val
      ∧ (i 1).val < win0_2.index ⟨(i 1).val / 16384, hq⟩ (1 : Fin 2) * 16384 + 16384
    rw [a21]
    show (i 1).val / 16384 * 16384 ≤ (i 1).val ∧ (i 1).val < (i 1).val / 16384 * 16384 + 16384
    omega

/-- So the array ends holding that function. -/
theorem rows_final (c : Dev nD) :
    (dats m 0 c).arrAt 2 cfg0.N = rowsArr (m ((c.tc : Thread nD τ).loc main_arg1)) (m ((c.tc : Thread nD τ).loc main_arg2)) :=
  (dats m 0 c).arrAt_eq_of_cover 2 (rowsArr (m ((c.tc : Thread nD τ).loc main_arg1)) (m ((c.tc : Thread nD τ).loc main_arg2)))
    (fun t _ => rows_flushed m c t) rows_cover

/-- The whole cols array as one function of the arguments: entry (p, k) belongs to proposal p of sample k. -/
def colsArr (P : SP.Idx → EReal) (I : SS.Idx → BitVec 32) : S8x131072.Idx → BitVec 32 :=
  fun i => colsAt P I ⟨(i 0).val, idx2_lt0 i⟩ ⟨(i 1).val, idx2_lt1 i⟩

/-- Block t of that array read at (p, l) is the array at (p, t * 16384 + l). -/
theorem cols_read (t : Fin cfg0.N) (G : S8x131072.Idx → BitVec 32)
    (y : ((cfg0.win 3).xblock (cfg0.grid.coords t)).Idx) (p : Fin 8) (k : Fin 131072)
    (hp : p.val = (y 0).val) (hk : k.val = t.val * 16384 + (y 1).val) :
    ((cfg0.win 3).blk t).view.read (Elt Ideal) G y = G (ix2 p k) := by
  obtain ⟨-, -, -, -, -, a20, a21, a30, a31, a40, a41⟩ := idx_facts t
  rw [View.read_apply]
  show G (((cfg0.win 3).blk t).view.emb y) = G (ix2 p k)
  congr 1
  funext a
  apply Fin.ext
  match a with
  | ⟨0, _⟩ => show win0_3.index t (0 : Fin 2) * 8 + 1 * (y 0).val = p.val; rw [a30, hp]; omega
  | ⟨1, _⟩ => show win0_3.index t (1 : Fin 2) * 16384 + 1 * (y 1).val = k.val; rw [a31, hk]; omega

/-- What grid point t writes back is block t of the whole array. -/
theorem cols_flushed (c : Dev nD) (t : Fin cfg0.N) :
    (dats m 0 c).flushed 3 t
      = ((cfg0.win 3).blk t).view.read (Elt Ideal) (colsArr (m ((c.tc : Thread nD τ).loc main_arg1)) (m ((c.tc : Thread nD τ).loc main_arg2))) := by
  show (cfg0.win 3).cut (grid0.coords t) ((dats m 0 c).after 3 t) = _
  rw [after0_3]
  funext y
  have hN : cfg0.N = 8 := N_0
  have ht : t.val < 8 := by have := t.isLt; omega
  have hy0 : (y 0).val < 8 := (y 0).isLt
  have hy1 : (y 1).val < 16384 := (y 1).isLt
  have hx : (cfg0.win 3).xinj (grid0.coords t) y = ix2 (⟨(y 0).val, hy0⟩ : Fin 8) (⟨(y 1).val, hy1⟩ : Fin 16384) := by
    funext a
    match a with
    | ⟨0, _⟩ => rfl
    | ⟨1, _⟩ => rfl
  refine Eq.trans ?_ (cols_read t _ y ⟨(y 0).val, hy0⟩ ⟨t.val * 16384 + (y 1).val, by omega⟩ rfl rfl).symm
  show out0_3 (F := Ideal) (iblk m c 0 t) (iblk m c 1 t) ((cfg0.win 3).xinj (grid0.coords t) y) = _
  rw [hx]
  exact cols_point m c t ⟨(y 0).val, hy0⟩ ⟨(y 1).val, hy1⟩ ⟨t.val * 16384 + (y 1).val, by omega⟩ rfl

/-- Every entry of the array lies in the block of the grid point its column falls under. -/
theorem cols_cover (i : S8x131072.Idx) :
    ∃ t : Fin cfg0.N, (cfg0.win 3).flush t = true ∧ i ∈ ((cfg0.win 3).blk t).view.set := by
  have hN : cfg0.N = 8 := N_0
  have hi0 : (i 0).val < 8 := (i 0).isLt
  have hi1 : (i 1).val < 131072 := (i 1).isLt
  have hq : (i 1).val / 16384 < cfg0.N := by rw [hN]; omega
  obtain ⟨-, -, -, -, -, a20, a21, a30, a31, a40, a41⟩ := idx_facts ⟨(i 1).val / 16384, hq⟩
  refine ⟨⟨(i 1).val / 16384, hq⟩, flush0_3 _, ?_⟩
  show i ∈ ((View.whole main_v2_1).slice (win0_3.rect ⟨(i 1).val / 16384, hq⟩)).set
  rw [View.set_slice_whole, Rect.mem_set_unit]
  intro a
  match a with
  | ⟨0, _⟩ =>
    show win0_3.index ⟨(i 1).val / 16384, hq⟩ (0 : Fin 2) * 8 ≤ (i 0).val
      ∧ (i 0).val < win0_3.index ⟨(i 1).val / 16384, hq⟩ (0 : Fin 2) * 8 + 8
    rw [a30]; omega
  | ⟨1, _⟩ =>
    show win0_3.index ⟨(i 1).val / 16384, hq⟩ (1 : Fin 2) * 16384 ≤ (i 1).val
      ∧ (i 1).val < win0_3.index ⟨(i 1).val / 16384, hq⟩ (1 : Fin 2) * 16384 + 16384
    rw [a31]
    show (i 1).val / 16384 * 16384 ≤ (i 1).val ∧ (i 1).val < (i 1).val / 16384 * 16384 + 16384
    omega

/-- So the array ends holding that function. -/
theorem cols_final (c : Dev nD) :
    (dats m 0 c).arrAt 3 cfg0.N = colsArr (m ((c.tc : Thread nD τ).loc main_arg1)) (m ((c.tc : Thread nD τ).loc main_arg2)) :=
  (dats m 0 c).arrAt_eq_of_cover 3 (colsArr (m ((c.tc : Thread nD τ).loc main_arg1)) (m ((c.tc : Thread nD τ).loc main_arg2)))
    (fun t _ => cols_flushed m c t) cols_cover

/-- The whole weights array as one function of the arguments: entry (p, k) belongs to proposal p of sample k. -/
def weightsArr (P : SP.Idx → EReal) (I : SS.Idx → BitVec 32) : S8x131072.Idx → EReal :=
  fun i => weightsAt P I ⟨(i 0).val, idx2_lt0 i⟩ ⟨(i 1).val, idx2_lt1 i⟩

/-- Block t of that array read at (p, l) is the array at (p, t * 16384 + l). -/
theorem weights_read (t : Fin cfg0.N) (G : S8x131072.Idx → EReal)
    (y : ((cfg0.win 4).xblock (cfg0.grid.coords t)).Idx) (p : Fin 8) (k : Fin 131072)
    (hp : p.val = (y 0).val) (hk : k.val = t.val * 16384 + (y 1).val) :
    ((cfg0.win 4).blk t).view.read (Elt Ideal) G y = G (ix2 p k) := by
  obtain ⟨-, -, -, -, -, a20, a21, a30, a31, a40, a41⟩ := idx_facts t
  rw [View.read_apply]
  show G (((cfg0.win 4).blk t).view.emb y) = G (ix2 p k)
  congr 1
  funext a
  apply Fin.ext
  match a with
  | ⟨0, _⟩ => show win0_4.index t (0 : Fin 2) * 8 + 1 * (y 0).val = p.val; rw [a40, hp]; omega
  | ⟨1, _⟩ => show win0_4.index t (1 : Fin 2) * 16384 + 1 * (y 1).val = k.val; rw [a41, hk]; omega

/-- What grid point t writes back is block t of the whole array. -/
theorem weights_flushed (c : Dev nD) (t : Fin cfg0.N) :
    (dats m 0 c).flushed 4 t
      = ((cfg0.win 4).blk t).view.read (Elt Ideal) (weightsArr (m ((c.tc : Thread nD τ).loc main_arg1)) (m ((c.tc : Thread nD τ).loc main_arg2))) := by
  show (cfg0.win 4).cut (grid0.coords t) ((dats m 0 c).after 4 t) = _
  rw [after0_4]
  funext y
  have hN : cfg0.N = 8 := N_0
  have ht : t.val < 8 := by have := t.isLt; omega
  have hy0 : (y 0).val < 8 := (y 0).isLt
  have hy1 : (y 1).val < 16384 := (y 1).isLt
  have hx : (cfg0.win 4).xinj (grid0.coords t) y = ix2 (⟨(y 0).val, hy0⟩ : Fin 8) (⟨(y 1).val, hy1⟩ : Fin 16384) := by
    funext a
    match a with
    | ⟨0, _⟩ => rfl
    | ⟨1, _⟩ => rfl
  refine Eq.trans ?_ (weights_read t _ y ⟨(y 0).val, hy0⟩ ⟨t.val * 16384 + (y 1).val, by omega⟩ rfl rfl).symm
  show out0_4 (F := Ideal) (iblk m c 0 t) (iblk m c 1 t) ((cfg0.win 4).xinj (grid0.coords t) y) = _
  rw [hx]
  exact weights_point m c t ⟨(y 0).val, hy0⟩ ⟨(y 1).val, hy1⟩ ⟨t.val * 16384 + (y 1).val, by omega⟩ rfl

/-- Every entry of the array lies in the block of the grid point its column falls under. -/
theorem weights_cover (i : S8x131072.Idx) :
    ∃ t : Fin cfg0.N, (cfg0.win 4).flush t = true ∧ i ∈ ((cfg0.win 4).blk t).view.set := by
  have hN : cfg0.N = 8 := N_0
  have hi0 : (i 0).val < 8 := (i 0).isLt
  have hi1 : (i 1).val < 131072 := (i 1).isLt
  have hq : (i 1).val / 16384 < cfg0.N := by rw [hN]; omega
  obtain ⟨-, -, -, -, -, a20, a21, a30, a31, a40, a41⟩ := idx_facts ⟨(i 1).val / 16384, hq⟩
  refine ⟨⟨(i 1).val / 16384, hq⟩, flush0_4 _, ?_⟩
  show i ∈ ((View.whole main_v2_2).slice (win0_4.rect ⟨(i 1).val / 16384, hq⟩)).set
  rw [View.set_slice_whole, Rect.mem_set_unit]
  intro a
  match a with
  | ⟨0, _⟩ =>
    show win0_4.index ⟨(i 1).val / 16384, hq⟩ (0 : Fin 2) * 8 ≤ (i 0).val
      ∧ (i 0).val < win0_4.index ⟨(i 1).val / 16384, hq⟩ (0 : Fin 2) * 8 + 8
    rw [a40]; omega
  | ⟨1, _⟩ =>
    show win0_4.index ⟨(i 1).val / 16384, hq⟩ (1 : Fin 2) * 16384 ≤ (i 1).val
      ∧ (i 1).val < win0_4.index ⟨(i 1).val / 16384, hq⟩ (1 : Fin 2) * 16384 + 16384
    rw [a41]
    show (i 1).val / 16384 * 16384 ≤ (i 1).val ∧ (i 1).val < (i 1).val / 16384 * 16384 + 16384
    omega

/-- So the array ends holding that function. -/
theorem weights_final (c : Dev nD) :
    (dats m 0 c).arrAt 4 cfg0.N = weightsArr (m ((c.tc : Thread nD τ).loc main_arg1)) (m ((c.tc : Thread nD τ).loc main_arg2)) :=
  (dats m 0 c).arrAt_eq_of_cover 4 (weightsArr (m ((c.tc : Thread nD τ).loc main_arg1)) (m ((c.tc : Thread nD τ).loc main_arg2)))
    (fun t _ => weights_flushed m c t) weights_cover

/-! ## The operations after the kernel -/

/-- The rows array flattened row by row lists the proposals proposal-major. -/
theorem rows_list (P : SP.Idx → EReal) (I : SS.Idx → BitVec 32) :
    shapeCast S1048576 (rowsArr P I) shapeCasts_S8x131072_S1048576 = byProposal (rowsAt P I) := by
  funext e
  have he : (e 0).val < 1048576 := (e 0).isLt
  refine (shapeCast_apply _ _ e (ix2 (⟨(e 0).val / 131072, by omega⟩ : Fin 8) (⟨(e 0).val % 131072, by omega⟩ : Fin 131072)) ?_).trans ?_
  · rw [Shape.rowMajor_val_two, Shape.rowMajor_val_one]
    show (e 0).val / 131072 * 131072 + (e 0).val % 131072 = (e 0).val
    omega
  · rfl

/-- The cols array flattened row by row lists the proposals proposal-major. -/
theorem cols_list (P : SP.Idx → EReal) (I : SS.Idx → BitVec 32) :
    shapeCast S1048576 (colsArr P I) shapeCasts_S8x131072_S1048576 = byProposal (colsAt P I) := by
  funext e
  have he : (e 0).val < 1048576 := (e 0).isLt
  refine (shapeCast_apply _ _ e (ix2 (⟨(e 0).val / 131072, by omega⟩ : Fin 8) (⟨(e 0).val % 131072, by omega⟩ : Fin 131072)) ?_).trans ?_
  · rw [Shape.rowMajor_val_two, Shape.rowMajor_val_one]
    show (e 0).val / 131072 * 131072 + (e 0).val % 131072 = (e 0).val
    omega
  · rfl

/-- The weights array flattened row by row lists the proposals proposal-major. -/
theorem weights_list (P : SP.Idx → EReal) (I : SS.Idx → BitVec 32) :
    shapeCast S1048576 (weightsArr P I) shapeCasts_S8x131072_S1048576 = byProposal (weightsAt P I) := by
  funext e
  have he : (e 0).val < 1048576 := (e 0).isLt
  refine (shapeCast_apply _ _ e (ix2 (⟨(e 0).val / 131072, by omega⟩ : Fin 8) (⟨(e 0).val % 131072, by omega⟩ : Fin 131072)) ?_).trans ?_
  · rw [Shape.rowMajor_val_two, Shape.rowMajor_val_one]
    show (e 0).val / 131072 * 131072 + (e 0).val % 131072 = (e 0).val
    omega
  · rfl

/-- The operations after the kernel, from any contents of the buffers: the sparse product of the feature matrix
    and the three output arrays flattened. -/
theorem tail_after (W : Valuation τ sig (Elt Ideal)) :
    StableHlo.after (hostOps1 (F := Ideal)) W (Proc.devRef .tc main_v18)
      = tail (W (Proc.devRef .tc main_arg0))
          (shapeCast S1048576 (W (Proc.devRef .tc main_v2_0)) shapeCasts_S8x131072_S1048576)
          (shapeCast S1048576 (W (Proc.devRef .tc main_v2_1)) shapeCasts_S8x131072_S1048576)
          (shapeCast S1048576 (W (Proc.devRef .tc main_v2_2)) shapeCasts_S8x131072_S1048576) := by
  after_results
  rfl

/-- The buffers as the kernel leaves them: its three output arrays as computed, every other buffer as it was. -/
def exitVal (c : Dev nD) : Valuation τ sig (Elt Ideal) :=
  Pipeline.withArrays (cfgs 0).spec c (V0 m c) fun w => (dats m 0 c).arrAt w (cfgs 0).N

/-- The feature matrix is no array of the kernel's and no operation before it writes it: it is as launched. -/
theorem exit_features (c : Dev nD) :
    exitVal m c (Proc.devRef .tc main_arg0) = (m ((c.tc : Thread nD τ).loc main_arg0)) := by
  unfold exitVal
  rw [Pipeline.withArrays_of_ne _ c (V0 m c) _ main_arg0 (by exact (by decide : ∀ w, Pipeline.arrRef spec0 w ≠ main_arg0))]
  exact V_main_arg0 m c

/-- The rows array is left at the row index of every proposal of every sample. -/
theorem exit_rows (c : Dev nD) :
    exitVal m c (Proc.devRef .tc main_v2_0) = rowsArr (m ((c.tc : Thread nD τ).loc main_arg1)) (m ((c.tc : Thread nD τ).loc main_arg2)) :=
  (Pipeline.withArrays_arr spec0 launch0.win.arr_inj c _ _ 2).trans (rows_final m c)

/-- The columns array is left at the column index of every proposal of every sample. -/
theorem exit_cols (c : Dev nD) :
    exitVal m c (Proc.devRef .tc main_v2_1) = colsArr (m ((c.tc : Thread nD τ).loc main_arg1)) (m ((c.tc : Thread nD τ).loc main_arg2)) :=
  (Pipeline.withArrays_arr spec0 launch0.win.arr_inj c _ _ 3).trans (cols_final m c)

/-- The weights array is left at the weight of every proposal of every sample. -/
theorem exit_weights (c : Dev nD) :
    exitVal m c (Proc.devRef .tc main_v2_2) = weightsArr (m ((c.tc : Thread nD τ).loc main_arg1)) (m ((c.tc : Thread nD τ).loc main_arg2)) :=
  (Pipeline.withArrays_arr spec0 launch0.win.arr_inj c _ _ 4).trans (weights_final m c)

/-- The result buffer after the whole program. -/
theorem result_eq (c : Dev nD) :
    Pipeline.afterTail₀ cfgs (dats m) 0 (V0 m) [hostOps1] c main_v18
      = tail (m ((c.tc : Thread nD τ).loc main_arg0))
          (byProposal (rowsAt (m ((c.tc : Thread nD τ).loc main_arg1)) (m ((c.tc : Thread nD τ).loc main_arg2))))
          (byProposal (colsAt (m ((c.tc : Thread nD τ).loc main_arg1)) (m ((c.tc : Thread nD τ).loc main_arg2))))
          (byProposal (weightsAt (m ((c.tc : Thread nD τ).loc main_arg1)) (m ((c.tc : Thread nD τ).loc main_arg2)))) := by
  unfold Pipeline.afterTail₀
  show StableHlo.after hostOps1 (exitVal m c) (Proc.devRef .tc main_v18) = _
  rw [tail_after, exit_features, exit_rows, exit_cols, exit_weights, rows_list, cols_list, weights_list]

end Arrays

/-- Every weakly fair execution of the kernel's program ends with the result at the sparse product of the
    proposal-major lists, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = tail (m ((c.tc : Thread nD τ).loc main_arg0))
              (byProposal (rowsAt (m ((c.tc : Thread nD τ).loc main_arg1)) (m ((c.tc : Thread nD τ).loc main_arg2))))
              (byProposal (colsAt (m ((c.tc : Thread nD τ).loc main_arg1)) (m ((c.tc : Thread nD τ).loc main_arg2))))
              (byProposal (weightsAt (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Hyper.Kernel

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefOps.lean ====
/-
  The reference program as a table of its host operations.

  The reference is a straight line of 110 host operations. Each overwrites one buffer with a function of the
  contents of buffers written earlier in the line or of the program's arguments, and no buffer is written twice; the
  operations of the two outlined functions stand at their call sites, over the buffers of that call. From the list
  follows the program's run: every weakly fair execution terminates with each buffer at the fold of the operations
  over its launch contents. Because the line is in single-assignment form the fold satisfies one equation per
  buffer: a written buffer ends at its operation's function of its operands' final contents, and an argument keeps
  its launch contents. Each equation cites the position of its operation in the list; its side conditions, that
  the buffer written there is written nowhere later and the buffers read there are written nowhere from there on,
  are decided over the list of written buffers.
-/
import proofs.«401185_j46634754900206_1_alg».proof.Proof.Gen.ReferenceIdeal
import proofs.«401185_j46634754900206_1_alg».proof.Proof.LibSsa
import Idealize.ShloMosaic.Lib.StableHlo.Run
import Idealize.ShloMosaic.PureOps.Ideal

noncomputable section

namespace Cert.Hyper.Reference

open Cert.ReferenceIdeal Cert.ReferenceIdeal.Facts₀ Idealize.ShloMosaic Idealize.ShloMosaic.StableHlo Idealize.ShloMosaic.TcCoe Idealize.SL.Sem

variable {F : FTy → Type} [FloatOps F]

/-- The reference's 110 host operations in program order, those of the two outlined functions at their call sites. -/
abbrev ops : List (HloOp τ sig (Elt F)) :=
  [ nullary main_cst (constant S2 .f32 0x47434F00#32),
    nullary main_cst_0 (constant S2 .f32 0x47435000#32),
    nullary main_c (fun i => lit0 (S4x2.rowMajor i)),
    unary main_arg1 main_v0 ((extractStridedSlice S131072x2 ![0, 0] · slices_S131072x4_S131072x2_0_0) : (⟨S131072x4, .f32⟩ : BufTy).Contents (Elt F) → (⟨S131072x2, .f32⟩ : BufTy).Contents (Elt F)),
    unary main_v0 main_v1 (Host.negf : (⟨S131072x2, .f32⟩ : BufTy).Contents (Elt F) → (⟨S131072x2, .f32⟩ : BufTy).Contents (Elt F)),
    unary main_v1 main_v2 (Host.exp : (⟨S131072x2, .f32⟩ : BufTy).Contents (Elt F) → (⟨S131072x2, .f32⟩ : BufTy).Contents (Elt F)),
    nullary main_cst_1 (constant S_ .f32 0x3F800000#32),
    unary main_cst_1 main_v3 (broadcastInDim S131072x2 ![] bcast_S_S131072x2 : (⟨S_, .f32⟩ : BufTy).Contents (Elt F) → (⟨S131072x2, .f32⟩ : BufTy).Contents (Elt F)),
    binary main_v3 main_v2 main_v4 (addf : (⟨S131072x2, .f32⟩ : BufTy).Contents (Elt F) → (⟨S131072x2, .f32⟩ : BufTy).Contents (Elt F) → (⟨S131072x2, .f32⟩ : BufTy).Contents (Elt F)),
    nullary main_cst_2 (constant S_ .f32 0x3F800000#32),
    unary main_cst_2 main_v5 (broadcastInDim S131072x2 ![] bcast_S_S131072x2 : (⟨S_, .f32⟩ : BufTy).Contents (Elt F) → (⟨S131072x2, .f32⟩ : BufTy).Contents (Elt F)),
    binary main_v5 main_v4 main_v6 (Host.divf : (⟨S131072x2, .f32⟩ : BufTy).Contents (Elt F) → (⟨S131072x2, .f32⟩ : BufTy).Contents (Elt F) → (⟨S131072x2, .f32⟩ : BufTy).Contents (Elt F)),
    unary main_cst main_v7 (broadcastInDim S1x2 ![1] bcast_S2_S1x2_1 : (⟨S2, .f32⟩ : BufTy).Contents (Elt F) → (⟨S1x2, .f32⟩ : BufTy).Contents (Elt F)),
    unary main_v7 main_v8 (broadcastInDim S131072x2 ![0, 1] bcast_S1x2_S131072x2_0_1 : (⟨S1x2, .f32⟩ : BufTy).Contents (Elt F) → (⟨S131072x2, .f32⟩ : BufTy).Contents (Elt F)),
    binary main_v6 main_v8 main_v9 (mulf : (⟨S131072x2, .f32⟩ : BufTy).Contents (Elt F) → (⟨S131072x2, .f32⟩ : BufTy).Contents (Elt F) → (⟨S131072x2, .f32⟩ : BufTy).Contents (Elt F)),
    unary main_arg1 main_v10 ((extractStridedSlice S131072x1 ![0, 2] · slices_S131072x4_S131072x1_0_2) : (⟨S131072x4, .f32⟩ : BufTy).Contents (Elt F) → (⟨S131072x1, .f32⟩ : BufTy).Contents (Elt F)),
    nullary main_cst_3 (constant S_ .f32 0x40000000#32),
    unary main_cst_3 main_v11 (broadcastInDim S131072x1 ![] bcast_S_S131072x1 : (⟨S_, .f32⟩ : BufTy).Contents (Elt F) → (⟨S131072x1, .f32⟩ : BufTy).Contents (Elt F)),
    binary main_v10 main_v11 main_v12 (addf : (⟨S131072x1, .f32⟩ : BufTy).Contents (Elt F) → (⟨S131072x1, .f32⟩ : BufTy).Contents (Elt F) → (⟨S131072x1, .f32⟩ : BufTy).Contents (Elt F)),
    TRef.nullary main_call0.cst (constant S_ .f32 0x00000000#32),
    TRef.unary main_call0.cst main_call0.v0 (broadcastInDim S131072x1 ![] bcast_S_S131072x1),
    TRef.binary (.of main_v12 : TRef sig ⟨S131072x1, .f32⟩) main_call0.v0 main_call0.v1 maximumf,
    TRef.unary main_call0.cst main_call0.v2 (broadcastInDim S131072x1 ![] bcast_S_S131072x1),
    TRef.binary (.of main_v12 : TRef sig ⟨S131072x1, .f32⟩) main_call0.v2 main_call0.v3 subf,
    TRef.binary main_call0.v3 main_call0.v3 main_call0.v4 (cmpf .une),
    TRef.unary main_call0.cst main_call0.v5 (broadcastInDim S131072x1 ![] bcast_S_S131072x1),
    TRef.binary (.of main_v12 : TRef sig ⟨S131072x1, .f32⟩) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst_4 (constant S_ .f32 0x358637BD#32),
    unary main_cst_4 main_v14 (broadcastInDim S131072x1 ![] bcast_S_S131072x1 : (⟨S_, .f32⟩ : BufTy).Contents (Elt F) → (⟨S131072x1, .f32⟩ : BufTy).Contents (Elt F)),
    binary main_v13 main_v14 main_v15 (addf : (⟨S131072x1, .f32⟩ : BufTy).Contents (Elt F) → (⟨S131072x1, .f32⟩ : BufTy).Contents (Elt F) → (⟨S131072x1, .f32⟩ : BufTy).Contents (Elt F)),
    unary main_cst_0 main_v16 (broadcastInDim S1x2 ![1] bcast_S2_S1x2_1 : (⟨S2, .f32⟩ : BufTy).Contents (Elt F) → (⟨S1x2, .f32⟩ : BufTy).Contents (Elt F)),
    unary main_v15 main_v17 (broadcastInDim S131072x2 ![0, 1] bcast_S131072x1_S131072x2_0_1 : (⟨S131072x1, .f32⟩ : BufTy).Contents (Elt F) → (⟨S131072x2, .f32⟩ : BufTy).Contents (Elt F)),
    unary main_v16 main_v18 (broadcastInDim S131072x2 ![0, 1] bcast_S1x2_S131072x2_0_1 : (⟨S1x2, .f32⟩ : BufTy).Contents (Elt F) → (⟨S131072x2, .f32⟩ : BufTy).Contents (Elt F)),
    binary main_v17 main_v18 main_v19 (mulf : (⟨S131072x2, .f32⟩ : BufTy).Contents (Elt F) → (⟨S131072x2, .f32⟩ : BufTy).Contents (Elt F) → (⟨S131072x2, .f32⟩ : BufTy).Contents (Elt F)),
    nullary main_cst_5 (constant S_ .f32 0x3E4CCCCD#32),
    unary main_cst_5 main_v20 (broadcastInDim S131072x2 ![] bcast_S_S131072x2 : (⟨S_, .f32⟩ : BufTy).Contents (Elt F) → (⟨S131072x2, .f32⟩ : BufTy).Contents (Elt F)),
    binary main_v19 main_v20 main_v21 (mulf : (⟨S131072x2, .f32⟩ : BufTy).Contents (Elt F) → (⟨S131072x2, .f32⟩ : BufTy).Contents (Elt F) → (⟨S131072x2, .f32⟩ : BufTy).Contents (Elt F)),
    unary main_arg1 main_v22 ((extractStridedSlice S131072x1 ![0, 3] · slices_S131072x4_S131072x1_0_3) : (⟨S131072x4, .f32⟩ : BufTy).Contents (Elt F) → (⟨S131072x1, .f32⟩ : BufTy).Contents (Elt F)),
    reshape main_v22 main_v23 rfl shapeCasts_S131072x1_S131072,
    unary main_c main_v24 (broadcastInDim S1x4x2 ![1, 2] bcast_S4x2_S1x4x2_1_2 : (⟨S4x2, .i1⟩ : BufTy).Contents (Elt F) → (⟨S1x4x2, .i1⟩ : BufTy).Contents (Elt F)),
    unary main_v9 main_v25 (broadcastInDim S131072x1x2 ![0, 2] bcast_S131072x2_S131072x1x2_0_2 : (⟨S131072x2, .f32⟩ : BufTy).Contents (Elt F) → (⟨S131072x1x2, .f32⟩ : BufTy).Contents (Elt F)),
    unary main_v25 main_v26 (Host.floor : (⟨S131072x1x2, .f32⟩ : BufTy).Contents (Elt F) → (⟨S131072x1x2, .f32⟩ : BufTy).Contents (Elt F)),
    unary main_v25 main_v27 (Host.ceil : (⟨S131072x1x2, .f32⟩ : BufTy).Contents (Elt F) → (⟨S131072x1x2, .f32⟩ : BufTy).Contents (Elt F)),
    TRef.unary (.of main_v24 : TRef sig ⟨S1x4x2, .i1⟩) main_call1.v0 (broadcastInDim S131072x4x2 ![0, 1, 2] bcast_S1x4x2_S131072x4x2_0_1_2),
    TRef.unary (.of main_v26 : TRef sig ⟨S131072x1x2, .f32⟩) main_call1.v1 (broadcastInDim S131072x4x2 ![0, 1, 2] bcast_S131072x1x2_S131072x4x2_0_1_2),
    TRef.unary (.of main_v27 : TRef sig ⟨S131072x1x2, .f32⟩) main_call1.v2 (broadcastInDim S131072x4x2 ![0, 1, 2] bcast_S131072x1x2_S131072x4x2_0_1_2),
    TRef.ternary main_call1.v0 main_call1.v1 main_call1.v2 main_call1.v3 select,
    unary main_v28 main_v29 (fptosi 32 : (⟨S131072x4x2, .f32⟩ : BufTy).Contents (Elt F) → (⟨S131072x4x2, .i32⟩ : BufTy).Contents (Elt F)),
    binary main_v29 main_arg2 main_v30 ((fun a b => concatenate S131072x8x2 1 [⟨S131072x4x2, a⟩, ⟨S131072x4x2, b⟩] concatenates_S131072x4x2_S131072x4x2_S131072x8x2_d1) : (⟨S131072x4x2, .i32⟩ : BufTy).Contents (Elt F) → (⟨S131072x4x2, .i32⟩ : BufTy).Contents (Elt F) → (⟨S131072x8x2, .i32⟩ : BufTy).Contents (Elt F)),
    unary main_v30 main_v31 (sitofp .f32 : (⟨S131072x8x2, .i32⟩ : BufTy).Contents (Elt F) → (⟨S131072x8x2, .f32⟩ : BufTy).Contents (Elt F)),
    unary main_v9 main_v32 (broadcastInDim S131072x1x2 ![0, 2] bcast_S131072x2_S131072x1x2_0_2 : (⟨S131072x2, .f32⟩ : BufTy).Contents (Elt F) → (⟨S131072x1x2, .f32⟩ : BufTy).Contents (Elt F)),
    unary main_v32 main_v33 (broadcastInDim S131072x8x2 ![0, 1, 2] bcast_S131072x1x2_S131072x8x2_0_1_2 : (⟨S131072x1x2, .f32⟩ : BufTy).Contents (Elt F) → (⟨S131072x8x2, .f32⟩ : BufTy).Contents (Elt F)),
    binary main_v31 main_v33 main_v34 (subf : (⟨S131072x8x2, .f32⟩ : BufTy).Contents (Elt F) → (⟨S131072x8x2, .f32⟩ : BufTy).Contents (Elt F) → (⟨S131072x8x2, .f32⟩ : BufTy).Contents (Elt F)),
    unary main_v21 main_v35 (broadcastInDim S131072x1x2 ![0, 2] bcast_S131072x2_S131072x1x2_0_2 : (⟨S131072x2, .f32⟩ : BufTy).Contents (Elt F) → (⟨S131072x1x2, .f32⟩ : BufTy).Contents (Elt F)),
    nullary main_cst_6 (constant S_ .f32 0x358637BD#32),
    unary main_cst_6 main_v36 (broadcastInDim S131072x1x2 ![] bcast_S_S131072x1x2 : (⟨S_, .f32⟩ : BufTy).Contents (Elt F) → (⟨S131072x1x2, .f32⟩ : BufTy).Contents (Elt F)),
    binary main_v36 main_v35 main_v37 (addf : (⟨S131072x1x2, .f32⟩ : BufTy).Contents (Elt F) → (⟨S131072x1x2, .f32⟩ : BufTy).Contents (Elt F) → (⟨S131072x1x2, .f32⟩ : BufTy).Contents (Elt F)),
    nullary main_cst_7 (constant S_ .f32 0x3F800000#32),
    unary main_cst_7 main_v38 (broadcastInDim S131072x1x2 ![] bcast_S_S131072x1x2 : (⟨S_, .f32⟩ : BufTy).Contents (Elt F) → (⟨S131072x1x2, .f32⟩ : BufTy).Contents (Elt F)),
    binary main_v38 main_v37 main_v39 (Host.divf : (⟨S131072x1x2, .f32⟩ : BufTy).Contents (Elt F) → (⟨S131072x1x2, .f32⟩ : BufTy).Contents (Elt F) → (⟨S131072x1x2, .f32⟩ : BufTy).Contents (Elt F)),
    unary main_v39 main_v40 (Host.sqrt : (⟨S131072x1x2, .f32⟩ : BufTy).Contents (Elt F) → (⟨S131072x1x2, .f32⟩ : BufTy).Contents (Elt F)),
    unary main_v40 main_v41 (broadcastInDim S131072x8x2 ![0, 1, 2] bcast_S131072x1x2_S131072x8x2_0_1_2 : (⟨S131072x1x2, .f32⟩ : BufTy).Contents (Elt F) → (⟨S131072x8x2, .f32⟩ : BufTy).Contents (Elt F)),
    binary main_v34 main_v41 main_v42 (mulf : (⟨S131072x8x2, .f32⟩ : BufTy).Contents (Elt F) → (⟨S131072x8x2, .f32⟩ : BufTy).Contents (Elt F) → (⟨S131072x8x2, .f32⟩ : BufTy).Contents (Elt F)),
    binary main_v42 main_v42 main_v43 (mulf : (⟨S131072x8x2, .f32⟩ : BufTy).Contents (Elt F) → (⟨S131072x8x2, .f32⟩ : BufTy).Contents (Elt F) → (⟨S131072x8x2, .f32⟩ : BufTy).Contents (Elt F)),
    nullary main_cst_8 (constant S_ .f32 0x00000000#32),
    binary main_v43 main_cst_8 main_v44 ((fun x v => Host.reduceAdd x v reducesTo_S131072x8x2_S131072x8_d2 h_S_) : (⟨S131072x8x2, .f32⟩ : BufTy).Contents (Elt F) → (⟨S_, .f32⟩ : BufTy).Contents (Elt F) → (⟨S131072x8, .f32⟩ : BufTy).Contents (Elt F)),
    nullary main_cst_9 (constant S_ .f32 0xBF000000#32),
    unary main_cst_9 main_v45 (broadcastInDim S131072x8 ![] bcast_S_S131072x8 : (⟨S_, .f32⟩ : BufTy).Contents (Elt F) → (⟨S131072x8, .f32⟩ : BufTy).Contents (Elt F)),
    binary main_v45 main_v44 main_v46 (mulf : (⟨S131072x8, .f32⟩ : BufTy).Contents (Elt F) → (⟨S131072x8, .f32⟩ : BufTy).Contents (Elt F) → (⟨S131072x8, .f32⟩ : BufTy).Contents (Elt F)),
    unary main_v46 main_v47 (Host.exp : (⟨S131072x8, .f32⟩ : BufTy).Contents (Elt F) → (⟨S131072x8, .f32⟩ : BufTy).Contents (Elt F)),
    nullary main_cst_10 (constant S_ .f32 0x358637BD#32),
    unary main_cst_10 main_v48 (broadcastInDim S131072x8 ![] bcast_S_S131072x8 : (⟨S_, .f32⟩ : BufTy).Contents (Elt F) → (⟨S131072x8, .f32⟩ : BufTy).Contents (Elt F)),
    binary main_v47 main_v48 main_v49 (addf : (⟨S131072x8, .f32⟩ : BufTy).Contents (Elt F) → (⟨S131072x8, .f32⟩ : BufTy).Contents (Elt F) → (⟨S131072x8, .f32⟩ : BufTy).Contents (Elt F)),
    nullary main_cst_11 (constant S_ .f32 0x00000000#32),
    binary main_v49 main_cst_11 main_v50 ((fun x v => Host.reduceAdd x v reducesTo_S131072x8_S131072_d1 h_S_) : (⟨S131072x8, .f32⟩ : BufTy).Contents (Elt F) → (⟨S_, .f32⟩ : BufTy).Contents (Elt F) → (⟨S131072, .f32⟩ : BufTy).Contents (Elt F)),
    unary main_v50 main_v51 (broadcastInDim S131072x1 ![0] bcast_S131072_S131072x1_0 : (⟨S131072, .f32⟩ : BufTy).Contents (Elt F) → (⟨S131072x1, .f32⟩ : BufTy).Contents (Elt F)),
    unary main_v51 main_v52 (broadcastInDim S131072x8 ![0, 1] bcast_S131072x1_S131072x8_0_1 : (⟨S131072x1, .f32⟩ : BufTy).Contents (Elt F) → (⟨S131072x8, .f32⟩ : BufTy).Contents (Elt F)),
    binary main_v47 main_v52 main_v53 (Host.divf : (⟨S131072x8, .f32⟩ : BufTy).Contents (Elt F) → (⟨S131072x8, .f32⟩ : BufTy).Contents (Elt F) → (⟨S131072x8, .f32⟩ : BufTy).Contents (Elt F)),
    unary main_v23 main_v54 (broadcastInDim S131072x1 ![0] bcast_S131072_S131072x1_0 : (⟨S131072, .f32⟩ : BufTy).Contents (Elt F) → (⟨S131072x1, .f32⟩ : BufTy).Contents (Elt F)),
    unary main_v54 main_v55 (broadcastInDim S131072x8 ![0, 1] bcast_S131072x1_S131072x8_0_1 : (⟨S131072x1, .f32⟩ : BufTy).Contents (Elt F) → (⟨S131072x8, .f32⟩ : BufTy).Contents (Elt F)),
    binary main_v55 main_v53 main_v56 (mulf : (⟨S131072x8, .f32⟩ : BufTy).Contents (Elt F) → (⟨S131072x8, .f32⟩ : BufTy).Contents (Elt F) → (⟨S131072x8, .f32⟩ : BufTy).Contents (Elt F)),
    unary main_v30 main_v57 ((extractStridedSlice S131072x8x1 ![0, 0, 0] · slices_S131072x8x2_S131072x8x1_0_0_0) : (⟨S131072x8x2, .i32⟩ : BufTy).Contents (Elt F) → (⟨S131072x8x1, .i32⟩ : BufTy).Contents (Elt F)),
    reshape main_v57 main_v58 rfl shapeCasts_S131072x8x1_S131072x8,
    reshape main_v58 main_v59 rfl shapeCasts_S131072x8_S1048576,
    unary main_v30 main_v60 ((extractStridedSlice S131072x8x1 ![0, 0, 1] · slices_S131072x8x2_S131072x8x1_0_0_1) : (⟨S131072x8x2, .i32⟩ : BufTy).Contents (Elt F) → (⟨S131072x8x1, .i32⟩ : BufTy).Contents (Elt F)),
    reshape main_v60 main_v61 rfl shapeCasts_S131072x8x1_S131072x8,
    reshape main_v61 main_v62 rfl shapeCasts_S131072x8_S1048576,
    reshape main_v56 main_v63 rfl shapeCasts_S131072x8_S1048576,
    nullary main_c_12 (constantI S_ 32 0#32),
    unary main_c_12 main_v64 (broadcastInDim S1048576 ![] bcast_S_S1048576 : (⟨S_, .i32⟩ : BufTy).Contents (Elt F) → (⟨S1048576, .i32⟩ : BufTy).Contents (Elt F)),
    binary main_v62 main_v64 main_v65 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 50000#32),
    unary main_c_13 main_v66 (broadcastInDim S1048576 ![] bcast_S_S1048576 : (⟨S_, .i32⟩ : BufTy).Contents (Elt F) → (⟨S1048576, .i32⟩ : BufTy).Contents (Elt F)),
    binary main_v62 main_v66 main_v67 (addi : (⟨S1048576, .i32⟩ : BufTy).Contents (Elt F) → (⟨S1048576, .i32⟩ : BufTy).Contents (Elt F) → (⟨S1048576, .i32⟩ : BufTy).Contents (Elt F)),
    ternary main_v65 main_v67 main_v62 main_v68 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v68 main_v69 (broadcastInDim S1048576x1 ![0] bcast_S1048576_S1048576x1_0 : (⟨S1048576, .i32⟩ : BufTy).Contents (Elt F) → (⟨S1048576x1, .i32⟩ : BufTy).Contents (Elt F)),
    binary main_arg0 main_v69 main_v70 ((fun x i => Host.gather gather_S50000x64_S1048576x1_S1048576x64_1_0_n_n_0_1_164 x i) : (⟨S50000x64, .f32⟩ : BufTy).Contents (Elt F) → (⟨S1048576x1, .i32⟩ : BufTy).Contents (Elt F) → (⟨S1048576x64, .f32⟩ : BufTy).Contents (Elt F)),
    unary main_v63 main_v71 (broadcastInDim S1048576x1 ![0] bcast_S1048576_S1048576x1_0 : (⟨S1048576, .f32⟩ : BufTy).Contents (Elt F) → (⟨S1048576x1, .f32⟩ : BufTy).Contents (Elt F)),
    unary main_v71 main_v72 (broadcastInDim S1048576x64 ![0, 1] bcast_S1048576x1_S1048576x64_0_1 : (⟨S1048576x1, .f32⟩ : BufTy).Contents (Elt F) → (⟨S1048576x64, .f32⟩ : BufTy).Contents (Elt F)),
    binary main_v70 main_v72 main_v73 (mulf : (⟨S1048576x64, .f32⟩ : BufTy).Contents (Elt F) → (⟨S1048576x64, .f32⟩ : BufTy).Contents (Elt F) → (⟨S1048576x64, .f32⟩ : BufTy).Contents (Elt F)),
    nullary main_cst_14 (constant S_ .f32 0x00000000#32),
    unary main_cst_14 main_v74 (broadcastInDim S50000x64 ![] bcast_S_S50000x64 : (⟨S_, .f32⟩ : BufTy).Contents (Elt F) → (⟨S50000x64, .f32⟩ : BufTy).Contents (Elt F)),
    unary main_v59 main_v75 (broadcastInDim S1048576x1 ![0] bcast_S1048576_S1048576x1_0 : (⟨S1048576, .i32⟩ : BufTy).Contents (Elt F) → (⟨S1048576x1, .i32⟩ : BufTy).Contents (Elt F)),
    ternary main_v74 main_v75 main_v73 main_v76 ((fun x i u => Host.scatterAdd scatter_S50000x64_S1048576x1_S1048576x64_1_0_0_1 x i u) : (⟨S50000x64, .f32⟩ : BufTy).Contents (Elt F) → (⟨S1048576x1, .i32⟩ : BufTy).Contents (Elt F) → (⟨S1048576x64, .f32⟩ : BufTy).Contents (Elt F) → (⟨S50000x64, .f32⟩ : BufTy).Contents (Elt F)) ]

-- reassociating the chain recurses once per operation, and rewriting all of them exceeds the default budget
set_option maxRecDepth 4096 in
set_option maxHeartbeats 4000000 in
/-- The program is that straight line: with the outlined functions unfolded at their calls, both sides are one chain
    of steps once sequencing is reassociated. -/
theorem main_eq (c : Dev nD) : main (F := F) c = seq ops := by
  simp only [main, main_part0, main_part1, fn_softplus.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., nullary_bufs_sub .., unary_bufs_sub ..,
    binary_bufs_sub .., unary_bufs_sub .., reshape_bufs_sub .., unary_bufs_sub .., unary_bufs_sub .., unary_bufs_sub ..,
    unary_bufs_sub .., unary_bufs_sub .., unary_bufs_sub .., unary_bufs_sub .., ternary_bufs_sub .., unary_bufs_sub ..,
    binary_bufs_sub .., unary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., nullary_bufs_sub .., unary_bufs_sub ..,
    binary_bufs_sub .., nullary_bufs_sub .., binary_bufs_sub .., unary_bufs_sub .., unary_bufs_sub .., binary_bufs_sub ..,
    unary_bufs_sub .., unary_bufs_sub .., binary_bufs_sub .., unary_bufs_sub .., reshape_bufs_sub .., reshape_bufs_sub ..,
    unary_bufs_sub .., reshape_bufs_sub .., reshape_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub ..⟩

/-- From any memory with zero counters, every weakly fair execution of the reference terminates with each buffer at
    the fold of the operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffer each operation writes, in program order. -/
abbrev W : List (Ref sig .tc) :=
  [main_cst, main_cst_0, main_c, main_v0, main_v1, main_v2, main_cst_1, main_v3,
   main_v4, main_cst_2, main_v5, main_v6, main_v7, main_v8, main_v9, main_v10,
   main_cst_3, main_v11, main_v12, main_call0_cst, main_call0_v0, main_call0_v1, main_call0_v2, main_call0_v3,
   main_call0_v4, main_call0_v5, main_call0_v6, main_call0_v7, main_call0_v8, main_call0_v9, main_call0_v10, main_call0_v11,
   main_v13, main_cst_4, main_v14, main_v15, main_v16, main_v17, main_v18, main_v19,
   main_cst_5, main_v20, main_v21, main_v22, main_v23, main_v24, main_v25, main_v26,
   main_v27, main_call1_v0, main_call1_v1, main_call1_v2, main_v28, main_v29, main_v30, main_v31,
   main_v32, main_v33, main_v34, main_v35, main_cst_6, main_v36, main_v37, main_cst_7,
   main_v38, main_v39, main_v40, main_v41, main_v42, main_v43, main_cst_8, main_v44,
   main_cst_9, main_v45, main_v46, main_v47, main_cst_10, main_v48, main_v49, main_cst_11,
   main_v50, main_v51, main_v52, main_v53, main_v54, main_v55, main_v56, main_v57,
   main_v58, main_v59, main_v60, main_v61, main_v62, main_v63, main_c_12, main_v64,
   main_v65, main_c_13, main_v66, main_v67, main_v68, main_v69, main_v70, main_v71,
   main_v72, main_v73, main_cst_14, main_v74, main_v75, main_v76]

/-- Operation by operation, the line writes exactly those buffers. -/
theorem hW : Ssa.WritesOnly (ops (F := F)) W :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, trivial⟩

/-- Buffer b's final contents on device c, at the ideal instance. -/
abbrev fin (m : (ℓ : Loc nD τ sig) → Buf (Elt Ideal) ℓ) (c : Dev nD) (b : Ref sig .tc) :=
  after (ops (F := Ideal)) (launchContents m c) (Proc.devRef .tc b)

section Equations

variable (m : (ℓ : Loc nD τ sig) → Buf (Elt Ideal) ℓ) (c : Dev nD)

/-! An argument is written by no operation: it keeps its launch contents. -/

theorem fin_main_arg0 : fin m c main_arg0 = m ((c.tc : Thread nD τ).loc main_arg0) :=
  Ssa.after_arg (ops (F := Ideal)) W hW (launchContents m c) main_arg0 (by decide)
theorem fin_main_arg1 : fin m c main_arg1 = m ((c.tc : Thread nD τ).loc main_arg1) :=
  Ssa.after_arg (ops (F := Ideal)) W hW (launchContents m c) main_arg1 (by decide)
theorem fin_main_arg2 : fin m c main_arg2 = m ((c.tc : Thread nD τ).loc main_arg2) :=
  Ssa.after_arg (ops (F := Ideal)) W hW (launchContents m c) main_arg2 (by decide)

/-! One equation per operation, in program order, the operands in the printed order. -/

theorem fin_main_cst : fin m c main_cst = (constant (F := Ideal) S2 .f32 0x47434F00#32 : FVec Ideal S2 .f32) :=
  Ssa.ssa_nullary (ops (F := Ideal)) W hW (launchContents m c) 0 main_cst _ _ rfl (by decide)
theorem fin_main_cst_0 : fin m c main_cst_0 = (constant (F := Ideal) S2 .f32 0x47435000#32 : FVec Ideal S2 .f32) :=
  Ssa.ssa_nullary (ops (F := Ideal)) W hW (launchContents m c) 1 main_cst_0 _ _ rfl (by decide)
theorem fin_main_c : fin m c main_c = (fun i => lit0 (S4x2.rowMajor i) : IVec S4x2 1) :=
  Ssa.ssa_nullary (ops (F := Ideal)) W hW (launchContents m c) 2 main_c _ _ rfl (by decide)
theorem fin_main_v0 : fin m c main_v0 = (extractStridedSlice S131072x2 ![0, 0] (fin m c main_arg1) slices_S131072x4_S131072x2_0_0 : FVec Ideal S131072x2 .f32) :=
  Ssa.ssa_unary (ops (F := Ideal)) W hW (launchContents m c) 3 main_arg1 main_v0 _ _ _ rfl (by decide) (by decide)
theorem fin_main_v1 : fin m c main_v1 = ((Host.negf : FVec Ideal S131072x2 .f32 → FVec Ideal S131072x2 .f32) (fin m c main_v0) : FVec Ideal S131072x2 .f32) :=
  Ssa.ssa_unary (ops (F := Ideal)) W hW (launchContents m c) 4 main_v0 main_v1 _ _ _ rfl (by decide) (by decide)
theorem fin_main_v2 : fin m c main_v2 = ((Host.exp : FVec Ideal S131072x2 .f32 → FVec Ideal S131072x2 .f32) (fin m c main_v1) : FVec Ideal S131072x2 .f32) :=
  Ssa.ssa_unary (ops (F := Ideal)) W hW (launchContents m c) 5 main_v1 main_v2 _ _ _ rfl (by decide) (by decide)
theorem fin_main_cst_1 : fin m c main_cst_1 = (constant (F := Ideal) S_ .f32 0x3F800000#32 : FVec Ideal S_ .f32) :=
  Ssa.ssa_nullary (ops (F := Ideal)) W hW (launchContents m c) 6 main_cst_1 _ _ rfl (by decide)
theorem fin_main_v3 : fin m c main_v3 = ((broadcastInDim S131072x2 ![] bcast_S_S131072x2 : FVec Ideal S_ .f32 → FVec Ideal S131072x2 .f32) (fin m c main_cst_1) : FVec Ideal S131072x2 .f32) :=
  Ssa.ssa_unary (ops (F := Ideal)) W hW (launchContents m c) 7 main_cst_1 main_v3 _ _ _ rfl (by decide) (by decide)
theorem fin_main_v4 : fin m c main_v4 = ((addf : FVec Ideal S131072x2 .f32 → FVec Ideal S131072x2 .f32 → FVec Ideal S131072x2 .f32) (fin m c main_v3) (fin m c main_v2) : FVec Ideal S131072x2 .f32) :=
  Ssa.ssa_binary (ops (F := Ideal)) W hW (launchContents m c) 8 main_v3 main_v2 main_v4 _ _ _ _ rfl (by decide) (by decide) (by decide)
theorem fin_main_cst_2 : fin m c main_cst_2 = (constant (F := Ideal) S_ .f32 0x3F800000#32 : FVec Ideal S_ .f32) :=
  Ssa.ssa_nullary (ops (F := Ideal)) W hW (launchContents m c) 9 main_cst_2 _ _ rfl (by decide)
theorem fin_main_v5 : fin m c main_v5 = ((broadcastInDim S131072x2 ![] bcast_S_S131072x2 : FVec Ideal S_ .f32 → FVec Ideal S131072x2 .f32) (fin m c main_cst_2) : FVec Ideal S131072x2 .f32) :=
  Ssa.ssa_unary (ops (F := Ideal)) W hW (launchContents m c) 10 main_cst_2 main_v5 _ _ _ rfl (by decide) (by decide)
theorem fin_main_v6 : fin m c main_v6 = ((Host.divf : FVec Ideal S131072x2 .f32 → FVec Ideal S131072x2 .f32 → FVec Ideal S131072x2 .f32) (fin m c main_v5) (fin m c main_v4) : FVec Ideal S131072x2 .f32) :=
  Ssa.ssa_binary (ops (F := Ideal)) W hW (launchContents m c) 11 main_v5 main_v4 main_v6 _ _ _ _ rfl (by decide) (by decide) (by decide)
theorem fin_main_v7 : fin m c main_v7 = ((broadcastInDim S1x2 ![1] bcast_S2_S1x2_1 : FVec Ideal S2 .f32 → FVec Ideal S1x2 .f32) (fin m c main_cst) : FVec Ideal S1x2 .f32) :=
  Ssa.ssa_unary (ops (F := Ideal)) W hW (launchContents m c) 12 main_cst main_v7 _ _ _ rfl (by decide) (by decide)
theorem fin_main_v8 : fin m c main_v8 = ((broadcastInDim S131072x2 ![0, 1] bcast_S1x2_S131072x2_0_1 : FVec Ideal S1x2 .f32 → FVec Ideal S131072x2 .f32) (fin m c main_v7) : FVec Ideal S131072x2 .f32) :=
  Ssa.ssa_unary (ops (F := Ideal)) W hW (launchContents m c) 13 main_v7 main_v8 _ _ _ rfl (by decide) (by decide)
theorem fin_main_v9 : fin m c main_v9 = ((mulf : FVec Ideal S131072x2 .f32 → FVec Ideal S131072x2 .f32 → FVec Ideal S131072x2 .f32) (fin m c main_v6) (fin m c main_v8) : FVec Ideal S131072x2 .f32) :=
  Ssa.ssa_binary (ops (F := Ideal)) W hW (launchContents m c) 14 main_v6 main_v8 main_v9 _ _ _ _ rfl (by decide) (by decide) (by decide)
theorem fin_main_v10 : fin m c main_v10 = (extractStridedSlice S131072x1 ![0, 2] (fin m c main_arg1) slices_S131072x4_S131072x1_0_2 : FVec Ideal S131072x1 .f32) :=
  Ssa.ssa_unary (ops (F := Ideal)) W hW (launchContents m c) 15 main_arg1 main_v10 _ _ _ rfl (by decide) (by decide)
theorem fin_main_cst_3 : fin m c main_cst_3 = (constant (F := Ideal) S_ .f32 0x40000000#32 : FVec Ideal S_ .f32) :=
  Ssa.ssa_nullary (ops (F := Ideal)) W hW (launchContents m c) 16 main_cst_3 _ _ rfl (by decide)
theorem fin_main_v11 : fin m c main_v11 = ((broadcastInDim S131072x1 ![] bcast_S_S131072x1 : FVec Ideal S_ .f32 → FVec Ideal S131072x1 .f32) (fin m c main_cst_3) : FVec Ideal S131072x1 .f32) :=
  Ssa.ssa_unary (ops (F := Ideal)) W hW (launchContents m c) 17 main_cst_3 main_v11 _ _ _ rfl (by decide) (by decide)
theorem fin_main_v12 : fin m c main_v12 = ((addf : FVec Ideal S131072x1 .f32 → FVec Ideal S131072x1 .f32 → FVec Ideal S131072x1 .f32) (fin m c main_v10) (fin m c main_v11) : FVec Ideal S131072x1 .f32) :=
  Ssa.ssa_binary (ops (F := Ideal)) W hW (launchContents m c) 18 main_v10 main_v11 main_v12 _ _ _ _ rfl (by decide) (by decide) (by decide)
theorem fin_main_call0_cst : fin m c main_call0_cst = (constant (F := Ideal) S_ .f32 0x00000000#32 : FVec Ideal S_ .f32) :=
  Ssa.ssa_nullary (ops (F := Ideal)) W hW (launchContents m c) 19 main_call0_cst _ _ rfl (by decide)
theorem fin_main_call0_v0 : fin m c main_call0_v0 = ((broadcastInDim S131072x1 ![] bcast_S_S131072x1 : FVec Ideal S_ .f32 → FVec Ideal S131072x1 .f32) (fin m c main_call0_cst) : FVec Ideal S131072x1 .f32) :=
  Ssa.ssa_unary (ops (F := Ideal)) W hW (launchContents m c) 20 main_call0_cst main_call0_v0 _ _ _ rfl (by decide) (by decide)
theorem fin_main_call0_v1 : fin m c main_call0_v1 = ((maximumf : FVec Ideal S131072x1 .f32 → FVec Ideal S131072x1 .f32 → FVec Ideal S131072x1 .f32) (fin m c main_v12) (fin m c main_call0_v0) : FVec Ideal S131072x1 .f32) :=
  Ssa.ssa_binary (ops (F := Ideal)) W hW (launchContents m c) 21 main_v12 main_call0_v0 main_call0_v1 _ _ _ _ rfl (by decide) (by decide) (by decide)
theorem fin_main_call0_v2 : fin m c main_call0_v2 = ((broadcastInDim S131072x1 ![] bcast_S_S131072x1 : FVec Ideal S_ .f32 → FVec Ideal S131072x1 .f32) (fin m c main_call0_cst) : FVec Ideal S131072x1 .f32) :=
  Ssa.ssa_unary (ops (F := Ideal)) W hW (launchContents m c) 22 main_call0_cst main_call0_v2 _ _ _ rfl (by decide) (by decide)
theorem fin_main_call0_v3 : fin m c main_call0_v3 = ((subf : FVec Ideal S131072x1 .f32 → FVec Ideal S131072x1 .f32 → FVec Ideal S131072x1 .f32) (fin m c main_v12) (fin m c main_call0_v2) : FVec Ideal S131072x1 .f32) :=
  Ssa.ssa_binary (ops (F := Ideal)) W hW (launchContents m c) 23 main_v12 main_call0_v2 main_call0_v3 _ _ _ _ rfl (by decide) (by decide) (by decide)
theorem fin_main_call0_v4 : fin m c main_call0_v4 = ((cmpf .une : FVec Ideal S131072x1 .f32 → FVec Ideal S131072x1 .f32 → IVec S131072x1 1) (fin m c main_call0_v3) (fin m c main_call0_v3) : IVec S131072x1 1) :=
  Ssa.ssa_binary (ops (F := Ideal)) W hW (launchContents m c) 24 main_call0_v3 main_call0_v3 main_call0_v4 _ _ _ _ rfl (by decide) (by decide) (by decide)
theorem fin_main_call0_v5 : fin m c main_call0_v5 = ((broadcastInDim S131072x1 ![] bcast_S_S131072x1 : FVec Ideal S_ .f32 → FVec Ideal S131072x1 .f32) (fin m c main_call0_cst) : FVec Ideal S131072x1 .f32) :=
  Ssa.ssa_unary (ops (F := Ideal)) W hW (launchContents m c) 25 main_call0_cst main_call0_v5 _ _ _ rfl (by decide) (by decide)
theorem fin_main_call0_v6 : fin m c main_call0_v6 = ((addf : FVec Ideal S131072x1 .f32 → FVec Ideal S131072x1 .f32 → FVec Ideal S131072x1 .f32) (fin m c main_v12) (fin m c main_call0_v5) : FVec Ideal S131072x1 .f32) :=
  Ssa.ssa_binary (ops (F := Ideal)) W hW (launchContents m c) 26 main_v12 main_call0_v5 main_call0_v6 _ _ _ _ rfl (by decide) (by decide) (by decide)
theorem fin_main_call0_v7 : fin m c main_call0_v7 = ((Host.absf : FVec Ideal S131072x1 .f32 → FVec Ideal S131072x1 .f32) (fin m c main_call0_v3) : FVec Ideal S131072x1 .f32) :=
  Ssa.ssa_unary (ops (F := Ideal)) W hW (launchContents m c) 27 main_call0_v3 main_call0_v7 _ _ _ rfl (by decide) (by decide)
theorem fin_main_call0_v8 : fin m c main_call0_v8 = ((Host.negf : FVec Ideal S131072x1 .f32 → FVec Ideal S131072x1 .f32) (fin m c main_call0_v7) : FVec Ideal S131072x1 .f32) :=
  Ssa.ssa_unary (ops (F := Ideal)) W hW (launchContents m c) 28 main_call0_v7 main_call0_v8 _ _ _ rfl (by decide) (by decide)
theorem fin_main_call0_v9 : fin m c main_call0_v9 = ((Host.exp : FVec Ideal S131072x1 .f32 → FVec Ideal S131072x1 .f32) (fin m c main_call0_v8) : FVec Ideal S131072x1 .f32) :=
  Ssa.ssa_unary (ops (F := Ideal)) W hW (launchContents m c) 29 main_call0_v8 main_call0_v9 _ _ _ rfl (by decide) (by decide)
theorem fin_main_call0_v10 : fin m c main_call0_v10 = ((Host.log1p : FVec Ideal S131072x1 .f32 → FVec Ideal S131072x1 .f32) (fin m c main_call0_v9) : FVec Ideal S131072x1 .f32) :=
  Ssa.ssa_unary (ops (F := Ideal)) W hW (launchContents m c) 30 main_call0_v9 main_call0_v10 _ _ _ rfl (by decide) (by decide)
theorem fin_main_call0_v11 : fin m c main_call0_v11 = ((addf : FVec Ideal S131072x1 .f32 → FVec Ideal S131072x1 .f32 → FVec Ideal S131072x1 .f32) (fin m c main_call0_v1) (fin m c main_call0_v10) : FVec Ideal S131072x1 .f32) :=
  Ssa.ssa_binary (ops (F := Ideal)) W hW (launchContents m c) 31 main_call0_v1 main_call0_v10 main_call0_v11 _ _ _ _ rfl (by decide) (by decide) (by decide)
theorem fin_main_v13 : fin m c main_v13 = ((select : IVec S131072x1 1 → FVec Ideal S131072x1 .f32 → FVec Ideal S131072x1 .f32 → FVec Ideal S131072x1 .f32) (fin m c main_call0_v4) (fin m c main_call0_v6) (fin m c main_call0_v11) : FVec Ideal S131072x1 .f32) :=
  Ssa.ssa_ternary (ops (F := Ideal)) W hW (launchContents m c) 32 main_call0_v4 main_call0_v6 main_call0_v11 main_v13 _ _ _ _ _ rfl (by decide) (by decide) (by decide) (by decide)
theorem fin_main_cst_4 : fin m c main_cst_4 = (constant (F := Ideal) S_ .f32 0x358637BD#32 : FVec Ideal S_ .f32) :=
  Ssa.ssa_nullary (ops (F := Ideal)) W hW (launchContents m c) 33 main_cst_4 _ _ rfl (by decide)
theorem fin_main_v14 : fin m c main_v14 = ((broadcastInDim S131072x1 ![] bcast_S_S131072x1 : FVec Ideal S_ .f32 → FVec Ideal S131072x1 .f32) (fin m c main_cst_4) : FVec Ideal S131072x1 .f32) :=
  Ssa.ssa_unary (ops (F := Ideal)) W hW (launchContents m c) 34 main_cst_4 main_v14 _ _ _ rfl (by decide) (by decide)
theorem fin_main_v15 : fin m c main_v15 = ((addf : FVec Ideal S131072x1 .f32 → FVec Ideal S131072x1 .f32 → FVec Ideal S131072x1 .f32) (fin m c main_v13) (fin m c main_v14) : FVec Ideal S131072x1 .f32) :=
  Ssa.ssa_binary (ops (F := Ideal)) W hW (launchContents m c) 35 main_v13 main_v14 main_v15 _ _ _ _ rfl (by decide) (by decide) (by decide)
theorem fin_main_v16 : fin m c main_v16 = ((broadcastInDim S1x2 ![1] bcast_S2_S1x2_1 : FVec Ideal S2 .f32 → FVec Ideal S1x2 .f32) (fin m c main_cst_0) : FVec Ideal S1x2 .f32) :=
  Ssa.ssa_unary (ops (F := Ideal)) W hW (launchContents m c) 36 main_cst_0 main_v16 _ _ _ rfl (by decide) (by decide)
theorem fin_main_v17 : fin m c main_v17 = ((broadcastInDim S131072x2 ![0, 1] bcast_S131072x1_S131072x2_0_1 : FVec Ideal S131072x1 .f32 → FVec Ideal S131072x2 .f32) (fin m c main_v15) : FVec Ideal S131072x2 .f32) :=
  Ssa.ssa_unary (ops (F := Ideal)) W hW (launchContents m c) 37 main_v15 main_v17 _ _ _ rfl (by decide) (by decide)
theorem fin_main_v18 : fin m c main_v18 = ((broadcastInDim S131072x2 ![0, 1] bcast_S1x2_S131072x2_0_1 : FVec Ideal S1x2 .f32 → FVec Ideal S131072x2 .f32) (fin m c main_v16) : FVec Ideal S131072x2 .f32) :=
  Ssa.ssa_unary (ops (F := Ideal)) W hW (launchContents m c) 38 main_v16 main_v18 _ _ _ rfl (by decide) (by decide)
theorem fin_main_v19 : fin m c main_v19 = ((mulf : FVec Ideal S131072x2 .f32 → FVec Ideal S131072x2 .f32 → FVec Ideal S131072x2 .f32) (fin m c main_v17) (fin m c main_v18) : FVec Ideal S131072x2 .f32) :=
  Ssa.ssa_binary (ops (F := Ideal)) W hW (launchContents m c) 39 main_v17 main_v18 main_v19 _ _ _ _ rfl (by decide) (by decide) (by decide)
theorem fin_main_cst_5 : fin m c main_cst_5 = (constant (F := Ideal) S_ .f32 0x3E4CCCCD#32 : FVec Ideal S_ .f32) :=
  Ssa.ssa_nullary (ops (F := Ideal)) W hW (launchContents m c) 40 main_cst_5 _ _ rfl (by decide)
theorem fin_main_v20 : fin m c main_v20 = ((broadcastInDim S131072x2 ![] bcast_S_S131072x2 : FVec Ideal S_ .f32 → FVec Ideal S131072x2 .f32) (fin m c main_cst_5) : FVec Ideal S131072x2 .f32) :=
  Ssa.ssa_unary (ops (F := Ideal)) W hW (launchContents m c) 41 main_cst_5 main_v20 _ _ _ rfl (by decide) (by decide)
theorem fin_main_v21 : fin m c main_v21 = ((mulf : FVec Ideal S131072x2 .f32 → FVec Ideal S131072x2 .f32 → FVec Ideal S131072x2 .f32) (fin m c main_v19) (fin m c main_v20) : FVec Ideal S131072x2 .f32) :=
  Ssa.ssa_binary (ops (F := Ideal)) W hW (launchContents m c) 42 main_v19 main_v20 main_v21 _ _ _ _ rfl (by decide) (by decide) (by decide)
theorem fin_main_v22 : fin m c main_v22 = (extractStridedSlice S131072x1 ![0, 3] (fin m c main_arg1) slices_S131072x4_S131072x1_0_3 : FVec Ideal S131072x1 .f32) :=
  Ssa.ssa_unary (ops (F := Ideal)) W hW (launchContents m c) 43 main_arg1 main_v22 _ _ _ rfl (by decide) (by decide)
theorem fin_main_v23 : fin m c main_v23 = (shapeCast S131072 (fin m c main_v22) shapeCasts_S131072x1_S131072 : FVec Ideal S131072 .f32) :=
  Ssa.ssa_reshape (ops (F := Ideal)) W hW (launchContents m c) 44 main_v22 main_v23 rfl _ _ _ rfl (by decide) (by decide)
theorem fin_main_v24 : fin m c main_v24 = ((broadcastInDim S1x4x2 ![1, 2] bcast_S4x2_S1x4x2_1_2 : IVec S4x2 1 → IVec S1x4x2 1) (fin m c main_c) : IVec S1x4x2 1) :=
  Ssa.ssa_unary (ops (F := Ideal)) W hW (launchContents m c) 45 main_c main_v24 _ _ _ rfl (by decide) (by decide)
theorem fin_main_v25 : fin m c main_v25 = ((broadcastInDim S131072x1x2 ![0, 2] bcast_S131072x2_S131072x1x2_0_2 : FVec Ideal S131072x2 .f32 → FVec Ideal S131072x1x2 .f32) (fin m c main_v9) : FVec Ideal S131072x1x2 .f32) :=
  Ssa.ssa_unary (ops (F := Ideal)) W hW (launchContents m c) 46 main_v9 main_v25 _ _ _ rfl (by decide) (by decide)
theorem fin_main_v26 : fin m c main_v26 = ((Host.floor : FVec Ideal S131072x1x2 .f32 → FVec Ideal S131072x1x2 .f32) (fin m c main_v25) : FVec Ideal S131072x1x2 .f32) :=
  Ssa.ssa_unary (ops (F := Ideal)) W hW (launchContents m c) 47 main_v25 main_v26 _ _ _ rfl (by decide) (by decide)
theorem fin_main_v27 : fin m c main_v27 = ((Host.ceil : FVec Ideal S131072x1x2 .f32 → FVec Ideal S131072x1x2 .f32) (fin m c main_v25) : FVec Ideal S131072x1x2 .f32) :=
  Ssa.ssa_unary (ops (F := Ideal)) W hW (launchContents m c) 48 main_v25 main_v27 _ _ _ rfl (by decide) (by decide)
theorem fin_main_call1_v0 : fin m c main_call1_v0 = ((broadcastInDim S131072x4x2 ![0, 1, 2] bcast_S1x4x2_S131072x4x2_0_1_2 : IVec S1x4x2 1 → IVec S131072x4x2 1) (fin m c main_v24) : IVec S131072x4x2 1) :=
  Ssa.ssa_unary (ops (F := Ideal)) W hW (launchContents m c) 49 main_v24 main_call1_v0 _ _ _ rfl (by decide) (by decide)
theorem fin_main_call1_v1 : fin m c main_call1_v1 = ((broadcastInDim S131072x4x2 ![0, 1, 2] bcast_S131072x1x2_S131072x4x2_0_1_2 : FVec Ideal S131072x1x2 .f32 → FVec Ideal S131072x4x2 .f32) (fin m c main_v26) : FVec Ideal S131072x4x2 .f32) :=
  Ssa.ssa_unary (ops (F := Ideal)) W hW (launchContents m c) 50 main_v26 main_call1_v1 _ _ _ rfl (by decide) (by decide)
theorem fin_main_call1_v2 : fin m c main_call1_v2 = ((broadcastInDim S131072x4x2 ![0, 1, 2] bcast_S131072x1x2_S131072x4x2_0_1_2 : FVec Ideal S131072x1x2 .f32 → FVec Ideal S131072x4x2 .f32) (fin m c main_v27) : FVec Ideal S131072x4x2 .f32) :=
  Ssa.ssa_unary (ops (F := Ideal)) W hW (launchContents m c) 51 main_v27 main_call1_v2 _ _ _ rfl (by decide) (by decide)
theorem fin_main_v28 : fin m c main_v28 = ((select : IVec S131072x4x2 1 → FVec Ideal S131072x4x2 .f32 → FVec Ideal S131072x4x2 .f32 → FVec Ideal S131072x4x2 .f32) (fin m c main_call1_v0) (fin m c main_call1_v1) (fin m c main_call1_v2) : FVec Ideal S131072x4x2 .f32) :=
  Ssa.ssa_ternary (ops (F := Ideal)) W hW (launchContents m c) 52 main_call1_v0 main_call1_v1 main_call1_v2 main_v28 _ _ _ _ _ rfl (by decide) (by decide) (by decide) (by decide)
theorem fin_main_v29 : fin m c main_v29 = ((fptosi 32 : FVec Ideal S131072x4x2 .f32 → IVec S131072x4x2 32) (fin m c main_v28) : IVec S131072x4x2 32) :=
  Ssa.ssa_unary (ops (F := Ideal)) W hW (launchContents m c) 53 main_v28 main_v29 _ _ _ rfl (by decide) (by decide)
theorem fin_main_v30 : fin m c main_v30 = (concatenate S131072x8x2 1 [⟨S131072x4x2, (fin m c main_v29)⟩, ⟨S131072x4x2, (fin m c main_arg2)⟩] concatenates_S131072x4x2_S131072x4x2_S131072x8x2_d1 : IVec S131072x8x2 32) :=
  Ssa.ssa_binary (ops (F := Ideal)) W hW (launchContents m c) 54 main_v29 main_arg2 main_v30 _ _ _ _ rfl (by decide) (by decide) (by decide)
theorem fin_main_v31 : fin m c main_v31 = ((sitofp .f32 : IVec S131072x8x2 32 → FVec Ideal S131072x8x2 .f32) (fin m c main_v30) : FVec Ideal S131072x8x2 .f32) :=
  Ssa.ssa_unary (ops (F := Ideal)) W hW (launchContents m c) 55 main_v30 main_v31 _ _ _ rfl (by decide) (by decide)
theorem fin_main_v32 : fin m c main_v32 = ((broadcastInDim S131072x1x2 ![0, 2] bcast_S131072x2_S131072x1x2_0_2 : FVec Ideal S131072x2 .f32 → FVec Ideal S131072x1x2 .f32) (fin m c main_v9) : FVec Ideal S131072x1x2 .f32) :=
  Ssa.ssa_unary (ops (F := Ideal)) W hW (launchContents m c) 56 main_v9 main_v32 _ _ _ rfl (by decide) (by decide)
theorem fin_main_v33 : fin m c main_v33 = ((broadcastInDim S131072x8x2 ![0, 1, 2] bcast_S131072x1x2_S131072x8x2_0_1_2 : FVec Ideal S131072x1x2 .f32 → FVec Ideal S131072x8x2 .f32) (fin m c main_v32) : FVec Ideal S131072x8x2 .f32) :=
  Ssa.ssa_unary (ops (F := Ideal)) W hW (launchContents m c) 57 main_v32 main_v33 _ _ _ rfl (by decide) (by decide)
theorem fin_main_v34 : fin m c main_v34 = ((subf : FVec Ideal S131072x8x2 .f32 → FVec Ideal S131072x8x2 .f32 → FVec Ideal S131072x8x2 .f32) (fin m c main_v31) (fin m c main_v33) : FVec Ideal S131072x8x2 .f32) :=
  Ssa.ssa_binary (ops (F := Ideal)) W hW (launchContents m c) 58 main_v31 main_v33 main_v34 _ _ _ _ rfl (by decide) (by decide) (by decide)
theorem fin_main_v35 : fin m c main_v35 = ((broadcastInDim S131072x1x2 ![0, 2] bcast_S131072x2_S131072x1x2_0_2 : FVec Ideal S131072x2 .f32 → FVec Ideal S131072x1x2 .f32) (fin m c main_v21) : FVec Ideal S131072x1x2 .f32) :=
  Ssa.ssa_unary (ops (F := Ideal)) W hW (launchContents m c) 59 main_v21 main_v35 _ _ _ rfl (by decide) (by decide)
theorem fin_main_cst_6 : fin m c main_cst_6 = (constant (F := Ideal) S_ .f32 0x358637BD#32 : FVec Ideal S_ .f32) :=
  Ssa.ssa_nullary (ops (F := Ideal)) W hW (launchContents m c) 60 main_cst_6 _ _ rfl (by decide)
theorem fin_main_v36 : fin m c main_v36 = ((broadcastInDim S131072x1x2 ![] bcast_S_S131072x1x2 : FVec Ideal S_ .f32 → FVec Ideal S131072x1x2 .f32) (fin m c main_cst_6) : FVec Ideal S131072x1x2 .f32) :=
  Ssa.ssa_unary (ops (F := Ideal)) W hW (launchContents m c) 61 main_cst_6 main_v36 _ _ _ rfl (by decide) (by decide)
theorem fin_main_v37 : fin m c main_v37 = ((addf : FVec Ideal S131072x1x2 .f32 → FVec Ideal S131072x1x2 .f32 → FVec Ideal S131072x1x2 .f32) (fin m c main_v36) (fin m c main_v35) : FVec Ideal S131072x1x2 .f32) :=
  Ssa.ssa_binary (ops (F := Ideal)) W hW (launchContents m c) 62 main_v36 main_v35 main_v37 _ _ _ _ rfl (by decide) (by decide) (by decide)
theorem fin_main_cst_7 : fin m c main_cst_7 = (constant (F := Ideal) S_ .f32 0x3F800000#32 : FVec Ideal S_ .f32) :=
  Ssa.ssa_nullary (ops (F := Ideal)) W hW (launchContents m c) 63 main_cst_7 _ _ rfl (by decide)
theorem fin_main_v38 : fin m c main_v38 = ((broadcastInDim S131072x1x2 ![] bcast_S_S131072x1x2 : FVec Ideal S_ .f32 → FVec Ideal S131072x1x2 .f32) (fin m c main_cst_7) : FVec Ideal S131072x1x2 .f32) :=
  Ssa.ssa_unary (ops (F := Ideal)) W hW (launchContents m c) 64 main_cst_7 main_v38 _ _ _ rfl (by decide) (by decide)
theorem fin_main_v39 : fin m c main_v39 = ((Host.divf : FVec Ideal S131072x1x2 .f32 → FVec Ideal S131072x1x2 .f32 → FVec Ideal S131072x1x2 .f32) (fin m c main_v38) (fin m c main_v37) : FVec Ideal S131072x1x2 .f32) :=
  Ssa.ssa_binary (ops (F := Ideal)) W hW (launchContents m c) 65 main_v38 main_v37 main_v39 _ _ _ _ rfl (by decide) (by decide) (by decide)
theorem fin_main_v40 : fin m c main_v40 = ((Host.sqrt : FVec Ideal S131072x1x2 .f32 → FVec Ideal S131072x1x2 .f32) (fin m c main_v39) : FVec Ideal S131072x1x2 .f32) :=
  Ssa.ssa_unary (ops (F := Ideal)) W hW (launchContents m c) 66 main_v39 main_v40 _ _ _ rfl (by decide) (by decide)
theorem fin_main_v41 : fin m c main_v41 = ((broadcastInDim S131072x8x2 ![0, 1, 2] bcast_S131072x1x2_S131072x8x2_0_1_2 : FVec Ideal S131072x1x2 .f32 → FVec Ideal S131072x8x2 .f32) (fin m c main_v40) : FVec Ideal S131072x8x2 .f32) :=
  Ssa.ssa_unary (ops (F := Ideal)) W hW (launchContents m c) 67 main_v40 main_v41 _ _ _ rfl (by decide) (by decide)
theorem fin_main_v42 : fin m c main_v42 = ((mulf : FVec Ideal S131072x8x2 .f32 → FVec Ideal S131072x8x2 .f32 → FVec Ideal S131072x8x2 .f32) (fin m c main_v34) (fin m c main_v41) : FVec Ideal S131072x8x2 .f32) :=
  Ssa.ssa_binary (ops (F := Ideal)) W hW (launchContents m c) 68 main_v34 main_v41 main_v42 _ _ _ _ rfl (by decide) (by decide) (by decide)
theorem fin_main_v43 : fin m c main_v43 = ((mulf : FVec Ideal S131072x8x2 .f32 → FVec Ideal S131072x8x2 .f32 → FVec Ideal S131072x8x2 .f32) (fin m c main_v42) (fin m c main_v42) : FVec Ideal S131072x8x2 .f32) :=
  Ssa.ssa_binary (ops (F := Ideal)) W hW (launchContents m c) 69 main_v42 main_v42 main_v43 _ _ _ _ rfl (by decide) (by decide) (by decide)
theorem fin_main_cst_8 : fin m c main_cst_8 = (constant (F := Ideal) S_ .f32 0x00000000#32 : FVec Ideal S_ .f32) :=
  Ssa.ssa_nullary (ops (F := Ideal)) W hW (launchContents m c) 70 main_cst_8 _ _ rfl (by decide)
theorem fin_main_v44 : fin m c main_v44 = (Host.reduceAdd (fin m c main_v43) (fin m c main_cst_8) reducesTo_S131072x8x2_S131072x8_d2 h_S_ : FVec Ideal S131072x8 .f32) :=
  Ssa.ssa_binary (ops (F := Ideal)) W hW (launchContents m c) 71 main_v43 main_cst_8 main_v44 _ _ _ _ rfl (by decide) (by decide) (by decide)
theorem fin_main_cst_9 : fin m c main_cst_9 = (constant (F := Ideal) S_ .f32 0xBF000000#32 : FVec Ideal S_ .f32) :=
  Ssa.ssa_nullary (ops (F := Ideal)) W hW (launchContents m c) 72 main_cst_9 _ _ rfl (by decide)
theorem fin_main_v45 : fin m c main_v45 = ((broadcastInDim S131072x8 ![] bcast_S_S131072x8 : FVec Ideal S_ .f32 → FVec Ideal S131072x8 .f32) (fin m c main_cst_9) : FVec Ideal S131072x8 .f32) :=
  Ssa.ssa_unary (ops (F := Ideal)) W hW (launchContents m c) 73 main_cst_9 main_v45 _ _ _ rfl (by decide) (by decide)
theorem fin_main_v46 : fin m c main_v46 = ((mulf : FVec Ideal S131072x8 .f32 → FVec Ideal S131072x8 .f32 → FVec Ideal S131072x8 .f32) (fin m c main_v45) (fin m c main_v44) : FVec Ideal S131072x8 .f32) :=
  Ssa.ssa_binary (ops (F := Ideal)) W hW (launchContents m c) 74 main_v45 main_v44 main_v46 _ _ _ _ rfl (by decide) (by decide) (by decide)
theorem fin_main_v47 : fin m c main_v47 = ((Host.exp : FVec Ideal S131072x8 .f32 → FVec Ideal S131072x8 .f32) (fin m c main_v46) : FVec Ideal S131072x8 .f32) :=
  Ssa.ssa_unary (ops (F := Ideal)) W hW (launchContents m c) 75 main_v46 main_v47 _ _ _ rfl (by decide) (by decide)
theorem fin_main_cst_10 : fin m c main_cst_10 = (constant (F := Ideal) S_ .f32 0x358637BD#32 : FVec Ideal S_ .f32) :=
  Ssa.ssa_nullary (ops (F := Ideal)) W hW (launchContents m c) 76 main_cst_10 _ _ rfl (by decide)
theorem fin_main_v48 : fin m c main_v48 = ((broadcastInDim S131072x8 ![] bcast_S_S131072x8 : FVec Ideal S_ .f32 → FVec Ideal S131072x8 .f32) (fin m c main_cst_10) : FVec Ideal S131072x8 .f32) :=
  Ssa.ssa_unary (ops (F := Ideal)) W hW (launchContents m c) 77 main_cst_10 main_v48 _ _ _ rfl (by decide) (by decide)
theorem fin_main_v49 : fin m c main_v49 = ((addf : FVec Ideal S131072x8 .f32 → FVec Ideal S131072x8 .f32 → FVec Ideal S131072x8 .f32) (fin m c main_v47) (fin m c main_v48) : FVec Ideal S131072x8 .f32) :=
  Ssa.ssa_binary (ops (F := Ideal)) W hW (launchContents m c) 78 main_v47 main_v48 main_v49 _ _ _ _ rfl (by decide) (by decide) (by decide)
theorem fin_main_cst_11 : fin m c main_cst_11 = (constant (F := Ideal) S_ .f32 0x00000000#32 : FVec Ideal S_ .f32) :=
  Ssa.ssa_nullary (ops (F := Ideal)) W hW (launchContents m c) 79 main_cst_11 _ _ rfl (by decide)
theorem fin_main_v50 : fin m c main_v50 = (Host.reduceAdd (fin m c main_v49) (fin m c main_cst_11) reducesTo_S131072x8_S131072_d1 h_S_ : FVec Ideal S131072 .f32) :=
  Ssa.ssa_binary (ops (F := Ideal)) W hW (launchContents m c) 80 main_v49 main_cst_11 main_v50 _ _ _ _ rfl (by decide) (by decide) (by decide)
theorem fin_main_v51 : fin m c main_v51 = ((broadcastInDim S131072x1 ![0] bcast_S131072_S131072x1_0 : FVec Ideal S131072 .f32 → FVec Ideal S131072x1 .f32) (fin m c main_v50) : FVec Ideal S131072x1 .f32) :=
  Ssa.ssa_unary (ops (F := Ideal)) W hW (launchContents m c) 81 main_v50 main_v51 _ _ _ rfl (by decide) (by decide)
theorem fin_main_v52 : fin m c main_v52 = ((broadcastInDim S131072x8 ![0, 1] bcast_S131072x1_S131072x8_0_1 : FVec Ideal S131072x1 .f32 → FVec Ideal S131072x8 .f32) (fin m c main_v51) : FVec Ideal S131072x8 .f32) :=
  Ssa.ssa_unary (ops (F := Ideal)) W hW (launchContents m c) 82 main_v51 main_v52 _ _ _ rfl (by decide) (by decide)
theorem fin_main_v53 : fin m c main_v53 = ((Host.divf : FVec Ideal S131072x8 .f32 → FVec Ideal S131072x8 .f32 → FVec Ideal S131072x8 .f32) (fin m c main_v47) (fin m c main_v52) : FVec Ideal S131072x8 .f32) :=
  Ssa.ssa_binary (ops (F := Ideal)) W hW (launchContents m c) 83 main_v47 main_v52 main_v53 _ _ _ _ rfl (by decide) (by decide) (by decide)
theorem fin_main_v54 : fin m c main_v54 = ((broadcastInDim S131072x1 ![0] bcast_S131072_S131072x1_0 : FVec Ideal S131072 .f32 → FVec Ideal S131072x1 .f32) (fin m c main_v23) : FVec Ideal S131072x1 .f32) :=
  Ssa.ssa_unary (ops (F := Ideal)) W hW (launchContents m c) 84 main_v23 main_v54 _ _ _ rfl (by decide) (by decide)
theorem fin_main_v55 : fin m c main_v55 = ((broadcastInDim S131072x8 ![0, 1] bcast_S131072x1_S131072x8_0_1 : FVec Ideal S131072x1 .f32 → FVec Ideal S131072x8 .f32) (fin m c main_v54) : FVec Ideal S131072x8 .f32) :=
  Ssa.ssa_unary (ops (F := Ideal)) W hW (launchContents m c) 85 main_v54 main_v55 _ _ _ rfl (by decide) (by decide)
theorem fin_main_v56 : fin m c main_v56 = ((mulf : FVec Ideal S131072x8 .f32 → FVec Ideal S131072x8 .f32 → FVec Ideal S131072x8 .f32) (fin m c main_v55) (fin m c main_v53) : FVec Ideal S131072x8 .f32) :=
  Ssa.ssa_binary (ops (F := Ideal)) W hW (launchContents m c) 86 main_v55 main_v53 main_v56 _ _ _ _ rfl (by decide) (by decide) (by decide)
theorem fin_main_v57 : fin m c main_v57 = (extractStridedSlice S131072x8x1 ![0, 0, 0] (fin m c main_v30) slices_S131072x8x2_S131072x8x1_0_0_0 : IVec S131072x8x1 32) :=
  Ssa.ssa_unary (ops (F := Ideal)) W hW (launchContents m c) 87 main_v30 main_v57 _ _ _ rfl (by decide) (by decide)
theorem fin_main_v58 : fin m c main_v58 = (shapeCast S131072x8 (fin m c main_v57) shapeCasts_S131072x8x1_S131072x8 : IVec S131072x8 32) :=
  Ssa.ssa_reshape (ops (F := Ideal)) W hW (launchContents m c) 88 main_v57 main_v58 rfl _ _ _ rfl (by decide) (by decide)
theorem fin_main_v59 : fin m c main_v59 = (shapeCast S1048576 (fin m c main_v58) shapeCasts_S131072x8_S1048576 : IVec S1048576 32) :=
  Ssa.ssa_reshape (ops (F := Ideal)) W hW (launchContents m c) 89 main_v58 main_v59 rfl _ _ _ rfl (by decide) (by decide)
theorem fin_main_v60 : fin m c main_v60 = (extractStridedSlice S131072x8x1 ![0, 0, 1] (fin m c main_v30) slices_S131072x8x2_S131072x8x1_0_0_1 : IVec S131072x8x1 32) :=
  Ssa.ssa_unary (ops (F := Ideal)) W hW (launchContents m c) 90 main_v30 main_v60 _ _ _ rfl (by decide) (by decide)
theorem fin_main_v61 : fin m c main_v61 = (shapeCast S131072x8 (fin m c main_v60) shapeCasts_S131072x8x1_S131072x8 : IVec S131072x8 32) :=
  Ssa.ssa_reshape (ops (F := Ideal)) W hW (launchContents m c) 91 main_v60 main_v61 rfl _ _ _ rfl (by decide) (by decide)
theorem fin_main_v62 : fin m c main_v62 = (shapeCast S1048576 (fin m c main_v61) shapeCasts_S131072x8_S1048576 : IVec S1048576 32) :=
  Ssa.ssa_reshape (ops (F := Ideal)) W hW (launchContents m c) 92 main_v61 main_v62 rfl _ _ _ rfl (by decide) (by decide)
theorem fin_main_v63 : fin m c main_v63 = (shapeCast S1048576 (fin m c main_v56) shapeCasts_S131072x8_S1048576 : FVec Ideal S1048576 .f32) :=
  Ssa.ssa_reshape (ops (F := Ideal)) W hW (launchContents m c) 93 main_v56 main_v63 rfl _ _ _ rfl (by decide) (by decide)
theorem fin_main_c_12 : fin m c main_c_12 = (constantI S_ 32 0#32 : IVec S_ 32) :=
  Ssa.ssa_nullary (ops (F := Ideal)) W hW (launchContents m c) 94 main_c_12 _ _ rfl (by decide)
theorem fin_main_v64 : fin m c main_v64 = ((broadcastInDim S1048576 ![] bcast_S_S1048576 : IVec S_ 32 → IVec S1048576 32) (fin m c main_c_12) : IVec S1048576 32) :=
  Ssa.ssa_unary (ops (F := Ideal)) W hW (launchContents m c) 95 main_c_12 main_v64 _ _ _ rfl (by decide) (by decide)
theorem fin_main_v65 : fin m c main_v65 = ((cmpi .slt : IVec S1048576 32 → IVec S1048576 32 → IVec S1048576 1) (fin m c main_v62) (fin m c main_v64) : IVec S1048576 1) :=
  Ssa.ssa_binary (ops (F := Ideal)) W hW (launchContents m c) 96 main_v62 main_v64 main_v65 _ _ _ _ rfl (by decide) (by decide) (by decide)
theorem fin_main_c_13 : fin m c main_c_13 = (constantI S_ 32 50000#32 : IVec S_ 32) :=
  Ssa.ssa_nullary (ops (F := Ideal)) W hW (launchContents m c) 97 main_c_13 _ _ rfl (by decide)
theorem fin_main_v66 : fin m c main_v66 = ((broadcastInDim S1048576 ![] bcast_S_S1048576 : IVec S_ 32 → IVec S1048576 32) (fin m c main_c_13) : IVec S1048576 32) :=
  Ssa.ssa_unary (ops (F := Ideal)) W hW (launchContents m c) 98 main_c_13 main_v66 _ _ _ rfl (by decide) (by decide)
theorem fin_main_v67 : fin m c main_v67 = ((addi : IVec S1048576 32 → IVec S1048576 32 → IVec S1048576 32) (fin m c main_v62) (fin m c main_v66) : IVec S1048576 32) :=
  Ssa.ssa_binary (ops (F := Ideal)) W hW (launchContents m c) 99 main_v62 main_v66 main_v67 _ _ _ _ rfl (by decide) (by decide) (by decide)
theorem fin_main_v68 : fin m c main_v68 = ((select : IVec S1048576 1 → IVec S1048576 32 → IVec S1048576 32 → IVec S1048576 32) (fin m c main_v65) (fin m c main_v67) (fin m c main_v62) : IVec S1048576 32) :=
  Ssa.ssa_ternary (ops (F := Ideal)) W hW (launchContents m c) 100 main_v65 main_v67 main_v62 main_v68 _ _ _ _ _ rfl (by decide) (by decide) (by decide) (by decide)
theorem fin_main_v69 : fin m c main_v69 = ((broadcastInDim S1048576x1 ![0] bcast_S1048576_S1048576x1_0 : IVec S1048576 32 → IVec S1048576x1 32) (fin m c main_v68) : IVec S1048576x1 32) :=
  Ssa.ssa_unary (ops (F := Ideal)) W hW (launchContents m c) 101 main_v68 main_v69 _ _ _ rfl (by decide) (by decide)
theorem fin_main_v70 : fin m c main_v70 = (Host.gather gather_S50000x64_S1048576x1_S1048576x64_1_0_n_n_0_1_164 (fin m c main_arg0) (fin m c main_v69) : FVec Ideal S1048576x64 .f32) :=
  Ssa.ssa_binary (ops (F := Ideal)) W hW (launchContents m c) 102 main_arg0 main_v69 main_v70 _ _ _ _ rfl (by decide) (by decide) (by decide)
theorem fin_main_v71 : fin m c main_v71 = ((broadcastInDim S1048576x1 ![0] bcast_S1048576_S1048576x1_0 : FVec Ideal S1048576 .f32 → FVec Ideal S1048576x1 .f32) (fin m c main_v63) : FVec Ideal S1048576x1 .f32) :=
  Ssa.ssa_unary (ops (F := Ideal)) W hW (launchContents m c) 103 main_v63 main_v71 _ _ _ rfl (by decide) (by decide)
theorem fin_main_v72 : fin m c main_v72 = ((broadcastInDim S1048576x64 ![0, 1] bcast_S1048576x1_S1048576x64_0_1 : FVec Ideal S1048576x1 .f32 → FVec Ideal S1048576x64 .f32) (fin m c main_v71) : FVec Ideal S1048576x64 .f32) :=
  Ssa.ssa_unary (ops (F := Ideal)) W hW (launchContents m c) 104 main_v71 main_v72 _ _ _ rfl (by decide) (by decide)
theorem fin_main_v73 : fin m c main_v73 = ((mulf : FVec Ideal S1048576x64 .f32 → FVec Ideal S1048576x64 .f32 → FVec Ideal S1048576x64 .f32) (fin m c main_v70) (fin m c main_v72) : FVec Ideal S1048576x64 .f32) :=
  Ssa.ssa_binary (ops (F := Ideal)) W hW (launchContents m c) 105 main_v70 main_v72 main_v73 _ _ _ _ rfl (by decide) (by decide) (by decide)
theorem fin_main_cst_14 : fin m c main_cst_14 = (constant (F := Ideal) S_ .f32 0x00000000#32 : FVec Ideal S_ .f32) :=
  Ssa.ssa_nullary (ops (F := Ideal)) W hW (launchContents m c) 106 main_cst_14 _ _ rfl (by decide)
theorem fin_main_v74 : fin m c main_v74 = ((broadcastInDim S50000x64 ![] bcast_S_S50000x64 : FVec Ideal S_ .f32 → FVec Ideal S50000x64 .f32) (fin m c main_cst_14) : FVec Ideal S50000x64 .f32) :=
  Ssa.ssa_unary (ops (F := Ideal)) W hW (launchContents m c) 107 main_cst_14 main_v74 _ _ _ rfl (by decide) (by decide)
theorem fin_main_v75 : fin m c main_v75 = ((broadcastInDim S1048576x1 ![0] bcast_S1048576_S1048576x1_0 : IVec S1048576 32 → IVec S1048576x1 32) (fin m c main_v59) : IVec S1048576x1 32) :=
  Ssa.ssa_unary (ops (F := Ideal)) W hW (launchContents m c) 108 main_v59 main_v75 _ _ _ rfl (by decide) (by decide)
theorem fin_main_v76 : fin m c main_v76 = (Host.scatterAdd scatter_S50000x64_S1048576x1_S1048576x64_1_0_0_1 (fin m c main_v74) (fin m c main_v75) (fin m c main_v73) : FVec Ideal S50000x64 .f32) :=
  Ssa.ssa_ternary (ops (F := Ideal)) W hW (launchContents m c) 109 main_v74 main_v75 main_v73 main_v76 _ _ _ _ _ rfl (by decide) (by decide) (by decide) (by decide)

end Equations

/-- Every weakly fair execution of the reference ends with its arguments unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_arg0).trans (fin_main_arg0 m c), (h c main_arg1).trans (fin_main_arg1 m c), (h c main_arg2).trans (fin_main_arg2 m c)⟩)
    (run_main m ρ)

end Cert.Hyper.Reference

end
-- ==== Proof.RefInts.lean ====
/-
  The reference's integer lists. Every sample's two centre coordinates are the logistic function of its first two
  parameters, written out with a reciprocal and stretched over [0, 49999]. The eight proposals' integer coordinates
  are assembled in one 131072 x 8 x 2 array: for the four lattice corners the centre rounded down or up, as a small
  table of bits says, and converted to a machine integer; for the other four the drawn integers. The row list and
  the column list are the two planes of that array along its last axis, flattened sample by sample. This module
  reads those arrays at an index and finds there the specification's row and column integers, listed sample-major.
-/
import proofs.«401185_j46634754900206_1_alg».proof.Proof.RefOps
import proofs.«401185_j46634754900206_1_alg».proof.Proof.Spec
import Idealize.ShloMosaic.Lib.ValueIdx
import Idealize.ShloMosaic.Lib.ValueLayout
import Idealize.ShloMosaic.Lib.Pipeline.Value

noncomputable section

namespace Cert.Hyper.Reference

open Idealize.ShloMosaic Idealize.ShloMosaic.ValueIdx Idealize.ShloMosaic.StableHlo Idealize.ShloMosaic.TcCoe
  Idealize.SL.Sem Cert.ReferenceIdeal Cert.Hyper

namespace Ints

/-! ## The centres -/

/-- The word of the constant 1.0 denotes the extended real one. -/
theorem one_bits : Ideal.ofBits .f32 0x3F800000#32 = (1 : EReal) := by
  simp [Ideal.ofBits, Ideal.ieee]
  rw [← EReal.coe_mul, ← EReal.coe_one]
  exact congrArg _ (by norm_num)

/-- The logistic function written out with a reciprocal, scaled by the splat 49999: entry (k, j) is the centre
    of parameter (k, j). -/
theorem centre_chain (P : S131072x4.Idx → EReal)
    (hs : S131072x4.Slices ![0, 0] S131072x2)
    (hb0 : S_.BroadcastsInDim S131072x2 (![] : Fin 0 → Fin S131072x2.rank))
    (hb1 : S2.BroadcastsInDim S1x2 (![1] : Fin 1 → Fin S1x2.rank))
    (hb2 : S1x2.BroadcastsInDim S131072x2 (![0, 1] : Fin 2 → Fin S131072x2.rank))
    (k : Fin 131072) (j : Fin 2) :
    mulf (Host.divf (broadcastInDim S131072x2 ![] hb0 (constant (F := Ideal) S_ .f32 0x3F800000#32))
        (addf (broadcastInDim S131072x2 ![] hb0 (constant (F := Ideal) S_ .f32 0x3F800000#32))
          (Host.exp (Host.negf (extractStridedSlice S131072x2 ![0, 0] P hs)))))
      (broadcastInDim S131072x2 ![0, 1] hb2 (broadcastInDim S1x2 ![1] hb1 (constant (F := Ideal) S2 .f32 0x47434F00#32)))
      (ix2 k j) = centre (P (ix2 k ⟨j.val, by omega⟩)) := by
  have hsl : extractStridedSlice S131072x2 ![0, 0] P hs (ix2 k j) = P (ix2 k ⟨j.val, by omega⟩) :=
    slice2_axis1_apply 0 P hs k j ⟨j.val, by omega⟩ (Nat.zero_add _).symm
  show Ideal.div (Ideal.ofBits .f32 0x3F800000#32)
      (Ideal.ofBits .f32 0x3F800000#32 + Ideal.exp (-(extractStridedSlice S131072x2 ![0, 0] P hs (ix2 k j))))
      * Ideal.ofBits .f32 0x47434F00#32 = _
  rw [hsl, one_bits]
  rfl

/-! ## The flat lists: two reshapes of a slice along the last axis -/

/-- Entry n of the flattened coordinate-o plane of a 131072 x 8 x 2 array is its entry (n / 8, n % 8, o). -/
theorem flat_apply {α : Type} (o : Nat) (ho : o < 2) (X : S131072x8x2.Idx → α)
    (hs : S131072x8x2.Slices ![0, 0, o] S131072x8x1)
    (h1 : S131072x8x1.ShapeCasts S131072x8) (h2 : S131072x8.ShapeCasts S1048576) (n : Fin 1048576) :
    shapeCast S1048576 (shapeCast S131072x8 (extractStridedSlice S131072x8x1 ![0, 0, o] X hs) h1) h2 (ix1 n)
      = X (ix3 (⟨n.val / 8, Nat.div_lt_of_lt_mul n.isLt⟩ : Fin 131072) (⟨n.val % 8, Nat.mod_lt _ (by decide)⟩ : Fin 8)
          (⟨o, ho⟩ : Fin 2)) := by
  refine (shapeCast_apply _ h2 (ix1 n)
    (ix2 (⟨n.val / 8, Nat.div_lt_of_lt_mul n.isLt⟩ : Fin 131072) (⟨n.val % 8, Nat.mod_lt _ (by decide)⟩ : Fin 8)) ?_).trans ?_
  · rw [Shape.rowMajor_val_two, Shape.rowMajor_val_one]
    show n.val / 8 * 8 + n.val % 8 = n.val
    omega
  refine (shapeCast_apply _ h1 _
    (ix3 (⟨n.val / 8, Nat.div_lt_of_lt_mul n.isLt⟩ : Fin 131072) (⟨n.val % 8, Nat.mod_lt _ (by decide)⟩ : Fin 8)
      (0 : Fin 1)) ?_).trans ?_
  · rw [Shape.rowMajor_val_three, Shape.rowMajor_val_two]
    show (n.val / 8 * 8 + n.val % 8) * 1 + 0 = n.val / 8 * 8 + n.val % 8
    omega
  exact extractStridedSlice_apply _ X hs _ _ (fun ax => by
    match ax with
    | ⟨0, _⟩ => exact (Nat.zero_add _).symm
    | ⟨1, _⟩ => exact (Nat.zero_add _).symm
    | ⟨2, _⟩ => exact (Nat.add_zero _).symm)

/-! ## The two halves of the concatenation -/

/-- Below position 4 on axis 1 the concatenation reads its first piece. -/
theorem concat_lo {α : Type} (A B : S131072x4x2.Idx → α)
    (hc : Shape.Concatenates [S131072x4x2, S131072x4x2] S131072x8x2 1)
    (k : Fin 131072) (a : Fin 8) (b : Fin 2) (ha : a.val < 4) :
    concatenate S131072x8x2 1 [⟨S131072x4x2, A⟩, ⟨S131072x4x2, B⟩] hc (ix3 k a b) = A (ix3 k (⟨a.val, ha⟩ : Fin 4) b) :=
  concatenate_pair_apply_left 1 A B hc (ix3 k a b) rfl (ix3 k (⟨a.val, ha⟩ : Fin 4) b) (fun ax => by
    match ax with
    | ⟨0, _⟩ => rfl
    | ⟨1, _⟩ => rfl
    | ⟨2, _⟩ => rfl)

/-- From position 4 on axis 1 the concatenation reads its second piece, four places earlier. -/
theorem concat_hi {α : Type} (A B : S131072x4x2.Idx → α)
    (hc : Shape.Concatenates [S131072x4x2, S131072x4x2] S131072x8x2 1)
    (k : Fin 131072) (a : Fin 8) (b : Fin 2) (ha : 4 ≤ a.val) :
    concatenate S131072x8x2 1 [⟨S131072x4x2, A⟩, ⟨S131072x4x2, B⟩] hc (ix3 k a b)
      = B (ix3 k (⟨a.val - 4, by have := a.isLt; omega⟩ : Fin 4) b) :=
  concatenate_pair_apply_right 1 A B hc (ix3 k a b) rfl rfl (ix3 k (⟨a.val - 4, by have := a.isLt; omega⟩ : Fin 4) b)
    (fun ax => by
      match ax with
      | ⟨0, _⟩ => intro _; rfl
      | ⟨1, _⟩ => intro h; exact absurd rfl h
      | ⟨2, _⟩ => intro _; rfl)
    (by show a.val - 4 + 4 = a.val; omega)

/-! ## The corner table, and the choice between floor and ceiling -/

/-- The table's entry for proposal a, coordinate b, is its row-major entry 2 a + b. -/
theorem table_apply (a : Fin 4) (b : Fin 2) :
    lit0 (S4x2.rowMajor (ix2 a b)) = lit0 (⟨a.val * 2 + b.val, by have := a.isLt; have := b.isLt; omega⟩ : Fin 8) := by
  refine congrArg lit0 (Fin.ext ?_)
  rw [Shape.rowMajor_val_two]
  rfl

/-- The choice between two arrays spread along the proposal axis, at (k, a, b): the table's bit for (a, b) chooses between
    the two arrays' entries (k, 0, b). -/
theorem where_apply {α : Type} (T : S4x2.Idx → BitVec 1) (X Y : S131072x1x2.Idx → α)
    (hb3 : S1x4x2.BroadcastsInDim S131072x4x2 (![0, 1, 2] : Fin 3 → Fin S131072x4x2.rank))
    (hb4 : S4x2.BroadcastsInDim S1x4x2 (![1, 2] : Fin 2 → Fin S1x4x2.rank))
    (hb5 : S131072x1x2.BroadcastsInDim S131072x4x2 (![0, 1, 2] : Fin 3 → Fin S131072x4x2.rank))
    (k : Fin 131072) (a : Fin 4) (b : Fin 2) :
    select (broadcastInDim S131072x4x2 ![0, 1, 2] hb3 (broadcastInDim S1x4x2 ![1, 2] hb4 T))
        (broadcastInDim S131072x4x2 ![0, 1, 2] hb5 X) (broadcastInDim S131072x4x2 ![0, 1, 2] hb5 Y) (ix3 k a b)
      = Scalar.select (T (ix2 a b)) (X (ix3 k (0 : Fin 1) b)) (Y (ix3 k (0 : Fin 1) b)) := by
  have hT : broadcastInDim S131072x4x2 ![0, 1, 2] hb3 (broadcastInDim S1x4x2 ![1, 2] hb4 T) (ix3 k a b) = T (ix2 a b) := by
    refine (broadcastInDim_apply _ hb3 _ (ix3 k a b) (ix3 (0 : Fin 1) a b) (fun ax => ?_)).trans ?_
    · match ax with
      | ⟨0, _⟩ => rfl
      | ⟨1, _⟩ => rfl
      | ⟨2, _⟩ => rfl
    · exact broadcastInDim_apply _ hb4 T (ix3 (0 : Fin 1) a b) (ix2 a b) (fun ax => by
        match ax with
        | ⟨0, _⟩ => rfl
        | ⟨1, _⟩ => rfl)
  have hXY : ∀ Z : S131072x1x2.Idx → α,
      broadcastInDim S131072x4x2 ![0, 1, 2] hb5 Z (ix3 k a b) = Z (ix3 k (0 : Fin 1) b) := fun Z =>
    broadcastInDim_apply _ hb5 Z (ix3 k a b) (ix3 k (0 : Fin 1) b) (fun ax => by
      match ax with
      | ⟨0, _⟩ => rfl
      | ⟨1, _⟩ => rfl
      | ⟨2, _⟩ => rfl)
  rw [select_apply, hT, hXY X, hXY Y]

/-- The centres spread over a unit middle axis, rounded down, at (k, 0, b). -/
theorem floor_apply (Cn : S131072x2.Idx → EReal)
    (hb6 : S131072x2.BroadcastsInDim S131072x1x2 (![0, 2] : Fin 2 → Fin S131072x1x2.rank))
    (k : Fin 131072) (u : Fin 1) (b : Fin 2) :
    (Host.floor (broadcastInDim S131072x1x2 ![0, 2] hb6 Cn) : FVec Ideal S131072x1x2 .f32) (ix3 k u b)
      = Ideal.liftRound Int.floor (Cn (ix2 k b)) := by
  show Ideal.liftRound Int.floor (broadcastInDim S131072x1x2 ![0, 2] hb6 Cn (ix3 k u b)) = _
  refine congrArg _ (broadcastInDim_apply _ hb6 Cn (ix3 k u b) (ix2 k b) (fun ax => ?_))
  match ax with
  | ⟨0, _⟩ => rfl
  | ⟨1, _⟩ => rfl

/-- The same, rounded up. -/
theorem ceil_apply (Cn : S131072x2.Idx → EReal)
    (hb6 : S131072x2.BroadcastsInDim S131072x1x2 (![0, 2] : Fin 2 → Fin S131072x1x2.rank))
    (k : Fin 131072) (u : Fin 1) (b : Fin 2) :
    (Host.ceil (broadcastInDim S131072x1x2 ![0, 2] hb6 Cn) : FVec Ideal S131072x1x2 .f32) (ix3 k u b)
      = Ideal.liftRound Int.ceil (Cn (ix2 k b)) := by
  show Ideal.liftRound Int.ceil (broadcastInDim S131072x1x2 ![0, 2] hb6 Cn (ix3 k u b)) = _
  refine congrArg _ (broadcastInDim_apply _ hb6 Cn (ix3 k u b) (ix2 k b) (fun ax => ?_))
  match ax with
  | ⟨0, _⟩ => rfl
  | ⟨1, _⟩ => rfl

/-! ## A proposal's coordinate, from the buffers' equations -/

/-- Entry (k, a, b) of the concatenated integer coordinates: for a lattice corner the centre of coordinate b rounded as
    the table says and converted, for a drawn pair the drawn integer. -/
theorem coord_chain (Cn : S131072x2.Idx → EReal) (I : S131072x4x2.Idx → BitVec 32)
    (hb3 : S1x4x2.BroadcastsInDim S131072x4x2 (![0, 1, 2] : Fin 3 → Fin S131072x4x2.rank))
    (hb4 : S4x2.BroadcastsInDim S1x4x2 (![1, 2] : Fin 2 → Fin S1x4x2.rank))
    (hb5 : S131072x1x2.BroadcastsInDim S131072x4x2 (![0, 1, 2] : Fin 3 → Fin S131072x4x2.rank))
    (hb6 : S131072x2.BroadcastsInDim S131072x1x2 (![0, 2] : Fin 2 → Fin S131072x1x2.rank))
    (hc : Shape.Concatenates [S131072x4x2, S131072x4x2] S131072x8x2 1)
    (k : Fin 131072) (a : Fin 8) (b : Fin 2) :
    concatenate S131072x8x2 1
        [⟨S131072x4x2, (fptosi 32
          (select (broadcastInDim S131072x4x2 ![0, 1, 2] hb3 (broadcastInDim S1x4x2 ![1, 2] hb4 (fun i => lit0 (S4x2.rowMajor i))))
            (broadcastInDim S131072x4x2 ![0, 1, 2] hb5
              (Host.floor (broadcastInDim S131072x1x2 ![0, 2] hb6 Cn) : FVec Ideal S131072x1x2 .f32))
            (broadcastInDim S131072x4x2 ![0, 1, 2] hb5
              (Host.ceil (broadcastInDim S131072x1x2 ![0, 2] hb6 Cn) : FVec Ideal S131072x1x2 .f32))
            : FVec Ideal S131072x4x2 .f32) : IVec S131072x4x2 32)⟩,
         ⟨S131072x4x2, I⟩] hc (ix3 k a b)
      = if h : a.val < 4 then
          Ideal.fptosi 32 (Scalar.select (lit0 (⟨a.val * 2 + b.val, by have := b.isLt; omega⟩ : Fin 8))
            (Ideal.liftRound Int.floor (Cn (ix2 k b))) (Ideal.liftRound Int.ceil (Cn (ix2 k b))))
        else I (ix3 k (⟨a.val - 4, by have := a.isLt; omega⟩ : Fin 4) b) := by
  by_cases h : a.val < 4
  · rw [dif_pos h, concat_lo _ _ hc k a b h]
    show Ideal.fptosi 32 (select _ _ _ (ix3 k (⟨a.val, h⟩ : Fin 4) b)) = _
    rw [where_apply _ _ _ hb3 hb4 hb5 k (⟨a.val, h⟩ : Fin 4) b, floor_apply Cn hb6 k 0 b, ceil_apply Cn hb6 k 0 b]
    show Ideal.fptosi 32 (Scalar.select (lit0 (S4x2.rowMajor (ix2 (⟨a.val, h⟩ : Fin 4) b))) _ _) = _
    rw [table_apply (⟨a.val, h⟩ : Fin 4) b]
  · rw [dif_neg h, concat_hi _ _ hc k a b (Nat.le_of_not_lt h)]

/-! ## The two coordinates against the specification -/

/-- Row coordinate: floor for the first two proposals. -/
theorem table_row (n : Nat) (hn : n < 4) : lit0 (⟨n * 2 + 0, by omega⟩ : Fin 8) = if n < 2 then 1#1 else 0#1 := by
  interval_cases n <;> rfl

/-- Column coordinate: floor for the even proposals. -/
theorem table_col (n : Nat) (hn : n < 4) : lit0 (⟨n * 2 + 1, by omega⟩ : Fin 8) = if n % 2 = 0 then 1#1 else 0#1 := by
  interval_cases n <;> rfl

/-- A select on a decided condition is the conditional. -/
theorem select_ite {α : Type} (p : Prop) [Decidable p] (x y : α) :
    Scalar.select (if p then 1#1 else 0#1) x y = if p then x else y := by
  by_cases hp : p
  · rw [if_pos hp, if_pos hp, select_one]
  · rw [if_neg hp, if_neg hp, select_zero]

theorem rowI_of_table (p : EReal) (s : Fin 4 → Fin 2 → BitVec 32) (c : Fin 8) :
    (if h : c.val < 4 then
        Ideal.fptosi 32 (Scalar.select (lit0 (⟨c.val * 2 + (0 : Fin 2).val, by omega⟩ : Fin 8))
          (Ideal.liftRound Int.floor (centre p)) (Ideal.liftRound Int.ceil (centre p)))
      else s (⟨c.val - 4, by have := c.isLt; omega⟩ : Fin 4) 0) = rowI p s c := by
  unfold rowI lo hi
  by_cases h : c.val < 4
  · rw [dif_pos h, if_pos h]
    show Ideal.fptosi 32 (Scalar.select (lit0 (⟨c.val * 2 + 0, by omega⟩ : Fin 8)) _ _) = _
    rw [table_row c.val h, select_ite]
  · rw [dif_neg h, if_neg h]
    refine congrArg (fun a => s a 0) (Fin.ext ?_)
    show c.val - 4 = c.val % 4
    have := c.isLt
    omega

theorem colI_of_table (p : EReal) (s : Fin 4 → Fin 2 → BitVec 32) (c : Fin 8) :
    (if h : c.val < 4 then
        Ideal.fptosi 32 (Scalar.select (lit0 (⟨c.val * 2 + (1 : Fin 2).val, by omega⟩ : Fin 8))
          (Ideal.liftRound Int.floor (centre p)) (Ideal.liftRound Int.ceil (centre p)))
      else s (⟨c.val - 4, by have := c.isLt; omega⟩ : Fin 4) 1) = colI p s c := by
  unfold colI lo hi
  by_cases h : c.val < 4
  · rw [dif_pos h, if_pos h]
    show Ideal.fptosi 32 (Scalar.select (lit0 (⟨c.val * 2 + 1, by omega⟩ : Fin 8)) _ _) = _
    rw [table_col c.val h, select_ite]
  · rw [dif_neg h, if_neg h]
    refine congrArg (fun a => s a 1) (Fin.ext ?_)
    show c.val - 4 = c.val % 4
    have := c.isLt
    omega

/-- Entry (k, a, j) of the concatenated integer coordinates is the specification's row or column integer of
    proposal a of sample k, once the rounded array holds the centres. -/
theorem ints_chain (P : SP.Idx → EReal) (Cn : S131072x2.Idx → EReal) (I : S131072x4x2.Idx → BitVec 32)
    (hCn : ∀ (k : Fin 131072) (j : Fin 2), Cn (ix2 k j) = centre (P (ix2 k ⟨j.val, by omega⟩)))
    (hb3 : S1x4x2.BroadcastsInDim S131072x4x2 (![0, 1, 2] : Fin 3 → Fin S131072x4x2.rank))
    (hb4 : S4x2.BroadcastsInDim S1x4x2 (![1, 2] : Fin 2 → Fin S1x4x2.rank))
    (hb5 : S131072x1x2.BroadcastsInDim S131072x4x2 (![0, 1, 2] : Fin 3 → Fin S131072x4x2.rank))
    (hb6 : S131072x2.BroadcastsInDim S131072x1x2 (![0, 2] : Fin 2 → Fin S131072x1x2.rank))
    (hc : Shape.Concatenates [S131072x4x2, S131072x4x2] S131072x8x2 1)
    (k : Fin 131072) (a : Fin 8) (j : Fin 2) :
    concatenate S131072x8x2 1
        [⟨S131072x4x2, (fptosi 32
          (select (broadcastInDim S131072x4x2 ![0, 1, 2] hb3 (broadcastInDim S1x4x2 ![1, 2] hb4 (fun i => lit0 (S4x2.rowMajor i))))
            (broadcastInDim S131072x4x2 ![0, 1, 2] hb5
              (Host.floor (broadcastInDim S131072x1x2 ![0, 2] hb6 Cn) : FVec Ideal S131072x1x2 .f32))
            (broadcastInDim S131072x4x2 ![0, 1, 2] hb5
              (Host.ceil (broadcastInDim S131072x1x2 ![0, 2] hb6 Cn) : FVec Ideal S131072x1x2 .f32))
            : FVec Ideal S131072x4x2 .f32) : IVec S131072x4x2 32)⟩,
         ⟨S131072x4x2, I⟩] hc (ix3 k a j)
      = if j.val = 0 then rowsAt P I a k else colsAt P I a k := by
  rw [coord_chain Cn I hb3 hb4 hb5 hb6 hc k a j, hCn k j]
  by_cases hj : j.val = 0
  · obtain rfl : j = 0 := Fin.ext hj
    rw [if_pos hj]
    exact rowI_of_table (P (ix2 k 0)) (pairs I k) a
  · obtain rfl : j = 1 := Fin.ext (by have := j.isLt; show j.val = 1; omega)
    rw [if_neg hj]
    exact colI_of_table (P (ix2 k 1)) (pairs I k) a

end Ints

open Ints

/-! ## The reference's buffers -/

/-- The scaled logistic array holds the centres of the first two parameter columns. -/
theorem centre_at (m : (ℓ : Loc nD τ sig) → Buf (Elt Ideal) ℓ) (c : Dev nD) (k : Fin 131072) (j : Fin 2) :
    fin m c main_v9 (ix2 k j) = centre (m ((c.tc : Thread nD τ).loc main_arg1) (ix2 k ⟨j.val, by omega⟩)) := by
  rw [fin_main_v9 m c, fin_main_v6 m c, fin_main_v5 m c, fin_main_cst_2 m c, fin_main_v4 m c, fin_main_v3 m c,
    fin_main_cst_1 m c, fin_main_v2 m c, fin_main_v1 m c, fin_main_v0 m c, fin_main_v8 m c, fin_main_v7 m c,
    fin_main_cst m c, fin_main_arg1 m c]
  exact centre_chain _ _ _ _ _ k j

/-- The concatenated integer coordinates at (k, a, j): the row integer of proposal a of sample k for j = 0, its column
    integer for j = 1. -/
theorem ints_at (m : (ℓ : Loc nD τ sig) → Buf (Elt Ideal) ℓ) (c : Dev nD) (k : Fin 131072) (c8 : Fin 8) (j : Fin 2) :
    fin m c main_v30 (ix3 k c8 j)
      = if j.val = 0 then
          rowsAt (m ((c.tc : Thread nD τ).loc main_arg1)) (m ((c.tc : Thread nD τ).loc main_arg2)) c8 k
        else colsAt (m ((c.tc : Thread nD τ).loc main_arg1)) (m ((c.tc : Thread nD τ).loc main_arg2)) c8 k := by
  rw [fin_main_v30 m c, fin_main_v29 m c, fin_main_v28 m c, fin_main_call1_v0 m c, fin_main_call1_v1 m c,
    fin_main_call1_v2 m c, fin_main_v24 m c, fin_main_c m c, fin_main_v26 m c, fin_main_v27 m c, fin_main_v25 m c,
    fin_main_arg2 m c]
  exact ints_chain (m ((c.tc : Thread nD τ).loc main_arg1)) _ (m ((c.tc : Thread nD τ).loc main_arg2)) (centre_at m c)
    _ _ _ _ _ k c8 j

/-- The row list is the specification's row integers, sample-major. -/
theorem ref_rows (m : (ℓ : Loc nD τ sig) → Buf (Elt Ideal) ℓ) (c : Dev nD) :
    fin m c main_v59
      = bySample (rowsAt (m ((c.tc : Thread nD τ).loc main_arg1)) (m ((c.tc : Thread nD τ).loc main_arg2))) := by
  funext e
  obtain ⟨n, rfl⟩ : ∃ n : Fin 1048576, e = ix1 n := ⟨e 0, eq_ix1 e⟩
  rw [fin_main_v59 m c, fin_main_v58 m c, fin_main_v57 m c]
  refine (flat_apply 0 (by decide) _ _ _ _ n).trans ?_
  rw [ints_at m c, if_pos rfl]
  rfl

/-- The column list is the specification's column integers, sample-major. -/
theorem ref_cols (m : (ℓ : Loc nD τ sig) → Buf (Elt Ideal) ℓ) (c : Dev nD) :
    fin m c main_v62
      = bySample (colsAt (m ((c.tc : Thread nD τ).loc main_arg1)) (m ((c.tc : Thread nD τ).loc main_arg2))) := by
  funext e
  obtain ⟨n, rfl⟩ : ∃ n : Fin 1048576, e = ix1 n := ⟨e 0, eq_ix1 e⟩
  rw [fin_main_v62 m c, fin_main_v61 m c, fin_main_v60 m c]
  refine (flat_apply 1 (by decide) _ _ _ _ n).trans ?_
  rw [ints_at m c]
  exact (if_neg Nat.one_ne_zero).trans rfl

end Cert.Hyper.Reference

end
-- ==== Proof.Scalars.lean ====
/-
  Three facts about one sample's scalars when its parameters are real numbers. The centre lies in [0, 49999], so
  its floor and ceiling are integers a 32-bit word holds exactly and converting them to a word and back changes
  nothing; the variance is a positive real, so the square root of its reciprocal is the reciprocal of its square
  root; and the stable softplus can be written with a negation in place of a subtraction from zero.
-/
import proofs.«401185_j46634754900206_1_alg».proof.Proof.Spec

noncomputable section

namespace Cert.Hyper

open Idealize.ShloMosaic

/-- 1.0 as an extended real. -/
def kOne : EReal := Ideal.ofBits .f32 0x3F800000#32

/-! ## The constants as real numbers -/

/-- The all-zero pattern denotes 0. -/
theorem kZero_eq : kZero = 0 := by unfold kZero; simp [Ideal.ofBits, Ideal.ieee]

/-- Exponent 127, empty fraction: 2^23 * 2^(-23) = 1. -/
theorem kOne_eq : kOne = 1 := by unfold kOne; simp [Ideal.ofBits, Ideal.ieee, -EReal.coe_mul]; norm_num

/-- Exponent 128, empty fraction: 2. -/
theorem kTwo_eq : kTwo = ((2 : ℝ) : EReal) := by
  unfold kTwo; simp [Ideal.ofBits, Ideal.ieee, -EReal.coe_mul]; norm_num

/-- 49999 = 12799744 * 2^(-8). -/
theorem k49999_eq : k49999 = ((49999 : ℝ) : EReal) := by
  unfold k49999; simp [Ideal.ofBits, Ideal.ieee, -EReal.coe_mul]; norm_num

/-- 50000 = 12800000 * 2^(-8). -/
theorem k50000_eq : k50000 = ((50000 : ℝ) : EReal) := by
  unfold k50000; simp [Ideal.ofBits, Ideal.ieee, -EReal.coe_mul]; norm_num

/-- The regulariser (about 1e-6) is a positive real; its exact value is never needed. -/
theorem kEps_eq : ∃ r : ℝ, 0 < r ∧ kEps = (r : EReal) := by
  unfold kEps; simp [Ideal.ofBits, Ideal.ieee, -EReal.coe_mul]

/-- The scale (about 0.2) is a positive real; its exact value is never needed. -/
theorem kFifth_eq : ∃ r : ℝ, 0 < r ∧ kFifth = (r : EReal) := by
  unfold kFifth; simp [Ideal.ofBits, Ideal.ieee, -EReal.coe_mul]

/-! ## The softplus -/

/-- The softplus written with the other spelling of the not-a-number guard and a negation. -/
theorem softplus_eq (x : EReal) :
    Scalar.select (Ideal.cmp .une (x - kZero) (x - kZero)) (x + kZero)
      (max x kZero + Ideal.log1p (Ideal.exp (-(max (x - kZero) (-(x - kZero)))))) = softplus x := by
  -- 0 - y = -y, and the two guards are the same test (x - 0 differs from x - 0).
  unfold softplus
  rw [kZero_eq, zero_sub]
  rfl

/-- The embedding of the reals is monotone, so it commutes with max. -/
theorem coe_max' (a b : ℝ) : max (a : EReal) (b : EReal) = ((max a b : ℝ) : EReal) :=
  (EReal.coe_strictMono.monotone.map_max).symm

/-- At a real x the softplus is the real max x 0 + log (1 + exp (-|x|)), with |x| spelt max x (-x): the guard is
    false, every intermediate value is real, and 1 + exp (..) is positive so the logarithm is the real one. -/
theorem softplus_coe (x : ℝ) :
    softplus (x : EReal) = ((max x 0 + Real.log (1 + Real.exp (-(max x (-x)))) : ℝ) : EReal) := by
  have hpos : ¬ (1 + Real.exp (-(max x (-x))) ≤ 0) := by
    have : (0 : ℝ) < 1 + Real.exp (-(max x (-x))) := by positivity
    exact not_le.mpr this
  have hcmp : Ideal.cmp .one (x : EReal) (x : EReal) = 0#1 := by simp [Ideal.cmp]
  unfold softplus
  rw [kZero_eq, sub_zero, add_zero, zero_sub, hcmp]
  unfold Scalar.select
  rw [if_neg (by decide)]
  rw [← EReal.coe_zero, coe_max', ← EReal.coe_neg, coe_max', ← EReal.coe_neg, Ideal.exp_coe, Ideal.log1p,
    ← EReal.coe_one, ← EReal.coe_add, Ideal.log_coe, if_neg hpos, ← EReal.coe_add]

/-- That real is nonnegative: max x 0 is, and 1 + exp (..) is at least 1 so its logarithm is. -/
theorem softplus_nonneg (x : ℝ) : 0 ≤ max x 0 + Real.log (1 + Real.exp (-(max x (-x)))) := by
  have h1 : 0 ≤ max x 0 := le_max_right _ _
  have h2 : 0 ≤ Real.log (1 + Real.exp (-(max x (-x)))) := by
    apply Real.log_nonneg
    have := Real.exp_pos (-(max x (-x)))
    linarith
  linarith

/-! ## The variance -/

/-- For a real raw width the regularised variance eps + ((softplus (p + 2) + eps) * 50000) * fifth is a positive
    real: a sum and products of positive reals. -/
theorem variance_coe (p : ℝ) : ∃ y : ℝ, 0 < y ∧ kEps + spread (p : EReal) = (y : EReal) := by
  obtain ⟨e, he, hE⟩ := kEps_eq
  obtain ⟨f, hf, hF⟩ := kFifth_eq
  have hs := softplus_nonneg (p + 2)
  refine ⟨e + ((max (p + 2) 0 + Real.log (1 + Real.exp (-(max (p + 2) (-(p + 2))))) + e) * 50000) * f, ?_, ?_⟩
  · exact add_pos he (mul_pos (mul_pos (add_pos_of_nonneg_of_pos hs he) (by norm_num)) hf)
  · unfold spread
    rw [kTwo_eq, ← EReal.coe_add, softplus_coe, hE, hF, k50000_eq, ← EReal.coe_add, ← EReal.coe_mul, ← EReal.coe_mul,
      ← EReal.coe_add]

/-- For a real raw width the variance is a positive real, where 1/sqrt and sqrt(1/.) agree. -/
theorem sqrt_inv_eq_invDev (p : ℝ) :
    Ideal.sqrt (Ideal.div kOne (kEps + spread (p : EReal))) = invDev (p : EReal) := by
  -- With y > 0 the variance: 1 / y is the real reciprocal, which is not negative, so both sides are real and
  -- sqrt (1 / y) = 1 / sqrt y.
  obtain ⟨y, hy, hY⟩ := variance_coe p
  have hne : ((y : ℝ) : EReal) ≠ 0 := by exact_mod_cast hy.ne'
  have hinv : ¬ (y⁻¹ < 0) := not_lt.mpr (inv_nonneg.mpr hy.le)
  unfold invDev
  rw [hY, kOne_eq, Ideal.div, if_neg hne, one_mul, ← EReal.coe_inv, Ideal.sqrt_coe, if_neg hinv, Ideal.rsqrt_coe,
    if_neg (not_lt.mpr hy.le), if_neg hy.ne', Real.sqrt_inv]

/-! ## The centre and its lattice neighbours -/

/-- For a real parameter the centre is the real 49999 / (1 + exp (-p)), and 1 + exp (-p) is at least 1, so the
    centre lies in [0, 49999]. -/
theorem centre_coe (p : ℝ) : ∃ c : ℝ, 0 ≤ c ∧ c ≤ 49999 ∧ centre (p : EReal) = (c : EReal) := by
  have h1 : (1 : ℝ) ≤ 1 + Real.exp (-p) := by have := Real.exp_pos (-p); linarith
  have h2 : (1 + Real.exp (-p))⁻¹ ≤ 1 := inv_le_one_of_one_le₀ h1
  have h3 : 0 ≤ (1 + Real.exp (-p))⁻¹ := by positivity
  refine ⟨(1 + Real.exp (-p))⁻¹ * 49999, ?_, ?_, ?_⟩
  · positivity
  · linarith
  · unfold centre; rw [Ideal.logistic_coe, k49999_eq, ← EReal.coe_mul]

/-- An integer n in [0, 49999] survives the trip through a 32-bit word: truncating it gives n, the clamp to
    [-2^31, 2^31 - 1] leaves n alone, and the word holding n reads back as n. -/
theorem roundtrip_int (n : ℤ) (h0 : 0 ≤ n) (h1 : n ≤ 49999) :
    (((Ideal.fptosi 32 ((n : ℝ) : EReal)).toInt : ℝ) : EReal) = ((n : ℝ) : EReal) := by
  have hr : (0 : ℝ) ≤ (n : ℝ) := by exact_mod_cast h0
  have hclamp : max (-(((2 : ℕ) ^ (32 - 1) : ℕ) : ℤ)) (min ((((2 : ℕ) ^ (32 - 1) : ℕ) : ℤ) - 1) n) = n := by
    norm_num
    omega
  have h : (Ideal.fptosi 32 ((n : ℝ) : EReal)).toInt = n := by
    unfold Ideal.fptosi
    rw [Ideal.toIntClamped_coe, if_pos hr, Int.floor_intCast, hclamp]
    exact BitVec.toInt_ofInt_eq_self (by decide) (by norm_num; omega) (by norm_num; omega)
  rw [h]

/-- For a real parameter the floor of the centre survives the trip through a 32-bit word. -/
theorem lo_roundtrip (p : ℝ) : (((Ideal.fptosi 32 (lo (p : EReal))).toInt : ℝ) : EReal) = lo (p : EReal) := by
  -- 0 <= c gives 0 <= floor c, and floor c <= c <= 49999.
  obtain ⟨c, hc0, hc1, hC⟩ := centre_coe p
  have e : lo (p : EReal) = (((⌊c⌋ : ℤ) : ℝ) : EReal) := by unfold lo; rw [hC, Ideal.liftRound_coe]
  have hn0 : 0 ≤ ⌊c⌋ := Int.floor_nonneg.mpr hc0
  have hn1 : ⌊c⌋ ≤ 49999 := by
    have : ((⌊c⌋ : ℤ) : ℝ) ≤ 49999 := le_trans (Int.floor_le c) hc1
    exact_mod_cast this
  rw [e]
  exact roundtrip_int _ hn0 hn1

/-- And so does its ceiling. -/
theorem hi_roundtrip (p : ℝ) : (((Ideal.fptosi 32 (hi (p : EReal))).toInt : ℝ) : EReal) = hi (p : EReal) := by
  -- 0 <= c gives 0 <= ceil c, and c <= 49999 with 49999 an integer gives ceil c <= 49999.
  obtain ⟨c, hc0, hc1, hC⟩ := centre_coe p
  have e : hi (p : EReal) = (((⌈c⌉ : ℤ) : ℝ) : EReal) := by unfold hi; rw [hC, Ideal.liftRound_coe]
  have hn0 : 0 ≤ ⌈c⌉ := Int.ceil_nonneg hc0
  have hn1 : ⌈c⌉ ≤ 49999 := by
    apply Int.ceil_le.mpr
    exact_mod_cast hc1
  rw [e]
  exact roundtrip_int _ hn0 hn1

end Cert.Hyper

end
-- ==== Proof.RefScalar.lean ====
/-
  One sample's weight as the reference spells it: each proposal's coordinates are machine integers read back as
  reals, one over the standard deviation is the square root of a reciprocal, the softplus carries the other
  spelling of its guard, and the two sums start from an explicit zero. For real parameters this is the weight of
  the specification.
-/
import proofs.«401185_j46634754900206_1_alg».proof.Proof.Spec
import proofs.«401185_j46634754900206_1_alg».proof.Proof.Scalars

noncomputable section

open scoped BigOperators

namespace Cert.Hyper

open Idealize.ShloMosaic

def refSoftplus (x : EReal) : EReal :=
  Scalar.select (Ideal.cmp .une (x - kZero) (x - kZero)) (x + kZero)
    (max x kZero + Ideal.log1p (Ideal.exp (-(max (x - kZero) (-(x - kZero))))))

def refSpread (p : EReal) : EReal := ((refSoftplus (p + kTwo) + kEps) * k50000) * kFifth

def refInvDev (p : EReal) : EReal := Ideal.sqrt (Ideal.div kOne (kEps + refSpread p))

/-- Proposal c's standardised offset along axis j (0: rows, 1: columns), from the integer coordinates. -/
def refOff (p0 p1 p2 : EReal) (s : Fin 4 → Fin 2 → BitVec 32) (c : Fin 8) (j : Fin 2) : EReal :=
  ((((if j.val = 0 then rowI p0 s c else colI p1 s c).toInt : ℝ) : EReal) - centre (if j.val = 0 then p0 else p1))
    * refInvDev p2

def refDens (p0 p1 p2 : EReal) (s : Fin 4 → Fin 2 → BitVec 32) (c : Fin 8) : EReal :=
  Ideal.exp (kNegHalf * (kZero + ∑ j : Fin 2, refOff p0 p1 p2 s c j * refOff p0 p1 p2 s c j))

def refMass (p0 p1 p2 : EReal) (s : Fin 4 → Fin 2 → BitVec 32) : EReal :=
  kZero + ∑ c : Fin 8, (refDens p0 p1 p2 s c + kEps)

def refWeight (p0 p1 p2 p3 : EReal) (s : Fin 4 → Fin 2 → BitVec 32) (c : Fin 8) : EReal :=
  p3 * Ideal.div (refDens p0 p1 p2 s c) (refMass p0 p1 p2 s)

/-! ## The three respellings, one at a time -/

/-- The reference's softplus is the left side of the softplus identity. -/
theorem refSoftplus_eq (x : EReal) : refSoftplus x = softplus x := by
  unfold refSoftplus
  exact softplus_eq x

theorem refSpread_eq (p : EReal) : refSpread p = spread p := by
  unfold refSpread spread
  rw [refSoftplus_eq]

/-- For a real raw width the variance is a positive real, so sqrt (1 / v) = 1 / sqrt v. -/
theorem refInvDev_eq (p : ℝ) : refInvDev (p : EReal) = invDev (p : EReal) := by
  unfold refInvDev
  rw [refSpread_eq]
  exact sqrt_inv_eq_invDev p

/-- The row's machine integer read back as a real is the row's real coordinate: a lattice corner is the floor or
    the ceiling of a centre in [0, 49999], which a 32-bit word holds exactly; a drawn row is the same word on
    both sides. -/
theorem rowI_toInt (p0 : ℝ) (s : Fin 4 → Fin 2 → BitVec 32) (c : Fin 8) :
    (((rowI (p0 : EReal) s c).toInt : ℝ) : EReal) = rowF (p0 : EReal) s c := by
  unfold rowI rowF
  by_cases h4 : c.val < 4
  · rw [if_pos h4, if_pos h4]
    by_cases h2 : c.val < 2
    · rw [if_pos h2]
      exact lo_roundtrip p0
    · rw [if_neg h2]
      exact hi_roundtrip p0
  · rw [if_neg h4, if_neg h4]

/-- The same for the column. -/
theorem colI_toInt (p1 : ℝ) (s : Fin 4 → Fin 2 → BitVec 32) (c : Fin 8) :
    (((colI (p1 : EReal) s c).toInt : ℝ) : EReal) = colF (p1 : EReal) s c := by
  unfold colI colF
  by_cases h4 : c.val < 4
  · rw [if_pos h4, if_pos h4]
    by_cases h2 : c.val % 2 = 0
    · rw [if_pos h2]
      exact lo_roundtrip p1
    · rw [if_neg h2]
      exact hi_roundtrip p1
  · rw [if_neg h4, if_neg h4]

/-- Along the rows the reference's offset is the specification's standardised row offset. -/
theorem refOff_row (p0 p1 p2 : ℝ) (s : Fin 4 → Fin 2 → BitVec 32) (c : Fin 8) :
    refOff (p0 : EReal) (p1 : EReal) (p2 : EReal) s c 0
      = (rowF (p0 : EReal) s c - centre (p0 : EReal)) * invDev (p2 : EReal) := by
  have h0 : (0 : Fin 2).val = 0 := rfl
  unfold refOff
  simp only [if_pos h0]
  rw [refInvDev_eq, rowI_toInt]

/-- Along the columns likewise. -/
theorem refOff_col (p0 p1 p2 : ℝ) (s : Fin 4 → Fin 2 → BitVec 32) (c : Fin 8) :
    refOff (p0 : EReal) (p1 : EReal) (p2 : EReal) s c 1
      = (colF (p1 : EReal) s c - centre (p1 : EReal)) * invDev (p2 : EReal) := by
  have h1 : ¬ ((1 : Fin 2).val = 0) := by decide
  unfold refOff
  simp only [if_neg h1]
  rw [refInvDev_eq, colI_toInt]

/-- The density: the sum over the two axes, started from zero, is the sum of the two squares. -/
theorem refDens_eq (p0 p1 p2 : ℝ) (s : Fin 4 → Fin 2 → BitVec 32) (c : Fin 8) :
    refDens (p0 : EReal) (p1 : EReal) (p2 : EReal) s c = dens (p0 : EReal) (p1 : EReal) (p2 : EReal) s c := by
  unfold refDens dens
  rw [kZero_eq, zero_add, Fin.sum_univ_two, refOff_row, refOff_col]

/-- The normaliser: the sum over the eight proposals, started from zero, term by term. -/
theorem refMass_eq (p0 p1 p2 : ℝ) (s : Fin 4 → Fin 2 → BitVec 32) :
    refMass (p0 : EReal) (p1 : EReal) (p2 : EReal) s = mass (p0 : EReal) (p1 : EReal) (p2 : EReal) s := by
  unfold refMass mass
  rw [kZero_eq, zero_add]
  exact Finset.sum_congr rfl (fun c _ => by rw [refDens_eq])

/-- For real centres and a real raw width the reference's spelling of a weight is the specification's. -/
theorem refWeight_eq (p0 p1 p2 : ℝ) (p3 : EReal) (s : Fin 4 → Fin 2 → BitVec 32) (c : Fin 8) :
    refWeight (p0 : EReal) (p1 : EReal) (p2 : EReal) p3 s c = weight (p0 : EReal) (p1 : EReal) (p2 : EReal) p3 s c := by
  unfold refWeight weight
  rw [refDens_eq, refMass_eq]

end Cert.Hyper

end
-- ==== Proof.RefWeights.lean ====
/-
  The reference's list of weights. For every sample the program computes a variance from the raw width (a stable
  softplus, a regulariser, the lattice size and a fixed scale), takes the square root of the reciprocal of the
  regularised variance, standardises the eight proposals' offsets from the centre along both axes, sums the two
  squares, exponentiates minus half of that, normalises the eight regularised densities, scales by the sample's
  value and flattens the 131072 x 8 array sample by sample. This module reads each of those arrays at an index:
  broadcasts, slices and the two reshapes move coordinates, the two sums become finite sums over the reduced axis,
  and every arithmetic operation is the extended reals' own. What is found at sample k, proposal a is the
  reference's spelling of the weight; for real parameters that is the specification's weight.
-/
import proofs.«401185_j46634754900206_1_alg».proof.Proof.RefOps
import proofs.«401185_j46634754900206_1_alg».proof.Proof.RefInts
import proofs.«401185_j46634754900206_1_alg».proof.Proof.Spec
import proofs.«401185_j46634754900206_1_alg».proof.Proof.RefScalar
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hyper.Reference

open Idealize.ShloMosaic Idealize.ShloMosaic.ValueIdx Idealize.ShloMosaic.TcCoe Idealize.SL.Sem Cert.ReferenceIdeal Cert.Hyper

variable {α : Type}

/-! ## Layout operations of the reference read at an index given by coordinates -/

/-- A pair written as a one-row matrix. -/
theorem bc_2_12 (h : S2.BroadcastsInDim S1x2 ![1]) (x : S2.Idx → α) (u : Fin 1) (j : Fin 2) :
    broadcastInDim S1x2 ![1] h x (ix2 u j) = x (ix1 j) :=
  broadcastInDim_apply _ h x _ _ fun a => match a with | ⟨0, _⟩ => rfl

/-- One row repeated down 131072 rows. -/
theorem bc_12_n2 (h : S1x2.BroadcastsInDim S131072x2 ![0, 1]) (x : S1x2.Idx → α) (k : Fin 131072) (j : Fin 2) :
    broadcastInDim S131072x2 ![0, 1] h x (ix2 k j) = x (ix2 0 j) :=
  broadcastInDim_apply _ h x _ _ fun a => match a with | ⟨0, _⟩ => rfl | ⟨1, _⟩ => rfl

/-- A column repeated across two columns. -/
theorem bc_n1_n2 (h : S131072x1.BroadcastsInDim S131072x2 ![0, 1]) (x : S131072x1.Idx → α) (k : Fin 131072) (j : Fin 2) :
    broadcastInDim S131072x2 ![0, 1] h x (ix2 k j) = x (ix2 k 0) :=
  broadcastInDim_apply _ h x _ _ fun a => match a with | ⟨0, _⟩ => rfl | ⟨1, _⟩ => rfl

/-- A 131072 x 2 array given a unit middle axis. -/
theorem bc_n2_n12 (h : S131072x2.BroadcastsInDim S131072x1x2 ![0, 2]) (x : S131072x2.Idx → α) (k : Fin 131072) (u : Fin 1)
    (j : Fin 2) : broadcastInDim S131072x1x2 ![0, 2] h x (ix3 k u j) = x (ix2 k j) :=
  broadcastInDim_apply _ h x _ _ fun a => match a with | ⟨0, _⟩ => rfl | ⟨1, _⟩ => rfl

/-- The unit middle axis repeated over the eight proposals. -/
theorem bc_n12_n82 (h : S131072x1x2.BroadcastsInDim S131072x8x2 ![0, 1, 2]) (x : S131072x1x2.Idx → α) (k : Fin 131072)
    (c : Fin 8) (j : Fin 2) : broadcastInDim S131072x8x2 ![0, 1, 2] h x (ix3 k c j) = x (ix3 k 0 j) :=
  broadcastInDim_apply _ h x _ _ fun a => match a with | ⟨0, _⟩ => rfl | ⟨1, _⟩ => rfl | ⟨2, _⟩ => rfl

/-- A list written as a column. -/
theorem bc_n_n1 (h : S131072.BroadcastsInDim S131072x1 ![0]) (x : S131072.Idx → α) (k : Fin 131072) (u : Fin 1) :
    broadcastInDim S131072x1 ![0] h x (ix2 k u) = x (ix1 k) :=
  broadcastInDim_apply _ h x _ _ fun a => match a with | ⟨0, _⟩ => rfl

/-- A column repeated across the eight proposals. -/
theorem bc_n1_n8 (h : S131072x1.BroadcastsInDim S131072x8 ![0, 1]) (x : S131072x1.Idx → α) (k : Fin 131072) (c : Fin 8) :
    broadcastInDim S131072x8 ![0, 1] h x (ix2 k c) = x (ix2 k 0) :=
  broadcastInDim_apply _ h x _ _ fun a => match a with | ⟨0, _⟩ => rfl | ⟨1, _⟩ => rfl

/-- The third parameter column. -/
theorem slice_col2 (h : S131072x4.Slices ![0, 2] S131072x1) (x : S131072x4.Idx → α) (k : Fin 131072) (u : Fin 1) :
    extractStridedSlice S131072x1 ![0, 2] x h (ix2 k u) = x (ix2 k 2) :=
  slice2_axis1_apply 2 x h k u 2 (by have := u.isLt; show 2 = 2 + u.val; omega)

/-- The fourth parameter column. -/
theorem slice_col3 (h : S131072x4.Slices ![0, 3] S131072x1) (x : S131072x4.Idx → α) (k : Fin 131072) (u : Fin 1) :
    extractStridedSlice S131072x1 ![0, 3] x h (ix2 k u) = x (ix2 k 3) :=
  slice2_axis1_apply 3 x h k u 3 (by have := u.isLt; show 3 = 3 + u.val; omega)

/-- A column flattened to a list. -/
theorem cast_n1_n (h : S131072x1.ShapeCasts S131072) (x : S131072x1.Idx → α) (k : Fin 131072) :
    shapeCast S131072 x h (ix1 k) = x (ix2 k 0) :=
  shapeCast_apply x h _ _ (by
    rw [Shape.rowMajor_val_two, Shape.rowMajor_val_one]
    show k.val * 1 + 0 = k.val
    omega)

/-- The 131072 x 8 array flattened row by row: entry e is column e % 8 of row e / 8. -/
theorem cast_n8_e (h : S131072x8.ShapeCasts S1048576) (x : S131072x8.Idx → α) (e : Fin 1048576) :
    shapeCast S1048576 x h (ix1 e)
      = x (ix2 ⟨e.val / 8, Nat.div_lt_of_lt_mul e.isLt⟩ ⟨e.val % 8, Nat.mod_lt _ (by decide)⟩) :=
  shapeCast_apply x h _ _ (by
    rw [Shape.rowMajor_val_two, Shape.rowMajor_val_one]
    show e.val / 8 * 8 + e.val % 8 = e.val
    omega)

/-! ## Three host operations read at an index (definitional) -/

theorem hostExp_apply {s : Shape} {φ : FTy} (a : FVec Ideal s φ) (i : s.Idx) : Host.exp a i = Ideal.exp (a i) := rfl

theorem hostSqrt_apply {s : Shape} {φ : FTy} (a : FVec Ideal s φ) (i : s.Idx) : Host.sqrt a i = Ideal.sqrt (a i) := rfl

theorem hostDivf_apply {s : Shape} {φ : FTy} (a b : FVec Ideal s φ) (i : s.Idx) :
    Host.divf a b i = Ideal.div (a i) (b i) := rfl

/-! ## The two sums -/

/-- The sum over the last axis (two terms), from its initial value. -/
theorem sum_last (h' : S131072x8x2.ReducesTo [2] S131072x8) (hu : 0 < S_.numel) (x : FVec Ideal S131072x8x2 .f32)
    (init : S_.Idx → EReal) (k : Fin 131072) (c : Fin 8) :
    Host.reduceAdd (F := Ideal) x init h' hu (ix2 k c) = init (Shape.Idx.first hu) + ∑ j : Fin 2, x (ix3 k c j) := by
  have h : S131072x8x2.Reduces [2] S131072x8 := by decide
  refine (Ideal.hostReduceAdd_single h' h x _ (ix2 k c)).trans (congrArg (init (Shape.Idx.first hu) + ·) ?_)
  show ∑ j : Fin 2, x (h.lift (ix2 k c) j) = _
  refine Finset.sum_congr rfl fun j _ => congrArg x ?_
  exact funext fun a => match a with | ⟨0, _⟩ => rfl | ⟨1, _⟩ => rfl | ⟨2, _⟩ => rfl

/-- The sum over the eight proposals, from its initial value. -/
theorem sum_mid (h' : S131072x8.ReducesTo [1] S131072) (hu : 0 < S_.numel) (x : FVec Ideal S131072x8 .f32)
    (init : S_.Idx → EReal) (k : Fin 131072) :
    Host.reduceAdd (F := Ideal) x init h' hu (ix1 k) = init (Shape.Idx.first hu) + ∑ c : Fin 8, x (ix2 k c) := by
  have h : S131072x8.Reduces [1] S131072 := by decide
  refine (Ideal.hostReduceAdd_single h' h x _ (ix1 k)).trans (congrArg (init (Shape.Idx.first hu) + ·) ?_)
  show ∑ c : Fin 8, x (h.lift (ix1 k) c) = _
  refine Finset.sum_congr rfl fun c _ => congrArg x ?_
  exact funext fun a => match a with | ⟨0, _⟩ => rfl | ⟨1, _⟩ => rfl

/-! ## The reference's weights, stage by stage, at one sample (and one proposal, and one axis) -/

section Stages

variable (m : (ℓ : Loc nD τ sig) → Buf (Elt Ideal) ℓ) (c : Dev nD) (P : FVec Ideal SP .f32) (I : IVec SS 32)

/-- The raw width shifted by two. -/
theorem v12_at (hP : fin m c main_arg1 = P) (k : Fin 131072) (u : Fin 1) :
    fin m c main_v12 (ix2 k u) = P (ix2 k 2) + kTwo := by
  rw [fin_main_v12, fin_main_v10, fin_main_v11, fin_main_cst_3, hP, addf_apply, slice_col2]
  rfl

/-- The outlined softplus, line by line, is the guarded stable form. -/
theorem v13_at (hP : fin m c main_arg1 = P) (k : Fin 131072) (u : Fin 1) :
    fin m c main_v13 (ix2 k u) = refSoftplus (P (ix2 k 2) + kTwo) := by
  rw [fin_main_v13, fin_main_call0_v4, fin_main_call0_v6, fin_main_call0_v11, fin_main_call0_v1, fin_main_call0_v10,
    fin_main_call0_v9, fin_main_call0_v8, fin_main_call0_v7, fin_main_call0_v3, fin_main_call0_v0, fin_main_call0_v2,
    fin_main_call0_v5, fin_main_call0_cst]
  have h := v12_at m c P hP k u
  obtain ⟨x, hx⟩ : ∃ x : FVec Ideal S131072x1 .f32, fin m c main_v12 = x := ⟨_, rfl⟩
  rw [hx] at h ⊢
  show refSoftplus (x (ix2 k u)) = _
  rw [h]

/-- The variance along either axis. -/
theorem v21_at (hP : fin m c main_arg1 = P) (k : Fin 131072) (j : Fin 2) :
    fin m c main_v21 (ix2 k j) = refSpread (P (ix2 k 2)) := by
  rw [fin_main_v21, fin_main_v19, fin_main_v20, fin_main_cst_5, fin_main_v17, fin_main_v18, fin_main_v16, fin_main_cst_0,
    fin_main_v15, fin_main_v14, fin_main_cst_4]
  rw [mulf_apply, mulf_apply, bc_n1_n2, bc_12_n2, bc_2_12, addf_apply, v13_at m c P hP k 0]
  rfl

/-- One over the standard deviation, as the square root of a reciprocal. -/
theorem v40_at (hP : fin m c main_arg1 = P) (k : Fin 131072) (u : Fin 1) (j : Fin 2) :
    fin m c main_v40 (ix3 k u j) = refInvDev (P (ix2 k 2)) := by
  rw [fin_main_v40, fin_main_v39, fin_main_v38, fin_main_cst_7, fin_main_v37, fin_main_v36, fin_main_cst_6, fin_main_v35]
  have h := v21_at m c P hP k j
  obtain ⟨x, hx⟩ : ∃ x : FVec Ideal S131072x2 .f32, fin m c main_v21 = x := ⟨_, rfl⟩
  rw [hx] at h ⊢
  show Ideal.sqrt (Ideal.div kOne (kEps + broadcastInDim S131072x1x2 _ _ x (ix3 k u j))) = _
  rw [bc_n2_n12, h]
  rfl

/-- A proposal's standardised offset along one axis. -/
theorem v42_at (hP : fin m c main_arg1 = P)
    (hcen : ∀ (k : Fin 131072) (j : Fin 2), fin m c main_v9 (ix2 k j) = centre (P (ix2 k ⟨j.val, by omega⟩)))
    (hint : ∀ (k : Fin 131072) (c8 : Fin 8) (j : Fin 2),
      fin m c main_v30 (ix3 k c8 j) = if j.val = 0 then rowsAt P I c8 k else colsAt P I c8 k)
    (k : Fin 131072) (c8 : Fin 8) (j : Fin 2) :
    fin m c main_v42 (ix3 k c8 j) = refOff (P (ix2 k 0)) (P (ix2 k 1)) (P (ix2 k 2)) (pairs I k) c8 j := by
  rw [fin_main_v42, fin_main_v34, fin_main_v41, fin_main_v31, fin_main_v33, fin_main_v32]
  rw [mulf_apply, subf_apply, sitofp_apply, bc_n12_n82, bc_n12_n82, bc_n2_n12, v40_at m c P hP, hcen, hint]
  fin_cases j <;> rfl

/-- A proposal's unnormalised density. -/
theorem v47_at (hP : fin m c main_arg1 = P)
    (hcen : ∀ (k : Fin 131072) (j : Fin 2), fin m c main_v9 (ix2 k j) = centre (P (ix2 k ⟨j.val, by omega⟩)))
    (hint : ∀ (k : Fin 131072) (c8 : Fin 8) (j : Fin 2),
      fin m c main_v30 (ix3 k c8 j) = if j.val = 0 then rowsAt P I c8 k else colsAt P I c8 k)
    (k : Fin 131072) (c8 : Fin 8) :
    fin m c main_v47 (ix2 k c8) = refDens (P (ix2 k 0)) (P (ix2 k 1)) (P (ix2 k 2)) (pairs I k) c8 := by
  rw [fin_main_v47, fin_main_v46, fin_main_v45, fin_main_cst_9, fin_main_v44, fin_main_cst_8, fin_main_v43]
  rw [hostExp_apply, mulf_apply, sum_last]
  unfold refDens
  refine congrArg (fun z => Ideal.exp (kNegHalf * (kZero + z))) (Finset.sum_congr rfl fun j _ => ?_)
  rw [mulf_apply, v42_at m c P I hP hcen hint k c8 j]

/-- A sample's normaliser. -/
theorem v50_at (hP : fin m c main_arg1 = P)
    (hcen : ∀ (k : Fin 131072) (j : Fin 2), fin m c main_v9 (ix2 k j) = centre (P (ix2 k ⟨j.val, by omega⟩)))
    (hint : ∀ (k : Fin 131072) (c8 : Fin 8) (j : Fin 2),
      fin m c main_v30 (ix3 k c8 j) = if j.val = 0 then rowsAt P I c8 k else colsAt P I c8 k)
    (k : Fin 131072) :
    fin m c main_v50 (ix1 k) = refMass (P (ix2 k 0)) (P (ix2 k 1)) (P (ix2 k 2)) (pairs I k) := by
  rw [fin_main_v50, fin_main_cst_11, fin_main_v49, fin_main_v48, fin_main_cst_10, sum_mid]
  unfold refMass
  refine congrArg (fun z => kZero + z) (Finset.sum_congr rfl fun c8 _ => ?_)
  rw [addf_apply, v47_at m c P I hP hcen hint k c8]
  rfl

/-- The matrix entry a proposal contributes, as the reference spells it. -/
theorem v56_at (hP : fin m c main_arg1 = P)
    (hcen : ∀ (k : Fin 131072) (j : Fin 2), fin m c main_v9 (ix2 k j) = centre (P (ix2 k ⟨j.val, by omega⟩)))
    (hint : ∀ (k : Fin 131072) (c8 : Fin 8) (j : Fin 2),
      fin m c main_v30 (ix3 k c8 j) = if j.val = 0 then rowsAt P I c8 k else colsAt P I c8 k)
    (k : Fin 131072) (c8 : Fin 8) :
    fin m c main_v56 (ix2 k c8)
      = refWeight (P (ix2 k 0)) (P (ix2 k 1)) (P (ix2 k 2)) (P (ix2 k 3)) (pairs I k) c8 := by
  rw [fin_main_v56, fin_main_v55, fin_main_v54, fin_main_v23, fin_main_v22, fin_main_v53, fin_main_v52, fin_main_v51, hP]
  rw [mulf_apply, bc_n1_n8, bc_n_n1, cast_n1_n, slice_col3, hostDivf_apply, bc_n1_n8, bc_n_n1,
    v47_at m c P I hP hcen hint k c8, v50_at m c P I hP hcen hint k]
  rfl

end Stages

/-- The reference's list of weights is the specification's, listed sample by sample. -/
theorem ref_weights (m : (ℓ : Loc nD τ sig) → Buf (Elt Ideal) ℓ) (c : Dev nD)
    (hreal : ∀ i : SP.Idx, ∃ r : ℝ, m ((c.tc : Thread nD τ).loc main_arg1) i = (r : EReal)) :
    fin m c main_v63 = bySample (weightsAt (m ((c.tc : Thread nD τ).loc main_arg1)) (m ((c.tc : Thread nD τ).loc main_arg2))) := by
  funext e
  obtain ⟨e0, rfl⟩ : ∃ e0 : Fin 1048576, e = ix1 e0 := ⟨e 0, eq_ix1 e⟩
  rw [fin_main_v63, cast_n8_e,
    v56_at m c _ (m ((c.tc : Thread nD τ).loc main_arg2)) (fin_main_arg1 m c) (centre_at m c) (ints_at m c)]
  generalize m ((c.tc : Thread nD τ).loc main_arg1) = P at hreal ⊢
  generalize m ((c.tc : Thread nD τ).loc main_arg2) = I
  obtain ⟨r0, h0⟩ := hreal (ix2 ⟨e0.val / 8, Nat.div_lt_of_lt_mul e0.isLt⟩ 0)
  obtain ⟨r1, h1⟩ := hreal (ix2 ⟨e0.val / 8, Nat.div_lt_of_lt_mul e0.isLt⟩ 1)
  obtain ⟨r2, h2⟩ := hreal (ix2 ⟨e0.val / 8, Nat.div_lt_of_lt_mul e0.isLt⟩ 2)
  show _ = weight (P (ix2 ⟨e0.val / 8, Nat.div_lt_of_lt_mul e0.isLt⟩ 0)) (P (ix2 ⟨e0.val / 8, Nat.div_lt_of_lt_mul e0.isLt⟩ 1))
    (P (ix2 ⟨e0.val / 8, Nat.div_lt_of_lt_mul e0.isLt⟩ 2)) (P (ix2 ⟨e0.val / 8, Nat.div_lt_of_lt_mul e0.isLt⟩ 3))
    (pairs I ⟨e0.val / 8, Nat.div_lt_of_lt_mul e0.isLt⟩) ⟨e0.val % 8, Nat.mod_lt _ (by decide)⟩
  rw [h0, h1, h2]
  exact refWeight_eq r0 r1 r2 _ _ _

end Cert.Hyper.Reference

end
-- ==== Proof.RefValue.lean ====
/-
  What the reference computes: sample-major lists of the same proposals, turned into the sparse product by the
  same closing operations. Where it converts a lattice corner to a machine integer and back, and where it takes
  the square root of a reciprocal, it agrees with the direct forms as soon as the parameters are real numbers.
-/
import proofs.«401185_j46634754900206_1_alg».proof.Proof.RefOps
import proofs.«401185_j46634754900206_1_alg».proof.Proof.RefInts
import proofs.«401185_j46634754900206_1_alg».proof.Proof.RefWeights
import proofs.«401185_j46634754900206_1_alg».proof.Proof.Spec

noncomputable section

namespace Cert.Hyper.Reference

open Idealize.ShloMosaic Idealize.ShloMosaic.StableHlo Idealize.ShloMosaic.TcCoe Idealize.SL.Sem Cert.ReferenceIdeal Cert.Hyper

/-- The reference's closing operations are the sparse product of its three lists. -/
theorem fin_result (m : (ℓ : Loc nD τ sig) → Buf (Elt Ideal) ℓ) (c : Dev nD) :
    fin m c main_v76 = tail (m ((c.tc : Thread nD τ).loc main_arg0)) (fin m c main_v59) (fin m c main_v62) (fin m c main_v63) := by
  rw [fin_main_v76, fin_main_v74, fin_main_cst_14, fin_main_v75, fin_main_v73, fin_main_v70, fin_main_v69,
    fin_main_v68, fin_main_v65, fin_main_v64, fin_main_c_12, fin_main_v67, fin_main_v66, fin_main_c_13,
    fin_main_v72, fin_main_v71, fin_main_arg0]
  rfl

/-- With real parameters, every weakly fair execution of the reference ends with the result at the sparse
    product of the sample-major lists, and the arguments unchanged. -/
theorem ref_run (m : (ℓ : Loc nD τ sig) → Buf (Elt Ideal) ℓ) (ρ : Dev nD → PrngReg)
    (hreal : ∀ (c : Dev nD) (i : SP.Idx), ∃ r : ℝ, m ((c.tc : Thread nD τ).loc main_arg1) i = (r : EReal)) :
    θ_run (defs (F := Ideal)) (onTc (τ := τ) (main (F := Ideal))) ⟨m, fun _ => 0, ρ⟩ (fun r => ∀ c : Dev nD,
      r.2.mem ((c.tc : Thread nD τ).loc main_v76)
          = tail (m ((c.tc : Thread nD τ).loc main_arg0))
              (bySample (rowsAt (m ((c.tc : Thread nD τ).loc main_arg1)) (m ((c.tc : Thread nD τ).loc main_arg2))))
              (bySample (colsAt (m ((c.tc : Thread nD τ).loc main_arg1)) (m ((c.tc : Thread nD τ).loc main_arg2))))
              (bySample (weightsAt (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main (F := Ideal) m ρ)
  · rw [h c main_v76]
    show fin m c main_v76 = _
    rw [fin_result, ref_rows, ref_cols, ref_weights m c (hreal c)]
  · rw [h c main_arg0]; exact fin_main_arg0 m c
  · rw [h c main_arg1]; exact fin_main_arg1 m c
  · rw [h c main_arg2]; exact fin_main_arg2 m c

end Cert.Hyper.Reference

end
-- ==== Proof.lean ====
/-
  The kernel and the reference compute the same sparse product. The kernel lists every sample's eight proposals
  proposal-major and the reference lists them sample-major; both then gather, scale and add the same terms into
  the same output rows, and a sum does not depend on the order of its terms. Where the reference detours through
  machine integers and through the square root of a reciprocal, it agrees with the kernel's direct forms because
  the precondition makes every parameter a real number. The kernel's idealisation rewrote nothing, so there is
  nothing to preserve; the three frames are the runs with their results dropped.
-/
import proofs.«401185_j46634754900206_1_alg».proof.Defs
import proofs.«401185_j46634754900206_1_alg».proof.Proof.Gen.Kernel
import proofs.«401185_j46634754900206_1_alg».proof.Proof.Gen.Kernel.Frame
import proofs.«401185_j46634754900206_1_alg».proof.Proof.Gen.KernelIdeal
import proofs.«401185_j46634754900206_1_alg».proof.Proof.Gen.KernelIdeal.Frame
import proofs.«401185_j46634754900206_1_alg».proof.Proof.Gen.ReferenceIdeal
import proofs.«401185_j46634754900206_1_alg».proof.Proof.Gen.Pre_finite_inputs
import proofs.«401185_j46634754900206_1_alg».proof.Proof.Spec
import proofs.«401185_j46634754900206_1_alg».proof.Proof.TailPerm
import proofs.«401185_j46634754900206_1_alg».proof.Proof.Finite
import proofs.«401185_j46634754900206_1_alg».proof.Proof.KernelValue
import proofs.«401185_j46634754900206_1_alg».proof.Proof.RefValue
import Idealize.ShloMosaic.Adequacy
import Idealize.ShloMosaic.Init

noncomputable section

namespace Cert.Proof

open Idealize.ShloMosaic Idealize.SL.Sem Cert.Hyper

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.Hyper.Reference.ref_frame m ρ

/-- Both programs end at the sparse product of the proposal-major lists: the kernel's run says so directly, and
    the reference's sample-major lists are the proposal-major ones permuted. -/
theorem algebraic : Cert.algebraic_KernelIdeal_ReferenceIdeal := by
  intro m ρ m' ρ' hpre hagree
  refine ⟨_, Cert.Hyper.Kernel.kernel_run m ρ, ?_⟩
  have hreal : ∀ (c : Dev Cert.ReferenceIdeal.nD) (i : SP.Idx),
      ∃ r : ℝ, m' ((c.tc : Thread Cert.ReferenceIdeal.nD Cert.ReferenceIdeal.τ).loc Cert.ReferenceIdeal.main_arg1) i = (r : EReal) := by
    intro c i
    rw [(hagree c).2.1]
    exact params_real _ _ _ (hpre c) i
  refine (θ_run Cert.ReferenceIdeal.defs _ _).mono (fun _ h c => ⟨(h c).1.trans ?_, (h c).2⟩)
    (Cert.Hyper.Reference.ref_run m' ρ' hreal)
  rw [(hagree c).1, (hagree c).2.1, (hagree c).2.2, bySample_eq, bySample_eq, bySample_eq]
  exact tail_perm toProposalMajor _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
